-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x40 : Shape := ⟨2, ![100000, 40]⟩
abbrev S2x1600000 : Shape := ⟨2, ![2, 1600000]⟩
abbrev S40x64 : Shape := ⟨2, ![40, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x3 : Shape := ⟨2, ![64, 3]⟩
abbrev S3 : Shape := ⟨1, ![3]⟩
abbrev S_ : Shape := ⟨0, ![]⟩
abbrev S1x1600000 : Shape := ⟨2, ![1, 1600000]⟩
abbrev S1600000 : Shape := ⟨1, ![1600000]⟩

class Facts : Prop where
  bcast_S_S100000x40 : S_.BroadcastsInDim S100000x40 (![] : Fin 0 → Fin S100000x40.rank)
  reducesTo_S100000x40_S_d0_1 : S100000x40.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1600000 32) (main_arg12 : FVec F S3 .f32) (main_v48 : IVec S_ 1) (main_v49 : FVec F S64x3 .f32) (main_v50 : FVec F S64x3 .f32) : IVec S_ 1 :=
  let main_v51 : IVec S64x3 1 := cmpf .olt main_v49 main_v50
  let main_c_19 : IVec S_ 1 := constantI S_ 1 1#1
  let main_v52 : IVec S_ 1 := (fun x v => Host.reduce IntOp.andi x v reducesTo_S64x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 0#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg1
  let main_v64 : IVec S1600000 32 := shapeCast S1600000 main_v63 shapeCasts_S1x1600000_S1600000
  let main_c_23 : IVec S_ 32 := constantI S_ 32 100000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg1 : IVec S2x1600000 32) (main_arg8 : FVec F S128x64 .f32) (main_arg9 : FVec F S64 .f32) (main_arg10 : FVec F S128x64 .f32) (main_arg11 : FVec F S64x3 .f32) (main_arg12 : FVec F S3 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64x3 .f32 := Host.absf main_arg11
  let main_cst_18 : FVec F S_ .f32 := constant S_ .f32 0x7F800000#32
  let main_v50 : FVec F S64x3 .f32 := broadcastInDim S64x3 ![] bcast_S_S64x3 main_cst_18
  fn_part3 (F := F) main_arg1 main_arg12 main_v48 main_v49 main_v50

def fn_part1 {F : FTy → Type} [FloatOps F] (main_arg1 : IVec S2x1600000 32) (main_arg5 : FVec F S64x128 .f32) (main_arg6 : FVec F S128 .f32) (main_arg7 : FVec F S64x128 .f32) (main_arg8 : FVec F S128x64 .f32) (main_arg9 : FVec F S64 .f32) (main_arg10 : FVec F S128x64 .f32) (main_arg11 : FVec F S64x3 .f32) (main_arg12 : FVec F S3 .f32) (main_v13 : IVec S_ 1) (main_v16 : IVec S40x64 1) : IVec S_ 1 :=
  let main_c_5 : IVec S_ 1 := constantI S_ 1 1#1
  let main_v17 : IVec S_ 1 := (fun x v => Host.reduce IntOp.andi x v reducesTo_S40x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x40 .f32) (main_arg1 : IVec S2x1600000 32) (main_arg2 : FVec F S40x64 .f32) (main_arg3 : FVec F S64 .f32) (main_arg4 : FVec F S40x64 .f32) (main_arg5 : FVec F S64x128 .f32) (main_arg6 : FVec F S128 .f32) (main_arg7 : FVec F S64x128 .f32) (main_arg8 : FVec F S128x64 .f32) (main_arg9 : FVec F S64 .f32) (main_arg10 : FVec F S128x64 .f32) (main_arg11 : FVec F S64x3 .f32) (main_arg12 : FVec F S3 .f32) : IVec S_ 1 :=
  let main_v0 : FVec F S100000x40 .f32 := Host.absf main_arg0
  let main_cst : FVec F S_ .f32 := constant S_ .f32 0x7F800000#32
  let main_v1 : FVec F S100000x40 .f32 := broadcastInDim S100000x40 ![] bcast_S_S100000x40 main_cst
  let main_v2 : IVec S100000x40 1 := cmpf .olt main_v0 main_v1
  let main_c : IVec S_ 1 := constantI S_ 1 1#1
  let main_v3 : IVec S_ 1 := (fun x v => Host.reduce IntOp.andi x v reducesTo_S100000x40_S_d0_1 h_S_) main_v2 main_c
  let main_v4 : FVec F S40x64 .f32 := Host.absf main_arg2
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S40x64 .f32 := Host.absf main_arg4
  let main_cst_4 : FVec F S_ .f32 := constant S_ .f32 0x7F800000#32
  let main_v15 : FVec F S40x64 .f32 := broadcastInDim S40x64 ![] bcast_S_S40x64 main_cst_4
  let main_v16 : IVec S40x64 1 := cmpf .olt main_v14 main_v15
  fn_part1 (F := F) main_arg1 main_arg5 main_arg6 main_arg7 main_arg8 main_arg9 main_arg10 main_arg11 main_arg12 main_v13 main_v16
-- ==== Kernel.lean ====
abbrev S100000x40 : Shape := ⟨2, ![100000, 40]⟩
abbrev S2x1600000 : Shape := ⟨2, ![2, 1600000]⟩
abbrev S40x64 : Shape := ⟨2, ![40, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x40 : Shape := ⟨2, ![1600000, 40]⟩
abbrev S1x64 : Shape := ⟨2, ![1, 64]⟩
abbrev S100000x64 : Shape := ⟨2, ![100000, 64]⟩
abbrev S5000x40 : Shape := ⟨2, ![5000, 40]⟩
abbrev S5000x1 : Shape := ⟨2, ![5000, 1]⟩
abbrev S5000x64 : Shape := ⟨2, ![5000, 64]⟩
abbrev S1600000x64 : Shape := ⟨2, ![1600000, 64]⟩
abbrev S1x128 : Shape := ⟨2, ![1, 128]⟩
abbrev S100000x128 : Shape := ⟨2, ![100000, 128]⟩
abbrev S5000x128 : Shape := ⟨2, ![5000, 128]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 125
  | .vmem => 37
  | .smem => 0
  | _ => 0

abbrev bufTy : (tb : Table) → Fin (tcTables nBuf tb) → BufTy
  | .hbm, ⟨0, _⟩ => ⟨S100000x40, .f32⟩
  | .hbm, ⟨1, _⟩ => ⟨S2x1600000, .i32⟩
  | .hbm, ⟨2, _⟩ => ⟨S40x64, .f32⟩
  | .hbm, ⟨3, _⟩ => ⟨S64, .f32⟩
  | .hbm, ⟨4, _⟩ => ⟨S40x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64x3, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1, .i32⟩
  | .hbm, ⟨39, _⟩ => ⟨S_, .i32⟩
  | .hbm, ⟨40, _⟩ => ⟨S1600000x1, .i32⟩
  | .hbm, ⟨41, _⟩ => ⟨S1600000x1, .i1⟩
  | .hbm, ⟨42, _⟩ => ⟨S1x1, .i32⟩
  | .hbm, ⟨43, _⟩ => ⟨S1600000x1, .i32⟩
  | .hbm, ⟨44, _⟩ => ⟨S1600000x1, .i1⟩
  | .hbm, ⟨45, _⟩ => ⟨S1600000x1, .i1⟩
  | .hbm, ⟨46, _⟩ => ⟨S_, .i1⟩
  | .hbm, ⟨47, _⟩ => ⟨S1600000, .i1⟩
  | .hbm, ⟨48, _⟩ => ⟨S1600000x40, .f32⟩
  | .hbm, ⟨49, _⟩ => ⟨S1600000x40, .i1⟩
  | .hbm, ⟨50, _⟩ => ⟨S_, .f32⟩
  | .hbm, ⟨51, _⟩ => ⟨S1600000x40, .f32⟩
  | .hbm, ⟨52, _⟩ => ⟨S1600000x40, .f32⟩
  | .hbm, ⟨53, _⟩ => ⟨S1600000x40, .bf16⟩
  | .hbm, ⟨54, _⟩ => ⟨S1600000x40, .f32⟩
  | .hbm, ⟨55, _⟩ => ⟨S_, .f32⟩
  | .hbm, ⟨56, _⟩ => ⟨S100000x40, .f32⟩
  | .hbm, ⟨57, _⟩ => ⟨S1600000x1, .i32⟩
  | .hbm, ⟨58, _⟩ => ⟨S100000x40, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1, .i32⟩
  | .hbm, ⟨70, _⟩ => ⟨S_, .i32⟩
  | .hbm, ⟨71, _⟩ => ⟨S1600000x1, .i32⟩
  | .hbm, ⟨72, _⟩ => ⟨S1600000x1, .i1⟩
  | .hbm, ⟨73, _⟩ => ⟨S1x1, .i32⟩
  | .hbm, ⟨74, _⟩ => ⟨S1600000x1, .i32⟩
  | .hbm, ⟨75, _⟩ => ⟨S1600000x1, .i1⟩
  | .hbm, ⟨76, _⟩ => ⟨S1600000x1, .i1⟩
  | .hbm, ⟨77, _⟩ => ⟨S_, .i1⟩
  | .hbm, ⟨78, _⟩ => ⟨S1600000, .i1⟩
  | .hbm, ⟨79, _⟩ => ⟨S1600000x64, .f32⟩
  | .hbm, ⟨80, _⟩ => ⟨S1600000x64, .i1⟩
  | .hbm, ⟨81, _⟩ => ⟨S_, .f32⟩
  | .hbm, ⟨82, _⟩ => ⟨S1600000x64, .f32⟩
  | .hbm, ⟨83, _⟩ => ⟨S1600000x64, .f32⟩
  | .hbm, ⟨84, _⟩ => ⟨S1600000x64, .bf16⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S1x128, .f32⟩
  | .hbm, ⟨91, _⟩ => ⟨S100000x128, .f32⟩
  | .hbm, ⟨92, _⟩ => ⟨S100000x64, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1, .i32⟩
  | .hbm, ⟨102, _⟩ => ⟨S_, .i32⟩
  | .hbm, ⟨103, _⟩ => ⟨S1600000x1, .i32⟩
  | .hbm, ⟨104, _⟩ => ⟨S1600000x1, .i1⟩
  | .hbm, ⟨105, _⟩ => ⟨S1x1, .i32⟩
  | .hbm, ⟨106, _⟩ => ⟨S1600000x1, .i32⟩
  | .hbm, ⟨107, _⟩ => ⟨S1600000x1, .i1⟩
  | .hbm, ⟨108, _⟩ => ⟨S1600000x1, .i1⟩
  | .hbm, ⟨109, _⟩ => ⟨S_, .i1⟩
  | .hbm, ⟨110, _⟩ => ⟨S1600000, .i1⟩
  | .hbm, ⟨111, _⟩ => ⟨S1600000x64, .f32⟩
  | .hbm, ⟨112, _⟩ => ⟨S1600000x64, .i1⟩
  | .hbm, ⟨113, _⟩ => ⟨S_, .f32⟩
  | .hbm, ⟨114, _⟩ => ⟨S1600000x64, .f32⟩
  | .hbm, ⟨115, _⟩ => ⟨S1600000x64, .f32⟩
  | .hbm, ⟨116, _⟩ => ⟨S1600000x64, .bf16⟩
  | .hbm, ⟨117, _⟩ => ⟨S1600000x64, .f32⟩
  | .hbm, ⟨118, _⟩ => ⟨S_, .f32⟩
  | .hbm, ⟨119, _⟩ => ⟨S100000x64, .f32⟩
  | .hbm, ⟨120, _⟩ => ⟨S1600000x1, .i32⟩
  | .hbm, ⟨121, _⟩ => ⟨S100000x64, .f32⟩
  | .hbm, ⟨122, _⟩ => ⟨S1x64, .f32⟩
  | .hbm, ⟨123, _⟩ => ⟨S1x3, .f32⟩
  | .hbm, ⟨124, _⟩ => ⟨S100000x3, .f32⟩
  | .local _ .vmem, ⟨0, _⟩ => ⟨S5000x40, .f32⟩
  | .local _ .vmem, ⟨1, _⟩ => ⟨S5000x40, .f32⟩
  | .local _ .vmem, ⟨2, _⟩ => ⟨S5000x1, .f32⟩
  | .local _ .vmem, ⟨3, _⟩ => ⟨S5000x1, .f32⟩
  | .local _ .vmem, ⟨4, _⟩ => ⟨S5000x40, .f32⟩
  | .local _ .vmem, ⟨5, _⟩ => ⟨S5000x40, .f32⟩
  | .local _ .vmem, ⟨6, _⟩ => ⟨S40x64, .f32⟩
  | .local _ .vmem, ⟨7, _⟩ => ⟨S1x64, .f32⟩
  | .local _ .vmem, ⟨8, _⟩ => ⟨S40x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x128, .f32⟩
  | .local _ .vmem, ⟨18, _⟩ => ⟨S1x128, .f32⟩
  | .local _ .vmem, ⟨19, _⟩ => ⟨S64x128, .f32⟩
  | .local _ .vmem, ⟨20, _⟩ => ⟨S128x64, .f32⟩
  | .local _ .vmem, ⟨21, _⟩ => ⟨S5000x128, .f32⟩
  | .local _ .vmem, ⟨22, _⟩ => ⟨S5000x128, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S5000x128, .f32⟩
  | .local _ .vmem, ⟨30, _⟩ => ⟨S5000x128, .f32⟩
  | .local _ .vmem, ⟨31, _⟩ => ⟨S128x64, .f32⟩
  | .local _ .vmem, ⟨32, _⟩ => ⟨S1x64, .f32⟩
  | .local _ .vmem, ⟨33, _⟩ => ⟨S64x3, .f32⟩
  | .local _ .vmem, ⟨34, _⟩ => ⟨S1x3, .f32⟩
  | .local _ .vmem, ⟨35, _⟩ => ⟨S5000x3, .f32⟩
  | .local _ .vmem, ⟨36, _⟩ => ⟨S5000x3, .f32⟩
  | _, _ => ⟨S100000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_3 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst_4 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28_0 : Ref sig .tc := ⟨.hbm, 91, rfl⟩
abbrev main_v28_1 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_cst_5 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S40x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x40_0 : S1600000.BroadcastsInDim S1600000x40 (![0] : Fin 1 → Fin S1600000x40.rank)
  bcast_S_S1600000x40 : S_.BroadcastsInDim S1600000x40 (![] : Fin 0 → Fin S1600000x40.rank)
  bitsLt_bf16_f32 : FTy.bits .bf16 < FTy.bits .f32
  bcast_S_S100000x40 : S_.BroadcastsInDim S100000x40 (![] : Fin 0 → Fin S100000x40.rank)
  shapeCasts_S64_S1x64 : S64.ShapeCasts S1x64
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x40 : S5000x1.Broadcasts S5000x40
  inb_S40x64_S40x64_0_0 : ∀ a, (![0, 0] : Fin 2 → Nat) a + S40x64.size a ≤ S40x64.size a
  h_S40x64 : 0 < S40x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S128_S1x128 : S128.ShapeCasts S1x128
  shapeCasts_S5000x64_S5000x64 : S5000x64.ShapeCasts S5000x64
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S3_S1x3 : S3.ShapeCasts S1x3
  shapeCasts_S5000x128_S5000x128 : S5000x128.ShapeCasts S5000x128
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S1600000x1_S1600000_n_0_0_1_wf : ScatterDims.WF S100000 S1600000x1 S1600000 [] [0] [0] 1
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S5000x40_S40x64_S5000x64_1_0_0_1_n_n_wf : DotDims.WF S5000x40 S40x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x3_S5000x3_1_0_0_1_n_n_wf : DotDims.WF S5000x64 S64x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x40.size a ≤ S100000x40.size a
  hwx0_0 : ∀ i : grid0.Coords, EltTy.bits .f32 = 32 ∨ (Rect.block (s := S100000x40) S5000x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x40.size a ≤ S100000x40.size a
  hwx0_2 : ∀ i : grid0.Coords, EltTy.bits .f32 = 32 ∨ (Rect.block (s := S100000x40) S5000x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x64.size a ≤ S40x64.size a
  hwx0_3 : ∀ i : grid0.Coords, EltTy.bits .f32 = 32 ∨ (Rect.block (s := S40x64) S40x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x64.size a ≤ S40x64.size a
  hwx0_5 : ∀ i : grid0.Coords, EltTy.bits .f32 = 32 ∨ (Rect.block (s := S40x64) S40x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x3.size a ≤ S64x3.size a
  hwx2_5 : ∀ i : grid2.Coords, EltTy.bits .f32 = 32 ∨ (Rect.block (s := S64x3) S64x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3.size a ≤ S1x3.size a
  hwx2_6 : ∀ i : grid2.Coords, EltTy.bits .f32 = 32 ∨ (Rect.block (s := S1x3) S1x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x3.size a ≤ S100000x3.size a
  hwx2_7 : ∀ i : grid2.Coords, EltTy.bits .f32 = 32 ∨ (Rect.block (s := S100000x3) S5000x3.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S5000x40_S40x64_S5000x64_1_0_0_1_n_n : DotDims S5000x40 S40x64 S5000x64 where
  lhsContracting := [1]
  rhsContracting := [0]
  lhsNonContracting := [0]
  rhsNonContracting := [1]
  lhsBatch := []
  rhsBatch := []
  wf := dot_S5000x40_S40x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf

abbrev win0_0 : Pipeline.Window sig grid0 :=
  Pipeline.Window.ofSpec (Memref.whole main_v18) S5000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x40.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S40x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S40x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v28_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v37) S5000x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x40 : Shape := ⟨2, ![100000, 40]⟩
abbrev S2x1600000 : Shape := ⟨2, ![2, 1600000]⟩
abbrev S40x64 : Shape := ⟨2, ![40, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x40 : Shape := ⟨2, ![1600000, 40]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x3 : Shape := ⟨2, ![100000, 3]⟩
abbrev S1x3 : Shape := ⟨2, ![1, 3]⟩

abbrev nBuf : Space → Nat
  | .hbm => 123
  | .vmem => 0
  | .smem => 0
  | _ => 0

abbrev bufTy : (tb : Table) → Fin (tcTables nBuf tb) → BufTy
  | .hbm, ⟨0, _⟩ => ⟨S100000x40, .f32⟩
  | .hbm, ⟨1, _⟩ => ⟨S2x1600000, .i32⟩
  | .hbm, ⟨2, _⟩ => ⟨S40x64, .f32⟩
  | .hbm, ⟨3, _⟩ => ⟨S64, .f32⟩
  | .hbm, ⟨4, _⟩ => ⟨S40x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64x3, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x40, .f32⟩
  | .hbm, ⟨26, _⟩ => ⟨S_, .f32⟩
  | .hbm, ⟨27, _⟩ => ⟨S100000x40, .f32⟩
  | .hbm, ⟨28, _⟩ => ⟨S1600000x1, .i32⟩
  | .hbm, ⟨29, _⟩ => ⟨S100000x40, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x40, .f32⟩
  | .hbm, ⟨41, _⟩ => ⟨S100000x40, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S_, .f32⟩
  | .hbm, ⟨99, _⟩ => ⟨S1600000, .f32⟩
  | .hbm, ⟨100, _⟩ => ⟨S_, .f32⟩
  | .hbm, ⟨101, _⟩ => ⟨S100000, .f32⟩
  | .hbm, ⟨102, _⟩ => ⟨S1600000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S100000x3, .f32⟩
  | .hbm, ⟨120, _⟩ => ⟨S1x3, .f32⟩
  | .hbm, ⟨121, _⟩ => ⟨S100000x3, .f32⟩
  | .hbm, ⟨122, _⟩ => ⟨S100000x3, .f32⟩
  | _, _ => ⟨S100000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x40 : S_.BroadcastsInDim S100000x40 (![] : Fin 0 → Fin S100000x40.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  scatter_S100000_S1600000x1_S1600000_n_0_0_1_wf : ScatterDims.WF S100000 S1600000x1 S1600000 [] [0] [0] 1
  dot_S100000x40_S40x64_S100000x64_1_0_0_1_n_n_wf : DotDims.WF S100000x40 S40x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x3_S100000x3_1_0_0_1_n_n_wf : DotDims.WF S100000x64 S64x3 S100000x3 [1] [0] [0] [1] [] []

variable [Facts₀]

def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x40_S40x64_S100000x64_1_0_0_1_n_n : DotDims S100000x40 S40x64 S100000x64 where
  lhsContracting := [1]
  rhsContracting := [0]
  lhsNonContracting := [0]
  rhsNonContracting := [1]
  lhsBatch := []
  rhsBatch := []
  wf := dot_S100000x40_S40x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.Spec.lean ====
/-
  The mathematics of three layers of mean-aggregating graph convolution over the extended reals.

  A layer takes the per-node aggregate `agg` (the sum of the messages arriving at each node), the reciprocal count
  column `ic`, the node features `x`, two weight matrices and a bias row, and returns
  `max (((agg · ic) Wl + x Wr) + b) 0` entry by entry. The second layer also returns its result times a further matrix;
  the last layer adds an already transformed aggregate instead of transforming it, and ends in one more affine map.
  Everything is stated entry by entry, at a row `p` and a column `r`.
-/
import Idealize.ShloMosaic.PureOps.Ideal.Laws
import Idealize.ShloMosaic.Lib.ValueIdx

noncomputable section

open scoped BigOperators

namespace Cert.Sage

open Idealize.ShloMosaic Idealize.ShloMosaic.ValueIdx

/-- A matrix given by its entries. -/
def ofCoords {n m : Nat} (f : Fin n → Fin m → EReal) : FVec Ideal ⟨2, ![n, m]⟩ .f32 :=
  fun i => f ⟨(i 0).val, idx2_lt0 i⟩ ⟨(i 1).val, idx2_lt1 i⟩

theorem ofCoords_ix2 {n m : Nat} (f : Fin n → Fin m → EReal) (p : Fin n) (r : Fin m) : ofCoords f (ix2 p r) = f p r := rfl

/-- The matrix product, entry by entry. -/
def mm {n k m : Nat} (A : FVec Ideal ⟨2, ![n, k]⟩ .f32) (B : FVec Ideal ⟨2, ![k, m]⟩ .f32) : FVec Ideal ⟨2, ![n, m]⟩ .f32 :=
  ofCoords fun p r => ∑ q : Fin k, A (ix2 p q) * B (ix2 q r)

/-- One layer in the kernel's arrangement: the aggregate is scaled by the reciprocal count `ic` of its row, multiplied by
    `wl`; the features are multiplied by `wr`; the two products are added, then the bias, and the result is cut at zero. -/
def layer {n k m : Nat} (agg : FVec Ideal ⟨2, ![n, k]⟩ .f32) (ic : FVec Ideal ⟨2, ![n, 1]⟩ .f32)
    (x : FVec Ideal ⟨2, ![n, k]⟩ .f32) (wl : FVec Ideal ⟨2, ![k, m]⟩ .f32) (b : FVec Ideal ⟨2, ![1, m]⟩ .f32)
    (wr : FVec Ideal ⟨2, ![k, m]⟩ .f32) : FVec Ideal ⟨2, ![n, m]⟩ .f32 :=
  ofCoords fun p r => max (((∑ q : Fin k, (agg (ix2 p q) * ic (ix2 p 0)) * wl (ix2 q r))
    + (∑ q : Fin k, x (ix2 p q) * wr (ix2 q r))) + b (ix2 0 r)) 0

/-- The last layer fused with the closing affine map: the hidden row is
    `max (((x wr) + aggp · ic) + b) 0` (the aggregate `aggp` is already transformed), and the result is that row times `w4`
    plus `b4`. -/
def lastLayer {n k h o : Nat} (aggp : FVec Ideal ⟨2, ![n, h]⟩ .f32) (ic : FVec Ideal ⟨2, ![n, 1]⟩ .f32)
    (x : FVec Ideal ⟨2, ![n, k]⟩ .f32) (wr : FVec Ideal ⟨2, ![k, h]⟩ .f32) (b : FVec Ideal ⟨2, ![1, h]⟩ .f32)
    (w4 : FVec Ideal ⟨2, ![h, o]⟩ .f32) (b4 : FVec Ideal ⟨2, ![1, o]⟩ .f32) : FVec Ideal ⟨2, ![n, o]⟩ .f32 :=
  ofCoords fun p r => (∑ q : Fin h,
      max (((∑ t : Fin k, x (ix2 p t) * wr (ix2 t q)) + aggp (ix2 p q) * ic (ix2 p 0)) + b (ix2 0 q)) 0 * w4 (ix2 q r))
    + b4 (ix2 0 r)

/-- A vector laid out as a one-row matrix. -/
def asRow {m : Nat} (b : FVec Ideal ⟨1, ![m]⟩ .f32) : FVec Ideal ⟨2, ![1, m]⟩ .f32 :=
  ofCoords fun _ r => b (ix1 r)

/-- The reciprocal count column: one over the larger of a node's count and one. -/
def icOf {n : Nat} (cnt : FVec Ideal ⟨1, ![n]⟩ .f32) : FVec Ideal ⟨2, ![n, 1]⟩ .f32 :=
  ofCoords fun p _ => Ideal.div 1 (max (cnt (ix1 p)) 1)

/-- The aggregate of the rows of `h` along the edges `ei` (row 0: the source node of each edge, row 1: its destination):
    entry (p, q) is the sum, over the edges whose destination is `p`, of entry q of the source node's row. A source
    outside the node range is read at the nearest node; a destination outside it contributes nowhere. -/
def agg {n k e : Nat} (hn : 0 < n) (h : FVec Ideal ⟨2, ![n, k]⟩ .f32) (ei : IVec ⟨2, ![2, e]⟩ 32) :
    FVec Ideal ⟨2, ![n, k]⟩ .f32 :=
  ofCoords fun p q => 0 + ∑ j : Fin e, if (ei (ix2 1 j)).toInt = (p.val : ℤ)
    then h (ix2 ⟨min (ei (ix2 0 j)).toInt.toNat (n - 1), by omega⟩ q) else 0

/-- Every source node of the edge list is a node. -/
def SrcOK (n : Nat) {e : Nat} (ei : IVec ⟨2, ![2, e]⟩ 32) : Prop :=
  ∀ j : Fin e, 0 ≤ (ei (ix2 0 j)).toInt ∧ (ei (ix2 0 j)).toInt < (n : ℤ)

/-- Every entry is a real number. -/
def IsReal {s : Shape} (A : s.Idx → EReal) : Prop := ∀ i, ∃ r : ℝ, A i = (r : EReal)

end Cert.Sage

end
-- ==== Proof.Region0.lean ====
/-
  What the first pallas_call leaves in its output array, as one function of the arrays it finds.
-/
import proofs.«412509_j41248865911345_3_alg».proof.Proof.Gen.KernelIdeal.Frame
import proofs.«412509_j41248865911345_3_alg».proof.Proof.Spec
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

open scoped BigOperators

/-! ## The contraction of a 5000×40 by a 40×64 matrix, entry by entry -/

private theorem lhs_dot0_0 (i : S5000x64.Idx) (q : dot_S5000x40_S40x64_S5000x64_1_0_0_1_n_n.contr.Idx) :
    (dot_S5000x40_S40x64_S5000x64_1_0_0_1_n_n.lhsIdx i q 0).val = (i 0).val := by
  unfold DotDims.lhsIdx
  rw [dif_neg (show ¬(0 : Fin S5000x40.rank) ∈ dot_S5000x40_S40x64_S5000x64_1_0_0_1_n_n.lhsBatch by decide), dif_pos (show (0 : Fin S5000x40.rank) ∈ dot_S5000x40_S40x64_S5000x64_1_0_0_1_n_n.lhsNonContracting by decide)]
  rfl
private theorem lhs_dot0_1 (i : S5000x64.Idx) (q : dot_S5000x40_S40x64_S5000x64_1_0_0_1_n_n.contr.Idx) :
    (dot_S5000x40_S40x64_S5000x64_1_0_0_1_n_n.lhsIdx i q 1).val = (q ⟨0, by decide⟩).val :=
  dot_S5000x40_S40x64_S5000x64_1_0_0_1_n_n.lhsIdx_val_of_single rfl i q
private theorem rhs_dot0_0 (i : S5000x64.Idx) (q : dot_S5000x40_S40x64_S5000x64_1_0_0_1_n_n.contr.Idx) :
    (dot_S5000x40_S40x64_S5000x64_1_0_0_1_n_n.rhsIdx i q 0).val = (q ⟨0, by decide⟩).val :=
  dot_S5000x40_S40x64_S5000x64_1_0_0_1_n_n.rhsIdx_val_of_single rfl i q
private theorem rhs_dot0_1 (i : S5000x64.Idx) (q : dot_S5000x40_S40x64_S5000x64_1_0_0_1_n_n.contr.Idx) :
    (dot_S5000x40_S40x64_S5000x64_1_0_0_1_n_n.rhsIdx i q 1).val = (i 1).val := by
  unfold DotDims.rhsIdx
  rw [dif_neg (show ¬(1 : Fin S40x64.rank) ∈ dot_S5000x40_S40x64_S5000x64_1_0_0_1_n_n.rhsBatch by decide), dif_pos (show (1 : Fin S40x64.rank) ∈ dot_S5000x40_S40x64_S5000x64_1_0_0_1_n_n.rhsNonContracting by decide)]
  rfl

/-- A product into the zero accumulator, at row `p` and column `r`: the sum over the forty inner positions. -/
private theorem matmul0_apply {φ₁ φ₂ : FTy} (A : FVec Ideal S5000x40 φ₁) (B : FVec Ideal S40x64 φ₂) (p : Fin 5000) (r : Fin 64) :
    matmul dot_S5000x40_S40x64_S5000x64_1_0_0_1_n_n none A B (constant (F := Ideal) S5000x64 .f32 0x00000000#32) (ix2 p r)
      = ∑ k : Fin 40, A (ix2 p k) * B (ix2 k r) := by
  simp only [matmul]
  rw [Ideal.matmul_constant_zero_apply, ← Equiv.sum_comp (ValueIdx.contrEquiv1 dot_S5000x40_S40x64_S5000x64_1_0_0_1_n_n 40 rfl rfl).symm]
  refine Finset.sum_congr rfl fun k _ => ?_
  have hk := ValueIdx.contrEquiv1_symm_val dot_S5000x40_S40x64_S5000x64_1_0_0_1_n_n 40 rfl rfl k
  have el : dot_S5000x40_S40x64_S5000x64_1_0_0_1_n_n.lhsIdx (ix2 p r) ((ValueIdx.contrEquiv1 dot_S5000x40_S40x64_S5000x64_1_0_0_1_n_n 40 rfl rfl).symm k) = ix2 p k := funext fun a => Fin.ext (by
    match a with
    | ⟨0, _⟩ => exact lhs_dot0_0 _ _
    | ⟨1, _⟩ => exact (lhs_dot0_1 _ _).trans hk)
  have er : dot_S5000x40_S40x64_S5000x64_1_0_0_1_n_n.rhsIdx (ix2 p r) ((ValueIdx.contrEquiv1 dot_S5000x40_S40x64_S5000x64_1_0_0_1_n_n 40 rfl rfl).symm k) = ix2 k r := funext fun a => Fin.ext (by
    match a with
    | ⟨0, _⟩ => exact (rhs_dot0_0 _ _).trans hk
    | ⟨1, _⟩ => exact rhs_dot0_1 _ _)
  rw [el, er]

/-! ## The two broadcasts of the body -/

/-- A column spread over forty columns reads the column's entry of the same row. -/
private theorem bcastCol_apply (x : FVec Ideal S5000x1 .f32) (p : Fin 5000) (q : Fin 40) :
    broadcastTo S5000x40 x broadcasts_S5000x1_S5000x40 (ix2 p q) = x (ix2 p 0) := by
  refine broadcastTo_apply x broadcasts_S5000x1_S5000x40 (ix2 p q) (ix2 p 0) (fun a => ?_)
  match a with
  | ⟨0, _⟩ => show p.val = if (5000 : Nat) = 1 then 0 else p.val; rw [if_neg (by decide)]
  | ⟨1, _⟩ => show 0 = if (1 : Nat) = 1 then 0 else q.val; rw [if_pos rfl]

/-- A row spread over five thousand rows reads the row's entry of the same column. -/
private theorem bcastRow_apply (x : FVec Ideal S1x64 .f32) (p : Fin 5000) (r : Fin 64) :
    broadcastTo S5000x64 x broadcasts_S1x64_S5000x64 (ix2 p r) = x (ix2 0 r) := by
  refine broadcastTo_apply x broadcasts_S1x64_S5000x64 (ix2 p r) (ix2 0 r) (fun a => ?_)
  match a with
  | ⟨0, _⟩ => show 0 = if (1 : Nat) = 1 then 0 else p.val; rw [if_pos rfl]
  | ⟨1, _⟩ => show r.val = if (64 : Nat) = 1 then 0 else r.val; rw [if_neg (by decide)]

/-! ## The body's stored value, entry by entry -/

private theorem pay0_apply (x0 : Vec Ideal S5000x40 .f32) (x1 : Vec Ideal S5000x1 .f32) (x2 : Vec Ideal S5000x40 .f32)
    (x3 : Vec Ideal S40x64 .f32) (x5 : Vec Ideal S40x64 .f32) (x4 : Vec Ideal S1x64 .f32) (p : Fin 5000) (r : Fin 64) :
    k0_pay1 (F := Ideal) x0 x1 x2 x3 x5 x4 (ix2 p r)
      = max (((∑ q : Fin 40, (x0 (ix2 p q) * x1 (ix2 p 0)) * x3 (ix2 q r))
          + (∑ q : Fin 40, x2 (ix2 p q) * x5 (ix2 q r))) + x4 (ix2 0 r)) 0 := by
  unfold k0_pay1
  rw [maximumf_apply, addf_apply, addf_apply, matmul0_apply, matmul0_apply, bcastRow_apply, broadcast_apply,
    shapeCast_self, show (FloatOps.ofBits FTy.f32 0x00000000#32 : Ideal .f32) = 0 from Ideal.ofBits_zero_f32]
  simp only [truncf_apply, mulf_apply, bcastCol_apply, shapeCast_self]

/-! ## From the blocks to the array -/

private theorem hz : (![0, 0] : Fin 2 → Nat) = fun _ => 0 := funext fun a => by fin_cases a <;> rfl

/-- The index maps over the twenty points: the row-blocked windows are at block row `t`, the whole-array windows at the origin. -/
private theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- One entry of the stored block, when the six blocks are the rows `5000 b …` of the aggregate, of the count column and of
    the features, and the three whole small arrays: the layer's entry at row `5000 b + p`. -/
private theorem point_value (A18 : FVec Ideal S100000x40 .f32) (A12 : FVec Ideal S100000x1 .f32) (A0 : FVec Ideal S100000x40 .f32)
    (W2 : FVec Ideal S40x64 .f32) (B19 : FVec Ideal S1x64 .f32) (W4 : FVec Ideal S40x64 .f32)
    (x0 : Vec Ideal S5000x40 .f32) (x1 : Vec Ideal S5000x1 .f32) (x2 : Vec Ideal S5000x40 .f32)
    (x3 : Vec Ideal S40x64 .f32) (x4 : Vec Ideal S1x64 .f32) (x5 : Vec Ideal S40x64 .f32)
    (b : Nat) (hb : b < 20)
    (h0 : ∀ (p : Fin 5000) (q : Fin 40), x0 (ix2 p q) = A18 (ix2 ⟨b * 5000 + p.val, by omega⟩ q))
    (h1 : ∀ (p : Fin 5000), x1 (ix2 p 0) = A12 (ix2 ⟨b * 5000 + p.val, by omega⟩ 0))
    (h2 : ∀ (p : Fin 5000) (q : Fin 40), x2 (ix2 p q) = A0 (ix2 ⟨b * 5000 + p.val, by omega⟩ q))
    (h3 : ∀ (q : Fin 40) (r : Fin 64), x3 (ix2 q r) = W2 (ix2 q r))
    (h4 : ∀ (r : Fin 64), x4 (ix2 0 r) = B19 (ix2 0 r))
    (h5 : ∀ (q : Fin 40) (r : Fin 64), x5 (ix2 q r) = W4 (ix2 q r))
    (p : Fin 5000) (r : Fin 64) :
    k0_pay1 (F := Ideal) x0 x1 x2 x3 x5 x4 (ix2 p r)
      = Cert.Sage.layer A18 A12 A0 W2 B19 W4 (ix2 ⟨b * 5000 + p.val, by omega⟩ r) := by
  rw [pay0_apply]
  unfold Cert.Sage.layer
  rw [Cert.Sage.ofCoords_ix2]
  simp only [h0, h1, h2, h3, h4, h5]

/-- A block of the aggregate, entry by entry. -/
private theorem iblk0_0_apply (c : Dev nD) (t : Fin cfg0.N) (p : Fin 5000) (q : Fin 40) (k : S100000x40.Idx)
    (hk0 : (k 0).val = t.val * 5000 + p.val) (hk1 : (k 1).val = q.val) :
    (iblk0 V c 0 t : Vec Ideal S5000x40 .f32) (ix2 p q) = (V c main_v18 : S100000x40.Idx → Elt Ideal .f32) k := by
  obtain ⟨e0, e1, -⟩ := idx_facts0 t
  unfold iblk0
  rw [View.read_apply]
  show V c main_v18 _ = V c main_v18 _
  congr 1
  funext a
  apply Fin.ext
  match a with
  | ⟨0, _⟩ => show win0_0.index t 0 * 5000 + 1 * p.val = (k 0).val; rw [e0, hk0]; omega
  | ⟨1, _⟩ => show win0_0.index t 1 * 40 + 1 * q.val = (k 1).val; rw [e1, hk1]; omega

/-- A block of the reciprocal count column, entry by entry. -/
private theorem iblk0_1_apply (c : Dev nD) (t : Fin cfg0.N) (p : Fin 5000) (k : S100000x1.Idx)
    (hk0 : (k 0).val = t.val * 5000 + p.val) (hk1 : (k 1).val = 0) :
    (iblk0 V c 1 t : Vec Ideal S5000x1 .f32) (ix2 p 0) = (V c main_v12 : S100000x1.Idx → Elt Ideal .f32) k := by
  obtain ⟨-, -, e0, e1, -⟩ := idx_facts0 t
  unfold iblk0
  rw [View.read_apply]
  show V c main_v12 _ = V c main_v12 _
  congr 1
  funext a
  apply Fin.ext
  match a with
  | ⟨0, _⟩ => show win0_1.index t 0 * 5000 + 1 * p.val = (k 0).val; rw [e0, hk0]; omega
  | ⟨1, _⟩ => show win0_1.index t 1 * 1 + 1 * 0 = (k 1).val; rw [e1, hk1]

/-- A block of the features, entry by entry. -/
private theorem iblk0_2_apply (c : Dev nD) (t : Fin cfg0.N) (p : Fin 5000) (q : Fin 40) (k : S100000x40.Idx)
    (hk0 : (k 0).val = t.val * 5000 + p.val) (hk1 : (k 1).val = q.val) :
    (iblk0 V c 2 t : Vec Ideal S5000x40 .f32) (ix2 p q) = (V c main_arg0 : S100000x40.Idx → Elt Ideal .f32) k := by
  obtain ⟨-, -, -, -, e0, e1, -⟩ := idx_facts0 t
  unfold iblk0
  rw [View.read_apply]
  show V c main_arg0 _ = V c main_arg0 _
  congr 1
  funext a
  apply Fin.ext
  match a with
  | ⟨0, _⟩ => show win0_2.index t 0 * 5000 + 1 * p.val = (k 0).val; rw [e0, hk0]; omega
  | ⟨1, _⟩ => show win0_2.index t 1 * 40 + 1 * q.val = (k 1).val; rw [e1, hk1]; omega

/-- The left weight matrix is fetched whole. -/
private theorem iblk0_3_apply (c : Dev nD) (t : Fin cfg0.N) (q : Fin 40) (r : Fin 64) :
    (iblk0 V c 3 t : Vec Ideal S40x64 .f32) (ix2 q r) = (V c main_arg2 : S40x64.Idx → Elt Ideal .f32) (ix2 q r) := by
  obtain ⟨-, -, -, -, -, -, e0, e1, -⟩ := idx_facts0 t
  unfold iblk0
  rw [View.read_apply]
  show V c main_arg2 _ = V c main_arg2 _
  congr 1
  funext a
  apply Fin.ext
  match a with
  | ⟨0, _⟩ => show win0_3.index t 0 * 40 + 1 * q.val = q.val; rw [e0]; omega
  | ⟨1, _⟩ => show win0_3.index t 1 * 64 + 1 * r.val = r.val; rw [e1]; omega

/-- The bias row is fetched whole. -/
private theorem iblk0_4_apply (c : Dev nD) (t : Fin cfg0.N) (r : Fin 64) :
    (iblk0 V c 4 t : Vec Ideal S1x64 .f32) (ix2 0 r) = (V c main_v19 : S1x64.Idx → Elt Ideal .f32) (ix2 0 r) := by
  obtain ⟨-, -, -, -, -, -, -, -, e0, e1, -⟩ := idx_facts0 t
  unfold iblk0
  rw [View.read_apply]
  show V c main_v19 _ = V c main_v19 _
  congr 1
  funext a
  apply Fin.ext
  match a with
  | ⟨0, _⟩ => show win0_4.index t 0 * 1 + 1 * 0 = 0; rw [e0]
  | ⟨1, _⟩ => show win0_4.index t 1 * 64 + 1 * r.val = r.val; rw [e1]; omega

/-- The right weight matrix is fetched whole. -/
private theorem iblk0_5_apply (c : Dev nD) (t : Fin cfg0.N) (q : Fin 40) (r : Fin 64) :
    (iblk0 V c 5 t : Vec Ideal S40x64 .f32) (ix2 q r) = (V c main_arg4 : S40x64.Idx → Elt Ideal .f32) (ix2 q r) := by
  obtain ⟨-, -, -, -, -, -, -, -, -, -, e0, e1, -⟩ := idx_facts0 t
  unfold iblk0
  rw [View.read_apply]
  show V c main_arg4 _ = V c main_arg4 _
  congr 1
  funext a
  apply Fin.ext
  match a with
  | ⟨0, _⟩ => show win0_5.index t 0 * 40 + 1 * q.val = q.val; rw [e0]; omega
  | ⟨1, _⟩ => show win0_5.index t 1 * 64 + 1 * r.val = r.val; rw [e1]; omega

/-- What point `t` writes back is block `t` of the layer of the arrays the region finds. -/
private theorem flushed6_eq (c : Dev nD) (t : Fin cfg0.N) :
    (dat0 (F := Ideal) V c).flushed 6 t = ((cfg0.win 6).blk t).view.read (Elt Ideal)
      (Cert.Sage.layer (V c main_v18) (V c main_v12) (V c main_arg0) (V c main_arg2) (V c main_v19) (V c main_arg4)) := by
  show (cfg0.win 6).cut (grid0.coords t) ((dat0 V c).after 6 t) = _
  rw [after0_6]
  unfold out0_6
  rw [View.canon_unit_zero hz]
  simp only [View.ld_unit_zero (S := S5000x40) hz, View.ld_unit_zero (S := S5000x1) hz, View.ld_unit_zero (S := S40x64) hz, View.ld_unit_zero (S := S1x64) hz]
  funext j
  obtain ⟨p, r, rfl⟩ : ∃ (p : Fin 5000) (r : Fin 64), j = ix2 p r := ⟨j 0, j 1, eq_ix2 j⟩
  have ht : t.val < 20 := t.isLt
  have e := (idx_facts0 t).2.2.2.2.2.2.2.2.2.2.2.2
  have hemb : ((cfg0.win 6).blk t).view.emb (ix2 p r) = (ix2 ⟨t.val * 5000 + p.val, by omega⟩ r : S100000x64.Idx) := by
    funext a
    apply Fin.ext
    match a with
    | ⟨0, _⟩ => show win0_6.index t 0 * 5000 + 1 * p.val = t.val * 5000 + p.val; rw [e.1]; omega
    | ⟨1, _⟩ => show win0_6.index t 1 * 64 + 1 * r.val = r.val; rw [e.2]; omega
  show k0_pay1 (F := Ideal) (iblk0 V c 0 t) (iblk0 V c 1 t) (iblk0 V c 2 t) (iblk0 V c 3 t) (iblk0 V c 5 t) (iblk0 V c 4 t) (ix2 p r)
    = Cert.Sage.layer (V c main_v18) (V c main_v12) (V c main_arg0) (V c main_arg2) (V c main_v19) (V c main_arg4) (((cfg0.win 6).blk t).view.emb (ix2 p r))
  rw [hemb]
  exact point_value (V c main_v18) (V c main_v12) (V c main_arg0) (V c main_arg2) (V c main_v19) (V c main_arg4)
    (iblk0 V c 0 t) (iblk0 V c 1 t) (iblk0 V c 2 t) (iblk0 V c 3 t) (iblk0 V c 4 t) (iblk0 V c 5 t) t.val ht
    (fun p q => iblk0_0_apply V c t p q _ rfl rfl) (fun p => iblk0_1_apply V c t p _ rfl rfl)
    (fun p q => iblk0_2_apply V c t p q _ rfl rfl) (fun q r => iblk0_3_apply V c t q r)
    (fun r => iblk0_4_apply V c t r) (fun q r => iblk0_5_apply V c t q r) p r

/-- An index of the output array is in point `t`'s block iff each coordinate is in the block's range on its axis. -/
private theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v20).slice (win0_6.rect t)).set ↔ _
  rw [View.set_slice_whole, Rect.mem_set_unit]
  exact Iff.rfl

/-- Every row of the output array is in the block of the point `row / 5000`. -/
private theorem covered6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  rw [mem_blk6]
  have e := (idx_facts0 ⟨(i 0).val / 5000, by rw [hN]; omega⟩).2.2.2.2.2.2.2.2.2.2.2.2
  intro a
  match a with
  | ⟨0, _⟩ =>
    show win0_6.index _ (0 : Fin 2) * 5000 ≤ (i 0).val ∧ (i 0).val < win0_6.index _ (0 : Fin 2) * 5000 + 5000
    rw [e.1]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e.2]; omega

/-- After the first call's twenty grid points its output array is the first layer of the arrays it was entered with. -/
theorem arr0_6 (c : Dev nD) :
    (dat0 (F := Ideal) V c).arrAt 6 cfg0.N
      = Cert.Sage.layer (V c main_v18) (V c main_v12) (V c main_arg0) (V c main_arg2) (V c main_v19) (V c main_arg4) :=
  (dat0 (F := Ideal) V c).arrAt_eq_of_cover 6
    (Cert.Sage.layer (V c main_v18) (V c main_v12) (V c main_arg0) (V c main_arg2) (V c main_v19) (V c main_arg4))
    (fun t _ => flushed6_eq V c t) covered6

end Cert.KernelIdeal.RegionValue

end
-- ==== Proof.Region1.lean ====
/-
  What the second pallas_call leaves in its two output arrays, as functions of the arrays it finds.
-/
import proofs.«412509_j41248865911345_3_alg».proof.Proof.Gen.KernelIdeal.Frame
import proofs.«412509_j41248865911345_3_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

namespace R1

/-! ## The body's two kinds of matrix product, read at an entry -/

theorem lhsA_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsA_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhsA_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhsA_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into a zero accumulator, at row `p` and column `r`: the sum over the 64 contracted positions. -/
theorem mmA_apply {φ₁ φ₂ : FTy} (l : FVec Ideal S5000x64 φ₁) (r : FVec Ideal S64x128 φ₂) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhsA_0 _ _).trans hk
    | ⟨1, _⟩ => exact rhsA_1 _ _)
  rw [el, er]

theorem lhsB_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsB_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsB_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsB_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at row `p` and column `r`: the sum over the 128 contracted positions. -/
theorem mmB_apply {φ₁ φ₂ : FTy} (l : FVec Ideal S5000x128 φ₁) (r : FVec Ideal S128x64 φ₂) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The body's broadcasts, read at an entry -/

/-- A column broadcast along the rows' 64 entries reads, at `(p, k)`, the column's entry of row `p`. -/
theorem bcol_apply (x : FVec Ideal S5000x1 .f32) (p : Fin 5000) (k : Fin 64) :
    broadcastTo S5000x64 x broadcasts_S5000x1_S5000x64 (ix2 p k) = x (ix2 p (0 : Fin 1)) :=
  broadcastTo_apply x broadcasts_S5000x1_S5000x64 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-! ## The body's stored values, entry by entry -/

/-- The first stored value at row `p`, column `q` of the block: the layer's formula over the loaded blocks. -/
theorem pay1_apply (v0 : Vec Ideal S5000x64 .f32) (v2 : Vec Ideal S5000x1 .f32) (v7 : Vec Ideal S5000x64 .f32)
    (v10 : Vec Ideal S64x128 .f32) (v12 : Vec Ideal S64x128 .f32) (v17 : Vec Ideal S1x128 .f32) (p : Fin 5000) (q : Fin 128) :
    k1_pay1 (F := Ideal) v0 v2 v7 v10 v12 v17 (ix2 p q)
      = max (((∑ k : Fin 64, (v0 (ix2 p k) * v2 (ix2 p (0 : Fin 1))) * v10 (ix2 k q))
          + (∑ k : Fin 64, v7 (ix2 p k) * v12 (ix2 k q))) + v17 (ix2 (0 : Fin 1) q)) 0 := by
  unfold k1_pay1
  rw [maximumf_apply, addf_apply, addf_apply, mmA_apply, mmA_apply, broadcast_apply, shapeCast_self, shapeCast_self, shapeCast_self,
    shapeCast_self, broadcastTo_1b_ab_apply]
  simp only [truncf_apply, mulf_apply, bcol_apply, Ideal.ofBits_def, Ideal.ofBits_zero_f32]

/-- The second stored value at row `p`, column `r`: the first stored value's row `p` times column `r` of the last matrix. -/
theorem pay2_apply (v0 : Vec Ideal S5000x64 .f32) (v2 : Vec Ideal S5000x1 .f32) (v7 : Vec Ideal S5000x64 .f32)
    (v10 : Vec Ideal S64x128 .f32) (v12 : Vec Ideal S64x128 .f32) (v17 : Vec Ideal S1x128 .f32) (v25 : Vec Ideal S128x64 .f32)
    (p : Fin 5000) (r : Fin 64) :
    k1_pay2 (F := Ideal) v0 v2 v7 v10 v12 v17 v25 (ix2 p r)
      = ∑ q : Fin 128, k1_pay1 (F := Ideal) v0 v2 v7 v10 v12 v17 (ix2 p q) * v25 (ix2 q r) := by
  unfold k1_pay2
  rw [mmB_apply]
  simp only [truncf_apply]

/-! ## From the blocks to the arrays -/

theorem hz : (![0, 0] : Fin 2 → Nat) = fun _ => 0 := funext fun a => by fin_cases a <;> rfl

/-- What the body leaves in the first output's buffer is its first stored value of the blocks it loaded. -/
theorem out7_eq (x0 : Vec Ideal S5000x64 .f32) (x1 : Vec Ideal S5000x1 .f32) (x2 : Vec Ideal S5000x64 .f32) (x3 : Vec Ideal S64x128 .f32)
    (x4 : Vec Ideal S1x128 .f32) (x5 : Vec Ideal S64x128 .f32) (x6 : Vec Ideal S128x64 .f32) :
    out1_7 (F := Ideal) x0 x1 x2 x3 x4 x5 x6 = k1_pay1 (F := Ideal) x0 x1 x2 x3 x5 x4 := by
  unfold out1_7
  rw [View.canon_unit_zero hz]
  simp only [View.ld_unit_zero (S := S5000x64) hz, View.ld_unit_zero (S := S5000x1) hz, View.ld_unit_zero (S := S64x128) hz,
    View.ld_unit_zero (S := S1x128) hz]

/-- What it leaves in the second output's buffer is its second stored value. -/
theorem out8_eq (x0 : Vec Ideal S5000x64 .f32) (x1 : Vec Ideal S5000x1 .f32) (x2 : Vec Ideal S5000x64 .f32) (x3 : Vec Ideal S64x128 .f32)
    (x4 : Vec Ideal S1x128 .f32) (x5 : Vec Ideal S64x128 .f32) (x6 : Vec Ideal S128x64 .f32) :
    out1_8 (F := Ideal) x0 x1 x2 x3 x4 x5 x6 = k1_pay2 (F := Ideal) x0 x1 x2 x3 x5 x4 x6 := by
  unfold out1_8
  rw [View.canon_unit_zero hz]
  simp only [View.ld_unit_zero (S := S5000x64) hz, View.ld_unit_zero (S := S5000x1) hz, View.ld_unit_zero (S := S64x128) hz,
    View.ld_unit_zero (S := S1x128) hz, View.ld_unit_zero (S := S128x64) hz]

/-- The block index maps over the twenty grid points: a row-blocked window's block at point `t` is block row `t`. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- A whole-array window's block is block (0, 0) at every point. -/
theorem idx_whole : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem pt_lt (t : Fin cfg1.N) : t.val < 20 := by
  have h : t.val < grid1.N := t.isLt
  rw [N_1] at h
  exact h

/-- Row `p` of the block of point `t`, as a row of the array. -/
def rowOf (t : Fin cfg1.N) (p : Fin 5000) : Fin 100000 := ⟨t.val * 5000 + p.val, by have := pt_lt t; have := p.isLt; omega⟩

theorem emb0 (t : Fin cfg1.N) (p : Fin 5000) (k : Fin 64) : ((cfg1.win 0).blk t).view.emb (ix2 p k) = ix2 (rowOf t p) k := by
  obtain ⟨e0, e1, -⟩ := idx_rows t
  funext a; apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem emb1 (t : Fin cfg1.N) (p : Fin 5000) (k : Fin 1) : ((cfg1.win 1).blk t).view.emb (ix2 p k) = ix2 (rowOf t p) k := by
  obtain ⟨-, -, e0, e1, -⟩ := idx_rows t
  funext a; apply Fin.ext
  match a with
  | ⟨0, _⟩ => show win1_1.index t (0 : Fin 2) * 5000 + 1 * p.val = t.val * 5000 + p.val; rw [e0]; omega
  | ⟨1, _⟩ => show win1_1.index t (1 : Fin 2) * 1 + 1 * k.val = k.val; rw [e1]; omega

theorem emb2 (t : Fin cfg1.N) (p : Fin 5000) (k : Fin 64) : ((cfg1.win 2).blk t).view.emb (ix2 p k) = ix2 (rowOf t p) k := by
  obtain ⟨-, -, -, -, e0, e1, -⟩ := idx_rows t
  funext a; apply Fin.ext
  match a with
  | ⟨0, _⟩ => show win1_2.index t (0 : Fin 2) * 5000 + 1 * p.val = t.val * 5000 + p.val; rw [e0]; omega
  | ⟨1, _⟩ => show win1_2.index t (1 : Fin 2) * 64 + 1 * k.val = k.val; rw [e1]; omega

theorem emb7 (t : Fin cfg1.N) (p : Fin 5000) (k : Fin 128) : ((cfg1.win 7).blk t).view.emb (ix2 p k) = ix2 (rowOf t p) k := by
  obtain ⟨-, -, -, -, -, -, e0, e1, -⟩ := idx_rows t
  funext a; apply Fin.ext
  match a with
  | ⟨0, _⟩ => show win1_7.index t (0 : Fin 2) * 5000 + 1 * p.val = t.val * 5000 + p.val; rw [e0]; omega
  | ⟨1, _⟩ => show win1_7.index t (1 : Fin 2) * 128 + 1 * k.val = k.val; rw [e1]; omega

theorem emb8 (t : Fin cfg1.N) (p : Fin 5000) (k : Fin 64) : ((cfg1.win 8).blk t).view.emb (ix2 p k) = ix2 (rowOf t p) k := by
  obtain ⟨-, -, -, -, -, -, -, -, e0, e1⟩ := idx_rows t
  funext a; apply Fin.ext
  match a with
  | ⟨0, _⟩ => show win1_8.index t (0 : Fin 2) * 5000 + 1 * p.val = t.val * 5000 + p.val; rw [e0]; omega
  | ⟨1, _⟩ => show win1_8.index t (1 : Fin 2) * 64 + 1 * k.val = k.val; rw [e1]; omega

theorem emb3 (t : Fin cfg1.N) (k : Fin 64) (q : Fin 128) : ((cfg1.win 3).blk t).view.emb (ix2 k q) = ix2 k q := by
  obtain ⟨e0, e1, -⟩ := idx_whole t
  funext a; apply Fin.ext
  match a with
  | ⟨0, _⟩ => show win1_3.index t (0 : Fin 2) * 64 + 1 * k.val = k.val; rw [e0]; omega
  | ⟨1, _⟩ => show win1_3.index t (1 : Fin 2) * 128 + 1 * q.val = q.val; rw [e1]; omega

theorem emb4 (t : Fin cfg1.N) (k : Fin 1) (q : Fin 128) : ((cfg1.win 4).blk t).view.emb (ix2 k q) = ix2 k q := by
  obtain ⟨-, -, e0, e1, -⟩ := idx_whole t
  funext a; apply Fin.ext
  match a with
  | ⟨0, _⟩ => show win1_4.index t (0 : Fin 2) * 1 + 1 * k.val = k.val; rw [e0]; omega
  | ⟨1, _⟩ => show win1_4.index t (1 : Fin 2) * 128 + 1 * q.val = q.val; rw [e1]; omega

theorem emb5 (t : Fin cfg1.N) (k : Fin 64) (q : Fin 128) : ((cfg1.win 5).blk t).view.emb (ix2 k q) = ix2 k q := by
  obtain ⟨-, -, -, -, e0, e1, -⟩ := idx_whole t
  funext a; apply Fin.ext
  match a with
  | ⟨0, _⟩ => show win1_5.index t (0 : Fin 2) * 64 + 1 * k.val = k.val; rw [e0]; omega
  | ⟨1, _⟩ => show win1_5.index t (1 : Fin 2) * 128 + 1 * q.val = q.val; rw [e1]; omega

theorem emb6 (t : Fin cfg1.N) (k : Fin 128) (q : Fin 64) : ((cfg1.win 6).blk t).view.emb (ix2 k q) = ix2 k q := by
  obtain ⟨-, -, -, -, -, -, e0, e1⟩ := idx_whole t
  funext a; apply Fin.ext
  match a with
  | ⟨0, _⟩ => show win1_6.index t (0 : Fin 2) * 128 + 1 * k.val = k.val; rw [e0]; omega
  | ⟨1, _⟩ => show win1_6.index t (1 : Fin 2) * 64 + 1 * q.val = q.val; rw [e1]; omega

/-! ## The body's stored values over blocks that are rows of arrays -/

/-- A function of a two-axis index is given by its values at explicit coordinates. -/
theorem ext_ix2 {n m : Nat} {f g : (⟨2, ![n, m]⟩ : Shape).Idx → EReal} (h : ∀ (p : Fin n) (q : Fin m), f (ix2 p q) = g (ix2 p q)) : f = g :=
  funext fun j => by rw [eq_ix2 j]; exact h _ _

/-- If the row-blocked loads are rows `t · 5000 + p` of three arrays and the whole-array loads are three arrays, the first stored
    value at `(p, q)` is the layer of the six arrays at row `t · 5000 + p`. -/
theorem pay1_layer (t : Fin cfg1.N) (x0 : Vec Ideal S5000x64 .f32) (x1 : Vec Ideal S5000x1 .f32) (x2 : Vec Ideal S5000x64 .f32)
    (x3 : Vec Ideal S64x128 .f32) (x4 : Vec Ideal S1x128 .f32) (x5 : Vec Ideal S64x128 .f32)
    (A0 : FVec Ideal ⟨2, ![100000, 64]⟩ .f32) (A1 : FVec Ideal ⟨2, ![100000, 1]⟩ .f32) (A2 : FVec Ideal ⟨2, ![100000, 64]⟩ .f32)
    (A3 : FVec Ideal ⟨2, ![64, 128]⟩ .f32) (A4 : FVec Ideal ⟨2, ![1, 128]⟩ .f32) (A5 : FVec Ideal ⟨2, ![64, 128]⟩ .f32)
    (h0 : ∀ (p : Fin 5000) (k : Fin 64), x0 (ix2 p k) = A0 (ix2 (rowOf t p) k))
    (h1 : ∀ (p : Fin 5000) (k : Fin 1), x1 (ix2 p k) = A1 (ix2 (rowOf t p) k))
    (h2 : ∀ (p : Fin 5000) (k : Fin 64), x2 (ix2 p k) = A2 (ix2 (rowOf t p) k))
    (h3 : ∀ (k : Fin 64) (q : Fin 128), x3 (ix2 k q) = A3 (ix2 k q))
    (h4 : ∀ (k : Fin 1) (q : Fin 128), x4 (ix2 k q) = A4 (ix2 k q))
    (h5 : ∀ (k : Fin 64) (q : Fin 128), x5 (ix2 k q) = A5 (ix2 k q))
    (p : Fin 5000) (q : Fin 128) :
    k1_pay1 (F := Ideal) x0 x1 x2 x3 x5 x4 (ix2 p q) = Cert.Sage.layer A0 A1 A2 A3 A4 A5 (ix2 (rowOf t p) q) := by
  rw [pay1_apply]
  simp only [h0, h1, h2, h3, h4, h5]
  rfl

/-- With the last whole-array load a seventh array, the second stored value at `(p, r)` is that layer times the seventh array,
    at row `t · 5000 + p`. -/
theorem pay2_mm (t : Fin cfg1.N) (x0 : Vec Ideal S5000x64 .f32) (x1 : Vec Ideal S5000x1 .f32) (x2 : Vec Ideal S5000x64 .f32)
    (x3 : Vec Ideal S64x128 .f32) (x4 : Vec Ideal S1x128 .f32) (x5 : Vec Ideal S64x128 .f32) (x6 : Vec Ideal S128x64 .f32)
    (A0 : FVec Ideal ⟨2, ![100000, 64]⟩ .f32) (A1 : FVec Ideal ⟨2, ![100000, 1]⟩ .f32) (A2 : FVec Ideal ⟨2, ![100000, 64]⟩ .f32)
    (A3 : FVec Ideal ⟨2, ![64, 128]⟩ .f32) (A4 : FVec Ideal ⟨2, ![1, 128]⟩ .f32) (A5 : FVec Ideal ⟨2, ![64, 128]⟩ .f32)
    (A6 : FVec Ideal ⟨2, ![128, 64]⟩ .f32)
    (h0 : ∀ (p : Fin 5000) (k : Fin 64), x0 (ix2 p k) = A0 (ix2 (rowOf t p) k))
    (h1 : ∀ (p : Fin 5000) (k : Fin 1), x1 (ix2 p k) = A1 (ix2 (rowOf t p) k))
    (h2 : ∀ (p : Fin 5000) (k : Fin 64), x2 (ix2 p k) = A2 (ix2 (rowOf t p) k))
    (h3 : ∀ (k : Fin 64) (q : Fin 128), x3 (ix2 k q) = A3 (ix2 k q))
    (h4 : ∀ (k : Fin 1) (q : Fin 128), x4 (ix2 k q) = A4 (ix2 k q))
    (h5 : ∀ (k : Fin 64) (q : Fin 128), x5 (ix2 k q) = A5 (ix2 k q))
    (h6 : ∀ (q : Fin 128) (r : Fin 64), x6 (ix2 q r) = A6 (ix2 q r))
    (p : Fin 5000) (r : Fin 64) :
    k1_pay2 (F := Ideal) x0 x1 x2 x3 x5 x4 x6 (ix2 p r)
      = Cert.Sage.mm (Cert.Sage.layer A0 A1 A2 A3 A4 A5) A6 (ix2 (rowOf t p) r) := by
  rw [pay2_apply]
  show _ = ∑ q : Fin 128, Cert.Sage.layer A0 A1 A2 A3 A4 A5 (ix2 (rowOf t p) q) * A6 (ix2 q r)
  refine Finset.sum_congr rfl fun q _ => ?_
  rw [pay1_layer t x0 x1 x2 x3 x4 x5 A0 A1 A2 A3 A4 A5 h0 h1 h2 h3 h4 h5 p q, h6]

/-! ## The windows' blocks as rows of the arrays the call is entered with -/

theorem blk0_apply (c : Dev nD) (t : Fin cfg1.N) (p : Fin 5000) (k : Fin 64) :
    (iblk1 V c 0 t : Vec Ideal S5000x64 .f32) (ix2 p k) = (V c main_v26 : FVec Ideal ⟨2, ![100000, 64]⟩ .f32) (ix2 (rowOf t p) k) :=
  congrArg (V c main_v26 : FVec Ideal ⟨2, ![100000, 64]⟩ .f32) (emb0 t p k)

theorem blk1_apply (c : Dev nD) (t : Fin cfg1.N) (p : Fin 5000) (k : Fin 1) :
    (iblk1 V c 1 t : Vec Ideal S5000x1 .f32) (ix2 p k) = (V c main_v12 : FVec Ideal ⟨2, ![100000, 1]⟩ .f32) (ix2 (rowOf t p) k) :=
  congrArg (V c main_v12 : FVec Ideal ⟨2, ![100000, 1]⟩ .f32) (emb1 t p k)

theorem blk2_apply (c : Dev nD) (t : Fin cfg1.N) (p : Fin 5000) (k : Fin 64) :
    (iblk1 V c 2 t : Vec Ideal S5000x64 .f32) (ix2 p k) = (V c main_v20 : FVec Ideal ⟨2, ![100000, 64]⟩ .f32) (ix2 (rowOf t p) k) :=
  congrArg (V c main_v20 : FVec Ideal ⟨2, ![100000, 64]⟩ .f32) (emb2 t p k)

theorem blk3_apply (c : Dev nD) (t : Fin cfg1.N) (k : Fin 64) (q : Fin 128) :
    (iblk1 V c 3 t : Vec Ideal S64x128 .f32) (ix2 k q) = (V c main_arg5 : FVec Ideal ⟨2, ![64, 128]⟩ .f32) (ix2 k q) :=
  congrArg (V c main_arg5 : FVec Ideal ⟨2, ![64, 128]⟩ .f32) (emb3 t k q)

theorem blk4_apply (c : Dev nD) (t : Fin cfg1.N) (k : Fin 1) (q : Fin 128) :
    (iblk1 V c 4 t : Vec Ideal S1x128 .f32) (ix2 k q) = (V c main_v27 : FVec Ideal ⟨2, ![1, 128]⟩ .f32) (ix2 k q) :=
  congrArg (V c main_v27 : FVec Ideal ⟨2, ![1, 128]⟩ .f32) (emb4 t k q)

theorem blk5_apply (c : Dev nD) (t : Fin cfg1.N) (k : Fin 64) (q : Fin 128) :
    (iblk1 V c 5 t : Vec Ideal S64x128 .f32) (ix2 k q) = (V c main_arg7 : FVec Ideal ⟨2, ![64, 128]⟩ .f32) (ix2 k q) :=
  congrArg (V c main_arg7 : FVec Ideal ⟨2, ![64, 128]⟩ .f32) (emb5 t k q)

theorem blk6_apply (c : Dev nD) (t : Fin cfg1.N) (k : Fin 128) (q : Fin 64) :
    (iblk1 V c 6 t : Vec Ideal S128x64 .f32) (ix2 k q) = (V c main_arg8 : FVec Ideal ⟨2, ![128, 64]⟩ .f32) (ix2 k q) :=
  congrArg (V c main_arg8 : FVec Ideal ⟨2, ![128, 64]⟩ .f32) (emb6 t k q)

/-! ## What a grid point writes back -/

/-- Point `t` writes back, to the first output, block `t` of the layer of the arrays the call is entered with. -/
theorem flushed7_eq (c : Dev nD) (t : Fin cfg1.N) :
    (dat1 (F := Ideal) V c).flushed 7 t = ((cfg1.win 7).blk t).view.read (Elt Ideal)
      (Cert.Sage.layer (V c main_v26) (V c main_v12) (V c main_v20) (V c main_arg5) (V c main_v27) (V c main_arg7)) := by
  show (cfg1.win 7).cut (grid1.coords t) ((dat1 V c).after 7 t) = _
  rw [after1_7, out7_eq]
  refine ext_ix2 (n := 5000) (m := 128) fun p q => ?_
  refine (pay1_layer t (iblk1 V c 0 t) (iblk1 V c 1 t) (iblk1 V c 2 t) (iblk1 V c 3 t) (iblk1 V c 4 t) (iblk1 V c 5 t)
    (V c main_v26) (V c main_v12) (V c main_v20) (V c main_arg5) (V c main_v27) (V c main_arg7)
    (blk0_apply V c t) (blk1_apply V c t) (blk2_apply V c t) (blk3_apply V c t) (blk4_apply V c t) (blk5_apply V c t) p q).trans ?_
  exact (congrArg (Cert.Sage.layer (V c main_v26) (V c main_v12) (V c main_v20) (V c main_arg5) (V c main_v27) (V c main_arg7)) (emb7 t p q)).symm

/-- Point `t` writes back, to the second output, block `t` of that layer times the array of the seventh window. -/
theorem flushed8_eq (c : Dev nD) (t : Fin cfg1.N) :
    (dat1 (F := Ideal) V c).flushed 8 t = ((cfg1.win 8).blk t).view.read (Elt Ideal)
      (Cert.Sage.mm (Cert.Sage.layer (V c main_v26) (V c main_v12) (V c main_v20) (V c main_arg5) (V c main_v27) (V c main_arg7))
        (V c main_arg8)) := by
  show (cfg1.win 8).cut (grid1.coords t) ((dat1 V c).after 8 t) = _
  rw [after1_8, out8_eq]
  refine ext_ix2 (n := 5000) (m := 64) fun p r => ?_
  refine (pay2_mm t (iblk1 V c 0 t) (iblk1 V c 1 t) (iblk1 V c 2 t) (iblk1 V c 3 t) (iblk1 V c 4 t) (iblk1 V c 5 t) (iblk1 V c 6 t)
    (V c main_v26) (V c main_v12) (V c main_v20) (V c main_arg5) (V c main_v27) (V c main_arg7) (V c main_arg8)
    (blk0_apply V c t) (blk1_apply V c t) (blk2_apply V c t) (blk3_apply V c t) (blk4_apply V c t) (blk5_apply V c t)
    (blk6_apply V c t) p r).trans ?_
  exact (congrArg (Cert.Sage.mm (Cert.Sage.layer (V c main_v26) (V c main_v12) (V c main_v20) (V c main_arg5) (V c main_v27) (V c main_arg7))
    (V c main_arg8)) (emb8 t p r)).symm

/-! ## The twenty blocks cover each output array -/

/-- An index of the first output array is in point `t`'s block iff each coordinate is in the block's range on its axis. -/
theorem mem_blk7 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v28_0).slice (win1_7.rect t)).set ↔ _
  rw [View.set_slice_whole, Rect.mem_set_unit]
  exact Iff.rfl

/-- The same for the second output array. -/
theorem mem_blk8 (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v28_1).slice (win1_8.rect t)).set ↔ _
  rw [View.set_slice_whole, Rect.mem_set_unit]
  exact Iff.rfl

/-- The point whose block holds row `r`: `r / 5000`. -/
def ptOf (r : Nat) (h : r < 100000) : Fin cfg1.N := ⟨r / 5000, by rw [show cfg1.N = 20 from N_1]; omega⟩

theorem ptOf_val (r : Nat) (h : r < 100000) : (ptOf r h).val = r / 5000 := rfl

/-- Row `r` of the first output array is in the block of point `r / 5000`. -/
theorem cover7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  refine ⟨ptOf (i 0).val hi0, flush1_7 _, ?_⟩
  rw [mem_blk7]
  obtain ⟨-, -, -, -, -, -, e0, e1, -⟩ := idx_rows (ptOf (i 0).val hi0)
  rw [ptOf_val] at e0
  intro a
  match a with
  | ⟨0, _⟩ =>
    show win1_7.index (ptOf (i 0).val hi0) (0 : Fin 2) * 5000 ≤ (i 0).val
      ∧ (i 0).val < win1_7.index (ptOf (i 0).val hi0) (0 : Fin 2) * 5000 + 5000
    rw [e0]; omega
  | ⟨1, _⟩ =>
    show win1_7.index (ptOf (i 0).val hi0) (1 : Fin 2) * 128 ≤ (i 1).val
      ∧ (i 1).val < win1_7.index (ptOf (i 0).val hi0) (1 : Fin 2) * 128 + 128
    rw [e1]; omega

/-- Row `r` of the second output array is in the block of point `r / 5000`. -/
theorem cover8 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  refine ⟨ptOf (i 0).val hi0, flush1_8 _, ?_⟩
  rw [mem_blk8]
  obtain ⟨-, -, -, -, -, -, -, -, e0, e1⟩ := idx_rows (ptOf (i 0).val hi0)
  rw [ptOf_val] at e0
  intro a
  match a with
  | ⟨0, _⟩ =>
    show win1_8.index (ptOf (i 0).val hi0) (0 : Fin 2) * 5000 ≤ (i 0).val
      ∧ (i 0).val < win1_8.index (ptOf (i 0).val hi0) (0 : Fin 2) * 5000 + 5000
    rw [e0]; omega
  | ⟨1, _⟩ =>
    show win1_8.index (ptOf (i 0).val hi0) (1 : Fin 2) * 64 ≤ (i 1).val
      ∧ (i 1).val < win1_8.index (ptOf (i 0).val hi0) (1 : Fin 2) * 64 + 64
    rw [e1]; omega

end R1

open R1

/-! ## The two output arrays after the twenty grid points -/

/-- After the second call's twenty grid points its first output array is the second layer of the arrays it was entered with. -/
theorem arr1_7 (c : Dev nD) :
    (dat1 (F := Ideal) V c).arrAt 7 cfg1.N
      = Cert.Sage.layer (V c main_v26) (V c main_v12) (V c main_v20) (V c main_arg5) (V c main_v27) (V c main_arg7) :=
  (dat1 (F := Ideal) V c).arrAt_eq_of_cover 7 _ (fun t _ => flushed7_eq V c t) cover7

/-- Its second output array is that layer times the matrix of the seventh window. -/
theorem arr1_8 (c : Dev nD) :
    (dat1 (F := Ideal) V c).arrAt 8 cfg1.N
      = Cert.Sage.mm (Cert.Sage.layer (V c main_v26) (V c main_v12) (V c main_v20) (V c main_arg5) (V c main_v27) (V c main_arg7))
          (V c main_arg8) :=
  (dat1 (F := Ideal) V c).arrAt_eq_of_cover 8 _ (fun t _ => flushed8_eq V c t) cover8

end Cert.KernelIdeal.RegionValue

end
-- ==== Proof.Region2.lean ====
/-
  What the third pallas_call leaves in its output array, as one function of the arrays it finds.

  The body's result at an entry of its block is read first (two block products into zero accumulators, a column and two
  row broadcasts, a cut at zero); then each block of a grid point is identified with rows of the arrays — the row-blocked
  windows take rows `5000 t … 5000 t + 4999` at point `t`, the weight and bias windows the whole array —; so point `t`
  writes back block `t` of the last layer, and the twenty blocks cover the output.
-/
import proofs.«412509_j41248865911345_3_alg».proof.Proof.Gen.KernelIdeal.Frame
import proofs.«412509_j41248865911345_3_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-! ## The two block products read at an entry -/

theorem lhsA_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsA_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsA_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsA_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of a [5000,128] block and a [128,64] matrix into a zero accumulator, at row `p` and column `q`: the sum
    over the 128 inner positions. -/
theorem matmulA_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S5000x3.Idx) (q : dot_S5000x64_S64x3_S5000x3_1_0_0_1_n_n.contr.Idx) :
    (dot_S5000x64_S64x3_S5000x3_1_0_0_1_n_n.lhsIdx i q 0).val = (i 0).val := by
  unfold DotDims.lhsIdx
  rw [dif_neg (show ¬(0 : Fin S5000x64.rank) ∈ dot_S5000x64_S64x3_S5000x3_1_0_0_1_n_n.lhsBatch by decide), dif_pos (show (0 : Fin S5000x64.rank) ∈ dot_S5000x64_S64x3_S5000x3_1_0_0_1_n_n.lhsNonContracting by decide)]
  rfl
theorem lhsB_1 (i : S5000x3.Idx) (q : dot_S5000x64_S64x3_S5000x3_1_0_0_1_n_n.contr.Idx) :
    (dot_S5000x64_S64x3_S5000x3_1_0_0_1_n_n.lhsIdx i q 1).val = (q ⟨0, by decide⟩).val :=
  dot_S5000x64_S64x3_S5000x3_1_0_0_1_n_n.lhsIdx_val_of_single rfl i q
theorem rhsB_0 (i : S5000x3.Idx) (q : dot_S5000x64_S64x3_S5000x3_1_0_0_1_n_n.contr.Idx) :
    (dot_S5000x64_S64x3_S5000x3_1_0_0_1_n_n.rhsIdx i q 0).val = (q ⟨0, by decide⟩).val :=
  dot_S5000x64_S64x3_S5000x3_1_0_0_1_n_n.rhsIdx_val_of_single rfl i q
theorem rhsB_1 (i : S5000x3.Idx) (q : dot_S5000x64_S64x3_S5000x3_1_0_0_1_n_n.contr.Idx) :
    (dot_S5000x64_S64x3_S5000x3_1_0_0_1_n_n.rhsIdx i q 1).val = (i 1).val := by
  unfold DotDims.rhsIdx
  rw [dif_neg (show ¬(1 : Fin S64x3.rank) ∈ dot_S5000x64_S64x3_S5000x3_1_0_0_1_n_n.rhsBatch by decide), dif_pos (show (1 : Fin S64x3.rank) ∈ dot_S5000x64_S64x3_S5000x3_1_0_0_1_n_n.rhsNonContracting by decide)]
  rfl

/-- The product of a [5000,64] block and a [64,3] matrix into a zero accumulator, at row `p` and column `r`: the sum
    over the 64 inner positions. -/
theorem matmulB_apply (l : FVec Ideal S5000x64 .bf16) (r : FVec Ideal S64x3 .bf16) (p : Fin 5000) (q : Fin 3) :
    matmul dot_S5000x64_S64x3_S5000x3_1_0_0_1_n_n none l r (constant (F := Ideal) S5000x3 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x3_S5000x3_1_0_0_1_n_n 64 rfl rfl).symm]
  refine Finset.sum_congr rfl fun k _ => ?_
  have hk := ValueIdx.contrEquiv1_symm_val dot_S5000x64_S64x3_S5000x3_1_0_0_1_n_n 64 rfl rfl k
  have el : dot_S5000x64_S64x3_S5000x3_1_0_0_1_n_n.lhsIdx (ix2 p q) ((ValueIdx.contrEquiv1 dot_S5000x64_S64x3_S5000x3_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x3_S5000x3_1_0_0_1_n_n.rhsIdx (ix2 p q) ((ValueIdx.contrEquiv1 dot_S5000x64_S64x3_S5000x3_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The payload at an entry -/

/-- A [a,1] column broadcast to [a,b] reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row `p` and column `r` of its block: the hidden row — the features' block times the right
    weights, plus the transformed aggregate scaled by the row's reciprocal count, plus the bias, cut at zero — times the
    closing weights, plus the closing bias. -/
theorem pay_apply (x0 : Vec Ideal S5000x64 .f32) (x1 : Vec Ideal S5000x1 .f32) (x2 : Vec Ideal S5000x128 .f32)
    (x3 : Vec Ideal S128x64 .f32) (x4 : Vec Ideal S1x64 .f32) (x5 : Vec Ideal S64x3 .f32) (x6 : Vec Ideal S1x3 .f32)
    (p : Fin 5000) (r : Fin 3) :
    k2_pay1 x0 x1 x2 x3 x4 x5 x6 (ix2 p r)
      = (∑ q : Fin 64, max (((∑ t : Fin 128, x2 (ix2 p t) * x3 (ix2 t q)) + x0 (ix2 p q) * x1 (ix2 p 0)) + x4 (ix2 0 q)) 0
          * x5 (ix2 q r)) + x6 (ix2 0 r) := by
  unfold k2_pay1
  simp only [shapeCast_self]
  rw [addf_apply, matmulB_apply, broadcastTo_1b_ab_apply]
  refine congrArg (· + _) (Finset.sum_congr rfl fun q _ => ?_)
  rw [truncf_apply, truncf_apply, maximumf_apply, addf_apply, addf_apply, matmulA_apply, mulf_apply,
    broadcastTo_a1_ab_apply, broadcastTo_1b_ab_apply, broadcast_apply]
  show max (∑ k : Fin 128, x2 (ix2 p k) * x3 (ix2 k q) + x0 (ix2 p q) * x1 (ix2 p 0) + x4 (ix2 0 q))
      (Ideal.ofBits .f32 0x00000000#32) * x5 (ix2 q r) = _
  rw [Ideal.ofBits_zero_f32]

/-! ## What a point leaves in the output's staging buffer, at an entry -/

theorem hz : (![0, 0] : Fin 2 → Nat) = fun _ => 0 := funext fun a => by fin_cases a <;> rfl

/-- The staging buffer after the body, at row `p` and column `r`: the body's one store covers the buffer, so it is the
    payload of the whole input blocks there. -/
theorem out_apply (x0 : Vec Ideal S5000x64 .f32) (x1 : Vec Ideal S5000x1 .f32) (x2 : Vec Ideal S5000x128 .f32)
    (x3 : Vec Ideal S128x64 .f32) (x4 : Vec Ideal S1x64 .f32) (x5 : Vec Ideal S64x3 .f32) (x6 : Vec Ideal S1x3 .f32)
    (p : Fin 5000) (r : Fin 3) :
    out2_7 x0 x1 x2 x3 x4 x5 x6 (ix2 p r)
      = (∑ q : Fin 64, max (((∑ t : Fin 128, x2 (ix2 p t) * x3 (ix2 t q)) + x0 (ix2 p q) * x1 (ix2 p 0)) + x4 (ix2 0 q)) 0
          * x5 (ix2 q r)) + x6 (ix2 0 r) := by
  unfold out2_7
  rw [View.canon_unit_zero hz]
  simp only [View.ld_unit_zero (S := S5000x64) hz, View.ld_unit_zero (S := S5000x1) hz,
    View.ld_unit_zero (S := S5000x128) hz, View.ld_unit_zero (S := S128x64) hz, View.ld_unit_zero (S := S1x64) hz,
    View.ld_unit_zero (S := S64x3) hz, View.ld_unit_zero (S := S1x3) hz]
  exact pay_apply x0 x1 x2 x3 x4 x5 x6 p r

/-- If the seven blocks are rows `P` (for the row-blocked ones, at block row `p`) and the whole of the arrays
    `A0 … A6`, the staging buffer at `(p, r)` is the last layer of those arrays at `(P, r)`. -/
theorem out_eq_lastLayer (x0 : Vec Ideal S5000x64 .f32) (x1 : Vec Ideal S5000x1 .f32) (x2 : Vec Ideal S5000x128 .f32)
    (x3 : Vec Ideal S128x64 .f32) (x4 : Vec Ideal S1x64 .f32) (x5 : Vec Ideal S64x3 .f32) (x6 : Vec Ideal S1x3 .f32)
    (A0 : FVec Ideal ⟨2, ![100000, 64]⟩ .f32) (A1 : FVec Ideal ⟨2, ![100000, 1]⟩ .f32)
    (A2 : FVec Ideal ⟨2, ![100000, 128]⟩ .f32) (A3 : FVec Ideal ⟨2, ![128, 64]⟩ .f32)
    (A4 : FVec Ideal ⟨2, ![1, 64]⟩ .f32) (A5 : FVec Ideal ⟨2, ![64, 3]⟩ .f32) (A6 : FVec Ideal ⟨2, ![1, 3]⟩ .f32)
    (P : Fin 100000) (p : Fin 5000) (r : Fin 3)
    (h0 : ∀ q : Fin 64, x0 (ix2 p q) = A0 (ix2 P q)) (h1 : x1 (ix2 p 0) = A1 (ix2 P 0))
    (h2 : ∀ t : Fin 128, x2 (ix2 p t) = A2 (ix2 P t)) (h3 : ∀ (t : Fin 128) (q : Fin 64), x3 (ix2 t q) = A3 (ix2 t q))
    (h4 : ∀ q : Fin 64, x4 (ix2 0 q) = A4 (ix2 0 q)) (h5 : ∀ (q : Fin 64) (r : Fin 3), x5 (ix2 q r) = A5 (ix2 q r))
    (h6 : ∀ r : Fin 3, x6 (ix2 0 r) = A6 (ix2 0 r)) :
    out2_7 x0 x1 x2 x3 x4 x5 x6 (ix2 p r) = Cert.Sage.lastLayer A0 A1 A2 A3 A4 A5 A6 (ix2 P r) := by
  rw [out_apply]
  show _ = (∑ q : Fin 64,
      max (((∑ t : Fin 128, A2 (ix2 P t) * A3 (ix2 t q)) + A0 (ix2 P q) * A1 (ix2 P 0)) + A4 (ix2 0 q)) 0 * A5 (ix2 q r))
    + A6 (ix2 0 r)
  simp only [h0, h1, h2, h3, h4, h5, h6]

/-! ## The blocks of a grid point, as rows of the arrays -/

/-- The printed index maps over the twenty grid points: the row-blocked windows (the transformed aggregate, the reciprocal
    counts, the features and the output) take block row `t` at point `t`; the weight and bias windows always take
    block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

theorem point_lt (t : Fin cfg2.N) : t.val < 20 := Nat.lt_of_lt_of_eq t.isLt (show cfg2.N = 20 from N_2)

/-- Row `p` of the transformed aggregate's block at point `t` is row `5000 t + p` of the array. -/
theorem blk0_apply (c : Dev nD) (t : Fin cfg2.N) (p : Fin 5000) (q : Fin 64) (P : Fin 100000)
    (hP : P.val = 5000 * t.val + p.val) :
    (iblk2 (F := Ideal) V c 0 t (ix2 p q) : EReal) = (V c main_v34 (ix2 P q) : EReal) := by
  obtain ⟨⟨e0, e1⟩, -⟩ := idx_facts t
  show V c main_v34 (((cfg2.win 0).blk t).view.emb (ix2 p q)) = V c main_v34 (ix2 P q)
  congr 1
  funext a
  apply Fin.ext
  match a with
  | ⟨0, _⟩ => show win2_0.index t (0 : Fin 2) * 5000 + 1 * p.val = P.val; rw [e0, hP]; omega
  | ⟨1, _⟩ => show win2_0.index t (1 : Fin 2) * 64 + 1 * q.val = q.val; rw [e1]; omega

/-- The reciprocal count of row `p` of the block at point `t` is that of row `5000 t + p`. -/
theorem blk1_apply (c : Dev nD) (t : Fin cfg2.N) (p : Fin 5000) (P : Fin 100000)
    (hP : P.val = 5000 * t.val + p.val) :
    (iblk2 (F := Ideal) V c 1 t (ix2 p (0 : Fin 1)) : EReal) = (V c main_v12 (ix2 P (0 : Fin 1)) : EReal) := by
  obtain ⟨-, ⟨e0, e1⟩, -⟩ := idx_facts t
  show V c main_v12 (((cfg2.win 1).blk t).view.emb (ix2 p (0 : Fin 1))) = V c main_v12 (ix2 P (0 : Fin 1))
  congr 1
  funext a
  apply Fin.ext
  match a with
  | ⟨0, _⟩ => show win2_1.index t (0 : Fin 2) * 5000 + 1 * p.val = P.val; rw [e0, hP]; omega
  | ⟨1, _⟩ => show win2_1.index t (1 : Fin 2) * 1 + 1 * 0 = 0; rw [e1]

/-- Row `p` of the features' block at point `t` is row `5000 t + p` of the features. -/
theorem blk2_apply (c : Dev nD) (t : Fin cfg2.N) (p : Fin 5000) (q : Fin 128) (P : Fin 100000)
    (hP : P.val = 5000 * t.val + p.val) :
    (iblk2 (F := Ideal) V c 2 t (ix2 p q) : EReal) = (V c main_v28_0 (ix2 P q) : EReal) := by
  obtain ⟨-, -, ⟨e0, e1⟩, -⟩ := idx_facts t
  show V c main_v28_0 (((cfg2.win 2).blk t).view.emb (ix2 p q)) = V c main_v28_0 (ix2 P q)
  congr 1
  funext a
  apply Fin.ext
  match a with
  | ⟨0, _⟩ => show win2_2.index t (0 : Fin 2) * 5000 + 1 * p.val = P.val; rw [e0, hP]; omega
  | ⟨1, _⟩ => show win2_2.index t (1 : Fin 2) * 128 + 1 * q.val = q.val; rw [e1]; omega

/-- The right weights' window holds the whole matrix at every point. -/
theorem blk3_apply (c : Dev nD) (t : Fin cfg2.N) (a : Fin 128) (b : Fin 64) :
    (iblk2 (F := Ideal) V c 3 t (ix2 a b) : EReal) = (V c main_arg10 (ix2 a b) : EReal) := by
  obtain ⟨-, -, -, ⟨e0, e1⟩, -⟩ := idx_facts t
  show V c main_arg10 (((cfg2.win 3).blk t).view.emb (ix2 a b)) = V c main_arg10 (ix2 a b)
  congr 1
  funext ax
  apply Fin.ext
  match ax with
  | ⟨0, _⟩ => show win2_3.index t (0 : Fin 2) * 128 + 1 * a.val = a.val; rw [e0]; omega
  | ⟨1, _⟩ => show win2_3.index t (1 : Fin 2) * 64 + 1 * b.val = b.val; rw [e1]; omega

/-- The hidden bias row's window holds the whole row at every point. -/
theorem blk4_apply (c : Dev nD) (t : Fin cfg2.N) (b : Fin 64) :
    (iblk2 (F := Ideal) V c 4 t (ix2 (0 : Fin 1) b) : EReal) = (V c main_v35 (ix2 (0 : Fin 1) b) : EReal) := by
  obtain ⟨-, -, -, -, ⟨e0, e1⟩, -⟩ := idx_facts t
  show V c main_v35 (((cfg2.win 4).blk t).view.emb (ix2 (0 : Fin 1) b)) = V c main_v35 (ix2 (0 : Fin 1) b)
  congr 1
  funext ax
  apply Fin.ext
  match ax with
  | ⟨0, _⟩ => show win2_4.index t (0 : Fin 2) * 1 + 1 * 0 = 0; rw [e0]
  | ⟨1, _⟩ => show win2_4.index t (1 : Fin 2) * 64 + 1 * b.val = b.val; rw [e1]; omega

/-- The closing weights' window holds the whole matrix at every point. -/
theorem blk5_apply (c : Dev nD) (t : Fin cfg2.N) (a : Fin 64) (b : Fin 3) :
    (iblk2 (F := Ideal) V c 5 t (ix2 a b) : EReal) = (V c main_arg11 (ix2 a b) : EReal) := by
  obtain ⟨-, -, -, -, -, ⟨e0, e1⟩, -⟩ := idx_facts t
  show V c main_arg11 (((cfg2.win 5).blk t).view.emb (ix2 a b)) = V c main_arg11 (ix2 a b)
  congr 1
  funext ax
  apply Fin.ext
  match ax with
  | ⟨0, _⟩ => show win2_5.index t (0 : Fin 2) * 64 + 1 * a.val = a.val; rw [e0]; omega
  | ⟨1, _⟩ => show win2_5.index t (1 : Fin 2) * 3 + 1 * b.val = b.val; rw [e1]; omega

/-- The closing bias row's window holds the whole row at every point. -/
theorem blk6_apply (c : Dev nD) (t : Fin cfg2.N) (b : Fin 3) :
    (iblk2 (F := Ideal) V c 6 t (ix2 (0 : Fin 1) b) : EReal) = (V c main_v36 (ix2 (0 : Fin 1) b) : EReal) := by
  obtain ⟨-, -, -, -, -, -, ⟨e0, e1⟩, -⟩ := idx_facts t
  show V c main_v36 (((cfg2.win 6).blk t).view.emb (ix2 (0 : Fin 1) b)) = V c main_v36 (ix2 (0 : Fin 1) b)
  congr 1
  funext ax
  apply Fin.ext
  match ax with
  | ⟨0, _⟩ => show win2_6.index t (0 : Fin 2) * 1 + 1 * 0 = 0; rw [e0]
  | ⟨1, _⟩ => show win2_6.index t (1 : Fin 2) * 3 + 1 * b.val = b.val; rw [e1]; omega

/-! ## From the blocks to the array -/

/-- What point `t` writes back is block `t` of the last layer of the arrays the call was entered with. -/
theorem flushed7_eq (c : Dev nD) (t : Fin cfg2.N) :
    (dat2 (F := Ideal) V c).flushed 7 t = ((cfg2.win 7).blk t).view.read (Elt Ideal)
      (Cert.Sage.lastLayer (V c main_v34) (V c main_v12) (V c main_v28_0) (V c main_arg10) (V c main_v35)
        (V c main_arg11) (V c main_v36)) := by
  show (cfg2.win 7).cut (grid2.coords t) ((dat2 V c).after 7 t) = _
  rw [after2_7]
  have ht : t.val < 20 := point_lt t
  obtain ⟨-, -, -, -, -, -, -, e0, e1⟩ := idx_facts t
  funext j
  obtain ⟨p, r, rfl⟩ : ∃ (p : Fin 5000) (r : Fin 3), j = ix2 p r := ⟨j 0, j 1, eq_ix2 j⟩
  have hemb : ((cfg2.win 7).blk t).view.emb (ix2 p r)
      = ix2 (⟨5000 * t.val + p.val, by have := p.isLt; omega⟩ : Fin 100000) r := by
    funext a
    apply Fin.ext
    match a with
    | ⟨0, _⟩ => show win2_7.index t (0 : Fin 2) * 5000 + 1 * p.val = 5000 * t.val + p.val; rw [e0]; omega
    | ⟨1, _⟩ => show win2_7.index t (1 : Fin 2) * 3 + 1 * r.val = r.val; rw [e1]; omega
  show out2_7 (iblk2 V c 0 t) (iblk2 V c 1 t) (iblk2 V c 2 t) (iblk2 V c 3 t) (iblk2 V c 4 t) (iblk2 V c 5 t)
      (iblk2 V c 6 t) (ix2 p r)
    = Cert.Sage.lastLayer (V c main_v34) (V c main_v12) (V c main_v28_0) (V c main_arg10) (V c main_v35)
        (V c main_arg11) (V c main_v36) (((cfg2.win 7).blk t).view.emb (ix2 p r))
  rw [hemb]
  exact out_eq_lastLayer (iblk2 V c 0 t) (iblk2 V c 1 t) (iblk2 V c 2 t) (iblk2 V c 3 t) (iblk2 V c 4 t)
    (iblk2 V c 5 t) (iblk2 V c 6 t) (V c main_v34) (V c main_v12) (V c main_v28_0) (V c main_arg10) (V c main_v35)
    (V c main_arg11) (V c main_v36) ⟨5000 * t.val + p.val, by have := p.isLt; omega⟩ p r
    (fun q => blk0_apply V c t p q _ rfl) (blk1_apply V c t p _ rfl) (fun q => blk2_apply V c t p q _ rfl)
    (fun a b => blk3_apply V c t a b) (fun b => blk4_apply V c t b) (fun a b => blk5_apply V c t a b)
    (fun b => blk6_apply V c t b)

/-- An index of the output array is in point `t`'s block iff each coordinate is in the block's range on its axis. -/
theorem mem_blk7 (t : Fin cfg2.N) (i : S100000x3.Idx) :
    i ∈ ((cfg2.win 7).blk t).view.set ↔ ∀ a : Fin 2, win2_7.index t a * S5000x3.size a ≤ (i a).val
      ∧ (i a).val < win2_7.index t a * S5000x3.size a + S5000x3.size a := by
  show i ∈ ((View.whole main_v37).slice (win2_7.rect t)).set ↔ _
  rw [View.set_slice_whole, Rect.mem_set_unit]
  exact Iff.rfl

/-- Every entry of the output is written back by the point of its row's block: row `r` by point `r / 5000`. -/
theorem cover7 (i : S100000x3.Idx) :
    ∃ t : Fin cfg2.N, (cfg2.win 7).flush t = true ∧ i ∈ ((cfg2.win 7).blk t).view.set := by
  have hi0 : (i 0).val < 100000 := (i 0).isLt
  have hi1 : (i 1).val < 3 := (i 1).isLt
  have hlt : (i 0).val / 5000 < cfg2.N := Nat.lt_of_lt_of_eq (by omega : (i 0).val / 5000 < 20) (show cfg2.N = 20 from N_2).symm
  obtain ⟨-, -, -, -, -, -, -, e0, e1⟩ := idx_facts ⟨(i 0).val / 5000, hlt⟩
  refine ⟨⟨(i 0).val / 5000, hlt⟩, flush2_7 _, ?_⟩
  rw [mem_blk7]
  intro a
  match a with
  | ⟨0, _⟩ =>
    show win2_7.index ⟨(i 0).val / 5000, hlt⟩ (0 : Fin 2) * 5000 ≤ (i 0).val
      ∧ (i 0).val < win2_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_7.index ⟨(i 0).val / 5000, hlt⟩ (1 : Fin 2) * 3 ≤ (i 1).val
      ∧ (i 1).val < win2_7.index ⟨(i 0).val / 5000, hlt⟩ (1 : Fin 2) * 3 + 3
    rw [e1]
    omega

/-- After the third call's twenty grid points its output array is the last layer, with the closing affine map, of the
    arrays it was entered with. -/
theorem arr2_7 (c : Dev nD) :
    (dat2 (F := Ideal) V c).arrAt 7 cfg2.N
      = Cert.Sage.lastLayer (V c main_v34) (V c main_v12) (V c main_v28_0) (V c main_arg10) (V c main_v35) (V c main_arg11)
          (V c main_v36) :=
  (dat2 (F := Ideal) V c).arrAt_eq_of_cover 7 _ (fun t _ => flushed7_eq V c t) cover7

end Cert.KernelIdeal.RegionValue

end
-- ==== Proof.KSpec.lean ====
/-
  The whole network as one function of its thirteen inputs and of the per-node edge counts: three layers of mean
  aggregation, the third with its left weight matrix applied before the aggregation, and the closing affine map.
-/
import proofs.«412509_j41248865911345_3_alg».proof.Proof.Spec

noncomputable section

namespace Cert.Sage

open Idealize.ShloMosaic Idealize.ShloMosaic.ValueIdx

theorem nodes_pos : 0 < 100000 := by decide

/-- The first hidden layer. -/
def hid1 (cnt : FVec Ideal ⟨1, ![100000]⟩ .f32) (x0 : FVec Ideal ⟨2, ![100000, 40]⟩ .f32) (x1 : IVec ⟨2, ![2, 1600000]⟩ 32)
    (x2 : FVec Ideal ⟨2, ![40, 64]⟩ .f32) (x3 : FVec Ideal ⟨1, ![64]⟩ .f32) (x4 : FVec Ideal ⟨2, ![40, 64]⟩ .f32) :
    FVec Ideal ⟨2, ![100000, 64]⟩ .f32 :=
  layer (agg nodes_pos x0 x1) (icOf cnt) x0 x2 (asRow x3) x4

/-- The second hidden layer, over the first. -/
def hid2 (cnt : FVec Ideal ⟨1, ![100000]⟩ .f32) (h1 : FVec Ideal ⟨2, ![100000, 64]⟩ .f32) (x1 : IVec ⟨2, ![2, 1600000]⟩ 32)
    (x5 : FVec Ideal ⟨2, ![64, 128]⟩ .f32) (x6 : FVec Ideal ⟨1, ![128]⟩ .f32) (x7 : FVec Ideal ⟨2, ![64, 128]⟩ .f32) :
    FVec Ideal ⟨2, ![100000, 128]⟩ .f32 :=
  layer (agg nodes_pos h1 x1) (icOf cnt) h1 x5 (asRow x6) x7

/-- The result, over the second hidden layer: its rows are first multiplied by `x8`, then aggregated. -/
def outOf (cnt : FVec Ideal ⟨1, ![100000]⟩ .f32) (h2 : FVec Ideal ⟨2, ![100000, 128]⟩ .f32) (x1 : IVec ⟨2, ![2, 1600000]⟩ 32)
    (x8 : FVec Ideal ⟨2, ![128, 64]⟩ .f32) (x9 : FVec Ideal ⟨1, ![64]⟩ .f32) (x10 : FVec Ideal ⟨2, ![128, 64]⟩ .f32)
    (x11 : FVec Ideal ⟨2, ![64, 3]⟩ .f32) (x12 : FVec Ideal ⟨1, ![3]⟩ .f32) : FVec Ideal ⟨2, ![100000, 3]⟩ .f32 :=
  lastLayer (agg nodes_pos (mm h2 x8) x1) (icOf cnt) h2 x10 (asRow x9) x11 (asRow x12)

/-- The network. -/
def net (cnt : FVec Ideal ⟨1, ![100000]⟩ .f32) (x0 : FVec Ideal ⟨2, ![100000, 40]⟩ .f32) (x1 : IVec ⟨2, ![2, 1600000]⟩ 32)
    (x2 : FVec Ideal ⟨2, ![40, 64]⟩ .f32) (x3 : FVec Ideal ⟨1, ![64]⟩ .f32) (x4 : FVec Ideal ⟨2, ![40, 64]⟩ .f32)
    (x5 : FVec Ideal ⟨2, ![64, 128]⟩ .f32) (x6 : FVec Ideal ⟨1, ![128]⟩ .f32) (x7 : FVec Ideal ⟨2, ![64, 128]⟩ .f32)
    (x8 : FVec Ideal ⟨2, ![128, 64]⟩ .f32) (x9 : FVec Ideal ⟨1, ![64]⟩ .f32) (x10 : FVec Ideal ⟨2, ![128, 64]⟩ .f32)
    (x11 : FVec Ideal ⟨2, ![64, 3]⟩ .f32) (x12 : FVec Ideal ⟨1, ![3]⟩ .f32) : FVec Ideal ⟨2, ![100000, 3]⟩ .f32 :=
  outOf cnt (hid2 cnt (hid1 cnt x0 x1 x2 x3 x4) x1 x5 x6 x7) x1 x8 x9 x10 x11 x12

end Cert.Sage

end
-- ==== Proof.LibScatterRows.lean ====
/-
  The host's accumulating scatter of ROWS, read over the extended reals.

  The scatter indices are a column of row numbers, one per update row; update row `e` is added to operand row
  `idx e` (read as a signed integer; a row number outside the operand drops the update). The scatter therefore acts
  on every column by itself: entry (n, c) of the result is entry (n, c) of the operand plus the sum of the entries
  (e, c) of the updates over the rows `e` whose index is `n`. Consequently, scattering the rows of two arrays set
  side by side and then cutting the result back into the two column ranges is the same as scattering each array.
-/
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

section Coordinates

variable {N E C : Nat}

/-- The dimension numbers of a row scatter: the updates' second axis is the window, the operand's first axis is the
    scattered one, and each scatter index is one scalar. -/
abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

/-- On the row axis a row scatter has no window coordinate. -/
theorem rowDims_window0 (hwf) (j : (⟨2, ![E, C]⟩ : Shape).Idx) : (rowDims (N := N) hwf).window j 0 = 0 := by
  rfl

/-- On the column axis the window coordinate is the update's column. -/
theorem rowDims_window1 (hwf) (j : (⟨2, ![E, C]⟩ : Shape).Idx) : (rowDims (N := N) hwf).window j 1 = (j 1).val := by
  rfl

/-- On the column axis the window starts at zero. -/
theorem rowDims_start1 {w : Nat} (hwf) (j : (⟨2, ![E, C]⟩ : Shape).Idx) (idx : IVec ⟨2, ![E, 1]⟩ w) :
    (rowDims (N := N) hwf).start j idx 1 = 0 := by
  rfl

/-- On the row axis the window starts at the scatter index of the update's row, read as a signed integer. -/
theorem rowDims_start0 {w : Nat} (hwf) (j : (⟨2, ![E, C]⟩ : Shape).Idx) (idx : IVec ⟨2, ![E, 1]⟩ w) :
    (rowDims (N := N) hwf).start j idx 0 = (idx (ix2 (j 0) 0)).toInt := by
  have hs : (rowDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update entry lands, from the four coordinate facts: entry `j` of the updates lands on entry (n, c) of the
    operand exactly when the scatter index of its row is `n` and its column is `c`. -/
theorem resultIdx_iff_of_coords {w : Nat} (d : ScatterDims ⟨2, ![N, C]⟩ ⟨2, ![E, 1]⟩ ⟨2, ![E, C]⟩)
    (j : (⟨2, ![E, C]⟩ : Shape).Idx) (idx : IVec ⟨2, ![E, 1]⟩ w)
    (s0 : d.start j idx 0 = (idx (ix2 (j 0) 0)).toInt) (s1 : d.start j idx 1 = 0)
    (w0 : d.window j 0 = 0) (w1 : d.window j 1 = (j 1).val) (n : Fin N) (c : Fin C) :
    d.resultIdx? j idx = some (ix2 n c) ↔ (idx (ix2 (j 0) 0)).toInt = (n.val : ℤ) ∧ (j 1).val = c.val := by
  have hjC := idx2_lt1 j
  have hn := n.isLt
  have hc := c.isLt
  unfold ScatterDims.resultIdx?
  split
  next h =>
    rw [Option.some.injEq]
    constructor
    · intro hf
      have e0 : (d.start j idx 0 + (d.window j 0 : ℕ)).toNat = n.val := congrArg Fin.val (congrFun hf 0)
      have e1 : (d.start j idx 1 + (d.window j 1 : ℕ)).toNat = c.val := congrArg Fin.val (congrFun hf 1)
      have h0 : 0 ≤ d.start j idx 0 + (d.window j 0 : ℕ) ∧ d.start j idx 0 + (d.window j 0 : ℕ) < (N : ℤ) := h 0
      rw [s0, w0] at e0 h0
      rw [s1, w1] at e1
      constructor <;> omega
    · rintro ⟨en, ec⟩
      funext a; apply Fin.ext
      match a with
      | ⟨0, _⟩ =>
        show (d.start j idx 0 + (d.window j 0 : ℕ)).toNat = n.val
        rw [s0, w0, en]; omega
      | ⟨1, _⟩ =>
        show (d.start j idx 1 + (d.window j 1 : ℕ)).toNat = c.val
        rw [s1, w1]; omega
  next h =>
    constructor
    · intro hf; exact absurd hf (by simp)
    · rintro ⟨en, ec⟩
      exfalso; apply h
      intro a
      match a with
      | ⟨0, _⟩ =>
        show 0 ≤ d.start j idx 0 + (d.window j 0 : ℕ) ∧ d.start j idx 0 + (d.window j 0 : ℕ) < (N : ℤ)
        rw [s0, w0, en]; omega
      | ⟨1, _⟩ =>
        show 0 ≤ d.start j idx 1 + (d.window j 1 : ℕ) ∧ d.start j idx 1 + (d.window j 1 : ℕ) < (C : ℤ)
        rw [s1, w1]; omega

end Coordinates

section RowScatter

variable {N E C : Nat}

/-- The row scatter at the concrete dimension numbers, read at entry (n, c): the operand's entry plus the sum, over
    the update rows whose scatter index is `n`, of the updates' entries in column `c`. -/
theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := by
    intro e b
    rw [resultIdx_iff_of_coords (rowDims (N := N) hwf) (ix2 e b) idx (rowDims_start0 hwf _ idx) (rowDims_start1 hwf _ idx)
      (rowDims_window0 hwf _) (rowDims_window1 hwf _) n c]
    exact and_congr Iff.rfl Fin.val_inj
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

/-- The row scatter read at an entry, for any dimension numbers whose four lists are those of a row scatter: entry
    (n, c) of the result is the operand's entry plus the sum, over the update rows `e` whose scatter index (read as a
    signed integer) is `n`, of the updates' entry (e, c). An update row whose index is no row of the operand
    contributes to no entry. -/
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

section SideBySide

variable {N E C₁ C₂ Ct w : Nat}

/-- The dimension numbers `d` are those of a row scatter: the updates' second axis is the window, the operand's first
    axis is inserted and is the one the scatter indices address, and each scatter index is one scalar. -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The row scatter read at an entry, with the four conditions on the dimension numbers bundled. -/
theorem scatterAdd_rows_apply' {C : Nat} {d : ScatterDims ⟨2, ![N, C]⟩ ⟨2, ![E, 1]⟩ ⟨2, ![E, C]⟩} (hd : IsRowScatter d)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 :=
  scatterAdd_rows_apply d hd.1 hd.2.1 hd.2.2.1 hd.2.2.2 x idx upd n c

/-- A scalar spread over a matrix is that scalar at every entry, whatever the matrix's extents. -/
theorem broadcast_scalar_apply {A B : Nat} (hb : (⟨0, ![]⟩ : Shape).BroadcastsInDim ⟨2, ![A, B]⟩ (![] : Fin 0 → Fin 2))
    (z : FVec Ideal ⟨0, ![]⟩ .f32) (j : (⟨2, ![A, B]⟩ : Shape).Idx) :
    broadcastInDim ⟨2, ![A, B]⟩ ![] hb z j = z (fun a => a.elim0) :=
  broadcastInDim_apply _ hb z j _ (fun a => a.elim0)

/-- Scattering the rows of two arrays set side by side, then keeping the FIRST array's columns, is scattering the
    first array's rows: a row scatter acts on each column by itself. The operand is one scalar at every entry. -/
theorem slice_left_scatterAdd_concat
    (dt : ScatterDims ⟨2, ![N, Ct]⟩ ⟨2, ![E, 1]⟩ ⟨2, ![E, Ct]⟩) (d₁ : ScatterDims ⟨2, ![N, C₁]⟩ ⟨2, ![E, 1]⟩ ⟨2, ![E, C₁]⟩)
    (ht : IsRowScatter dt) (h₁ : IsRowScatter d₁)
    (hbt : (⟨0, ![]⟩ : Shape).BroadcastsInDim ⟨2, ![N, Ct]⟩ (![] : Fin 0 → Fin 2))
    (hb₁ : (⟨0, ![]⟩ : Shape).BroadcastsInDim ⟨2, ![N, C₁]⟩ (![] : Fin 0 → Fin 2))
    (hcat : Shape.Concatenates [⟨2, ![E, C₁]⟩, ⟨2, ![E, C₂]⟩] ⟨2, ![E, Ct]⟩ 1)
    (hsl : (⟨2, ![N, Ct]⟩ : Shape).Slices ![0, 0] ⟨2, ![N, C₁]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₁]⟩ ![0, 0] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsl
      = Host.scatterAdd d₁ (broadcastInDim ⟨2, ![N, C₁]⟩ ![] hb₁ z) idx u := by
  funext i
  obtain ⟨n, c, rfl⟩ : ∃ n c, i = ix2 n c := ⟨i 0, i 1, eq_ix2 i⟩
  -- the column, as a column of the wide array
  have hcl : c.val < Ct := by
    have h : 0 + C₁ ≤ Ct := hsl.2 1
    have := c.isLt
    omega
  rw [extractStridedSlice_apply ![0, 0] _ hsl (ix2 n c) (ix2 n ⟨c.val, hcl⟩)
    (fun a => by match a with | ⟨0, _⟩ => exact (Nat.zero_add _).symm | ⟨1, _⟩ => exact (Nat.zero_add _).symm)]
  rw [scatterAdd_rows_apply' ht, scatterAdd_rows_apply' h₁, broadcast_scalar_apply, broadcast_scalar_apply]
  refine congrArg (fun t => z (fun a => a.elim0) + t) (Finset.sum_congr rfl fun e _ => ?_)
  rw [concatenate_pair_apply_left 1 u o hcat (ix2 e ⟨c.val, hcl⟩) rfl (ix2 e c)
    (fun b => by match b with | ⟨0, _⟩ => rfl | ⟨1, _⟩ => rfl)]

/-- Scattering the rows of two arrays set side by side, then keeping the SECOND array's columns, is scattering the
    second array's rows. The operand is one scalar at every entry. -/
theorem slice_right_scatterAdd_concat
    (dt : ScatterDims ⟨2, ![N, Ct]⟩ ⟨2, ![E, 1]⟩ ⟨2, ![E, Ct]⟩) (d₂ : ScatterDims ⟨2, ![N, C₂]⟩ ⟨2, ![E, 1]⟩ ⟨2, ![E, C₂]⟩)
    (ht : IsRowScatter dt) (h₂ : IsRowScatter d₂)
    (hbt : (⟨0, ![]⟩ : Shape).BroadcastsInDim ⟨2, ![N, Ct]⟩ (![] : Fin 0 → Fin 2))
    (hb₂ : (⟨0, ![]⟩ : Shape).BroadcastsInDim ⟨2, ![N, C₂]⟩ (![] : Fin 0 → Fin 2))
    (hcat : Shape.Concatenates [⟨2, ![E, C₁]⟩, ⟨2, ![E, C₂]⟩] ⟨2, ![E, Ct]⟩ 1)
    (hsr : (⟨2, ![N, Ct]⟩ : Shape).Slices ![0, C₁] ⟨2, ![N, C₂]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₂]⟩ ![0, C₁] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsr
      = Host.scatterAdd d₂ (broadcastInDim ⟨2, ![N, C₂]⟩ ![] hb₂ z) idx o := by
  funext i
  obtain ⟨n, c, rfl⟩ : ∃ n c, i = ix2 n c := ⟨i 0, i 1, eq_ix2 i⟩
  -- the column, as a column of the wide array: past the first array's columns
  have hcl : C₁ + c.val < Ct := by
    have h : C₁ + C₂ ≤ Ct := hsr.2 1
    have := c.isLt
    omega
  rw [extractStridedSlice_apply ![0, C₁] _ hsr (ix2 n c) (ix2 n ⟨C₁ + c.val, hcl⟩)
    (fun a => by match a with | ⟨0, _⟩ => exact (Nat.zero_add _).symm | ⟨1, _⟩ => rfl)]
  rw [scatterAdd_rows_apply' ht, scatterAdd_rows_apply' h₂, broadcast_scalar_apply, broadcast_scalar_apply]
  refine congrArg (fun t => z (fun a => a.elim0) + t) (Finset.sum_congr rfl fun e _ => ?_)
  rw [concatenate_pair_apply_right 1 u o hcat (ix2 e ⟨C₁ + c.val, hcl⟩) rfl rfl (ix2 e c)
    (fun b hb => by match b with | ⟨0, _⟩ => rfl | ⟨1, _⟩ => exact absurd rfl hb)
    (Nat.add_comm _ _)]

/-- The instance for 20000 nodes, 640000 edges and 128 message channels beside one column of ones: the first 128
    columns of the joint segment sum are the segment sum of the messages. -/
theorem slice_messages_scatterAdd
    (d129 : ScatterDims ⟨2, ![20000, 129]⟩ ⟨2, ![640000, 1]⟩ ⟨2, ![640000, 129]⟩)
    (d128 : ScatterDims ⟨2, ![20000, 128]⟩ ⟨2, ![640000, 1]⟩ ⟨2, ![640000, 128]⟩)
    (h129 : IsRowScatter d129) (h128 : IsRowScatter d128)
    (hb129 : (⟨0, ![]⟩ : Shape).BroadcastsInDim ⟨2, ![20000, 129]⟩ (![] : Fin 0 → Fin 2))
    (hb128 : (⟨0, ![]⟩ : Shape).BroadcastsInDim ⟨2, ![20000, 128]⟩ (![] : Fin 0 → Fin 2))
    (hcat : Shape.Concatenates [⟨2, ![640000, 128]⟩, ⟨2, ![640000, 1]⟩] ⟨2, ![640000, 129]⟩ 1)
    (hsl : (⟨2, ![20000, 129]⟩ : Shape).Slices ![0, 0] ⟨2, ![20000, 128]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 128]⟩ ![0, 0] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsl
      = Host.scatterAdd d128 (broadcastInDim ⟨2, ![20000, 128]⟩ ![] hb128 z) idx u :=
  slice_left_scatterAdd_concat d129 d128 h129 h128 hb129 hb128 hcat hsl z idx u o

/-- The same instance's last column: it is the segment sum of the ones, the number of edges arriving at each node. -/
theorem slice_ones_scatterAdd
    (d129 : ScatterDims ⟨2, ![20000, 129]⟩ ⟨2, ![640000, 1]⟩ ⟨2, ![640000, 129]⟩)
    (d1 : ScatterDims ⟨2, ![20000, 1]⟩ ⟨2, ![640000, 1]⟩ ⟨2, ![640000, 1]⟩)
    (h129 : IsRowScatter d129) (h1 : IsRowScatter d1)
    (hb129 : (⟨0, ![]⟩ : Shape).BroadcastsInDim ⟨2, ![20000, 129]⟩ (![] : Fin 0 → Fin 2))
    (hb1 : (⟨0, ![]⟩ : Shape).BroadcastsInDim ⟨2, ![20000, 1]⟩ (![] : Fin 0 → Fin 2))
    (hcat : Shape.Concatenates [⟨2, ![640000, 128]⟩, ⟨2, ![640000, 1]⟩] ⟨2, ![640000, 129]⟩ 1)
    (hsr : (⟨2, ![20000, 129]⟩ : Shape).Slices ![0, 128] ⟨2, ![20000, 1]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 1]⟩ ![0, 128] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsr
      = Host.scatterAdd d1 (broadcastInDim ⟨2, ![20000, 1]⟩ ![] hb1 z) idx o :=
  slice_right_scatterAdd_concat d129 d1 h129 h1 hb129 hb1 hcat hsr z idx u o

end SideBySide

end Cert.LibScatterRows

end
-- ==== Proof.AggLib.lean ====
/-
  The aggregate along the edges as the host computes it: a gather of rows followed by an accumulating scatter of rows.
  Read at an entry, the gather picks the row its index names (an index outside the array is moved to the nearest row);
  the scatter adds each update row to the row its index names. Together they are the sum, over the edges arriving at a
  node, of the source nodes' rows. The aggregate of real arrays is real, and it commutes with a matrix product on the
  right when everything is real.
-/
import proofs.«412509_j41248865911345_3_alg».proof.Proof.Spec
import proofs.«412509_j41248865911345_3_alg».proof.Proof.LibScatterRows

noncomputable section

open scoped BigOperators

namespace Cert.Sage

open Idealize.ShloMosaic Idealize.ShloMosaic.ValueIdx Cert.LibScatterRows

/-- The dimension numbers of a gather of whole rows: one index per result row, the operand's first axis collapsed. -/
def IsRowGather {n e k : Nat} (g : GatherDims ⟨2, ![n, k]⟩ ⟨2, ![e, 1]⟩ ⟨2, ![e, k]⟩) : Prop :=
  g.offsetDims = [1] ∧ g.collapsedSliceDims = [0] ∧ g.operandBatchingDims = [] ∧ g.startIndicesBatchingDims = []
    ∧ g.startIndexMap = [0] ∧ g.indexVectorDim = 1 ∧ g.sliceSizes = ![1, k]

/-- The dimension numbers of a gather of whole rows, with the seven lists written out. -/
abbrev rowGDims {n e k : Nat}
    (wf : GatherDims.WF ⟨2, ![n, k]⟩ ⟨2, ![e, 1]⟩ ⟨2, ![e, k]⟩ [1] [0] [] [0] [] 1 ![1, k]) :
    GatherDims ⟨2, ![n, k]⟩ ⟨2, ![e, 1]⟩ ⟨2, ![e, k]⟩ where
  offsetDims := [1]
  collapsedSliceDims := [0]
  operandBatchingDims := []
  startIndicesBatchingDims := []
  startIndexMap := [0]
  indexVectorDim := 1
  sliceSizes := ![1, k]
  wf := wf

/-- The row gather at the written-out dimension numbers, read at entry (j, q). On the row axis the operand index is
    the clamped start index alone (the axis is collapsed, so it has no offset); on the column axis the start is zero
    and the offset is the result's column. -/
theorem gather_rowGDims_apply {n e k w : Nat} (hn : 0 < n)
    (wf : GatherDims.WF ⟨2, ![n, k]⟩ ⟨2, ![e, 1]⟩ ⟨2, ![e, k]⟩ [1] [0] [] [0] [] 1 ![1, k])
    (h : FVec Ideal ⟨2, ![n, k]⟩ .f32) (idx : IVec ⟨2, ![e, 1]⟩ w) (j : Fin e) (q : Fin k) :
    Host.gather (rowGDims wf) h idx (ix2 j q) = h (ix2 ⟨min (idx (ix2 j 0)).toInt.toNat (n - 1), by omega⟩ q) := by
  unfold Host.gather
  congr 1
  funext a
  refine Fin.ext ?_
  match a with
  | ⟨0, _⟩ =>
    show (rowGDims wf).start (ix2 j q) idx 0 + (rowGDims wf).batchCoord (ix2 j q) 0
      + (rowGDims wf).offCoord (ix2 j q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGDims wf).startIndexMap from List.mem_singleton.mpr rfl)]
    have hsi : (rowGDims wf).siIdx (ix2 j q) ⟨List.idxOf (0 : Fin 2) (rowGDims wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  | ⟨1, _⟩ =>
    show (rowGDims wf).start (ix2 j q) idx 1 + (rowGDims wf).batchCoord (ix2 j q) 1
      + (rowGDims wf).offCoord (ix2 j q) 1 = _
    rw [GatherDims.batchCoord_eq_zero _ _ _ List.not_mem_nil]
    have hst : (rowGDims wf).start (ix2 j q) idx 1 = 0 := by
      unfold GatherDims.start
      rw [dif_neg (show ¬ (1 : Fin 2) ∈ ([0] : List (Fin 2)) from by decide)]
    rw [hst, Nat.zero_add]
    rfl

/-- The row gather read at an entry: row `j` of the result is the operand's row named by index `j`, read signed and
    moved into the array when outside it. -/
theorem gather_rows_apply {n e k w : Nat} (hn : 0 < n) (g : GatherDims ⟨2, ![n, k]⟩ ⟨2, ![e, 1]⟩ ⟨2, ![e, k]⟩)
    (hg : IsRowGather g) (h : FVec Ideal ⟨2, ![n, k]⟩ .f32) (idx : IVec ⟨2, ![e, 1]⟩ w) (j : Fin e) (q : Fin k) :
    Host.gather g h idx (ix2 j q) = h (ix2 ⟨min (idx (ix2 j 0)).toInt.toNat (n - 1), by omega⟩ q) := by
  cases g with
  | mk od cd ob sb sm iv ss wf =>
    obtain ⟨h1, h2, h3, h4, h5, h6, h7⟩ := hg
    dsimp only at h1 h2 h3 h4 h5 h6 h7
    subst h1 h2 h3 h4 h5 h6 h7
    exact gather_rowGDims_apply hn wf h idx j q

/-- The word of the float one is one. -/
theorem ofBits_one : Ideal.ofBits .f32 0x3F800000#32 = 1 := by
  simp [Ideal.ofBits, Ideal.ieee, -EReal.coe_mul]; norm_num

/-- The larger of a number and one is not zero. -/
theorem max_one_ne_zero (c : EReal) : max c 1 ≠ 0 :=
  ne_of_gt (lt_of_lt_of_le zero_lt_one (le_max_right c 1))

/-- Dividing by the larger of a count and one is multiplying by its reciprocal: that number is not zero. -/
theorem div_max_one (a cnt : EReal) : Ideal.div a (max cnt 1) = a * Ideal.div 1 (max cnt 1) := by
  unfold Ideal.div
  rw [if_neg (max_one_ne_zero cnt), if_neg (max_one_ne_zero cnt), one_mul]

/-- Gathering the source rows and scattering them to the destination rows, from an all-zero array, is the aggregate. -/
theorem scatter_gather_eq_agg {n k e : Nat} (hn : 0 < n)
    (sd : ScatterDims ⟨2, ![n, k]⟩ ⟨2, ![e, 1]⟩ ⟨2, ![e, k]⟩) (hsd : IsRowScatter sd)
    (gd : GatherDims ⟨2, ![n, k]⟩ ⟨2, ![e, 1]⟩ ⟨2, ![e, k]⟩) (hgd : IsRowGather gd)
    (zero : FVec Ideal ⟨2, ![n, k]⟩ .f32) (hz : ∀ i, zero i = 0)
    (h : FVec Ideal ⟨2, ![n, k]⟩ .f32) (ei : IVec ⟨2, ![2, e]⟩ 32) (srcCol dstCol : IVec ⟨2, ![e, 1]⟩ 32)
    (hs : ∀ j : Fin e, srcCol (ix2 j 0) = ei (ix2 0 j)) (hd : ∀ j : Fin e, dstCol (ix2 j 0) = ei (ix2 1 j)) :
    Host.scatterAdd sd zero dstCol (Host.gather gd h srcCol) = agg hn h ei := by
  funext i
  obtain ⟨p, q, rfl⟩ : ∃ p q, i = ix2 p q := ⟨i 0, i 1, eq_ix2 i⟩
  rw [scatterAdd_rows_apply' hsd, hz]
  unfold agg
  rw [ofCoords_ix2]
  refine congrArg (fun t => (0 : EReal) + t) (Finset.sum_congr rfl fun j _ => ?_)
  rw [gather_rows_apply hn gd hgd]
  simp only [hs, hd]

/-! ### Real arrays

An array all of whose entries are real is the entrywise image of a real array; sums, products and maxima of such
arrays are computed in the reals. -/

/-- A real array read as an array of extended reals. -/
def up {s : Shape} (a : s.Idx → ℝ) : s.Idx → EReal := fun i => ((a i : ℝ) : EReal)

theorem up_apply {s : Shape} (a : s.Idx → ℝ) (i : s.Idx) : up a i = ((a i : ℝ) : EReal) := rfl

theorem isReal_up {s : Shape} (a : s.Idx → ℝ) : IsReal (up a) := fun i => ⟨a i, rfl⟩

theorem exists_up {s : Shape} {A : s.Idx → EReal} (hA : IsReal A) : ∃ a : s.Idx → ℝ, A = up a := by
  choose a ha using hA
  exact ⟨a, funext ha⟩

/-- A finite sum of reals, read in the extended reals, is the sum of the readings. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two reals, read in the extended reals, is the larger of the readings. -/
theorem coe_max (x y : ℝ) : ((max x y : ℝ) : EReal) = max (x : EReal) (y : EReal) :=
  EReal.coe_strictMono.monotone.map_max

/-- A real matrix given by its entries. -/
def ofCoordsR {n m : Nat} (f : Fin n → Fin m → ℝ) : (⟨2, ![n, m]⟩ : Shape).Idx → ℝ :=
  fun i => f ⟨(i 0).val, idx2_lt0 i⟩ ⟨(i 1).val, idx2_lt1 i⟩

theorem ofCoordsR_ix2 {n m : Nat} (f : Fin n → Fin m → ℝ) (p : Fin n) (r : Fin m) : ofCoordsR f (ix2 p r) = f p r := rfl

theorem ofCoords_up {n m : Nat} (f : Fin n → Fin m → ℝ) :
    ofCoords (fun p r => ((f p r : ℝ) : EReal)) = up (ofCoordsR f) := rfl

/-- The product of two real matrices is the real matrix of the real sums. -/
theorem mm_up {n k m : Nat} (a : (⟨2, ![n, k]⟩ : Shape).Idx → ℝ) (b : (⟨2, ![k, m]⟩ : Shape).Idx → ℝ) :
    mm (up a) (up b) = up (ofCoordsR fun p r => ∑ q : Fin k, a (ix2 p q) * b (ix2 q r)) := by
  rw [← ofCoords_up]
  unfold mm
  congr 1
  funext p r
  rw [← coe_sum]
  exact Finset.sum_congr rfl fun q _ => (EReal.coe_mul _ _).symm

/-- The aggregate of a real array is the real array of the real sums. -/
theorem agg_up {n k e : Nat} (hn : 0 < n) (a : (⟨2, ![n, k]⟩ : Shape).Idx → ℝ) (ei : IVec ⟨2, ![2, e]⟩ 32) :
    agg hn (up a) ei = up (ofCoordsR fun p q => ∑ j : Fin e, if (ei (ix2 1 j)).toInt = (p.val : ℤ)
      then a (ix2 ⟨min (ei (ix2 0 j)).toInt.toNat (n - 1), by omega⟩ q) else 0) := by
  rw [← ofCoords_up]
  unfold agg
  congr 1
  funext p q
  rw [zero_add, ← coe_sum]
  refine Finset.sum_congr rfl fun j _ => ?_
  split
  · rfl
  · exact EReal.coe_zero.symm

theorem isReal_agg {n k e : Nat} (hn : 0 < n) (h : FVec Ideal ⟨2, ![n, k]⟩ .f32) (ei : IVec ⟨2, ![2, e]⟩ 32)
    (hh : IsReal h) : IsReal (agg hn h ei) := by
  obtain ⟨a, rfl⟩ := exists_up hh
  rw [agg_up]
  exact isReal_up _

/-- One over the larger of a number and one is real: the larger is at least one, so its reciprocal is that of a real,
    or zero when the number is infinite. -/
theorem div_one_max_real (c : EReal) : ∃ r : ℝ, Ideal.div 1 (max c 1) = (r : EReal) := by
  unfold Ideal.div
  rw [if_neg (max_one_ne_zero c), one_mul]
  induction c using EReal.rec with
  | bot => exact ⟨1, by rw [max_eq_right bot_le, inv_one, EReal.coe_one]⟩
  | coe r => exact ⟨(max r 1)⁻¹, by rw [EReal.coe_inv, coe_max, EReal.coe_one]⟩
  | top => exact ⟨0, by rw [max_eq_left le_top, EReal.inv_top, EReal.coe_zero]⟩

theorem isReal_icOf {n : Nat} (cnt : FVec Ideal ⟨1, ![n]⟩ .f32) : IsReal (icOf cnt) :=
  fun i => div_one_max_real (cnt (ix1 ⟨(i 0).val, idx2_lt0 i⟩))

theorem isReal_asRow {m : Nat} (b : FVec Ideal ⟨1, ![m]⟩ .f32) (hb : IsReal b) : IsReal (asRow b) :=
  fun i => hb (ix1 ⟨(i 1).val, idx2_lt1 i⟩)

theorem isReal_mm {n k m : Nat} (A : FVec Ideal ⟨2, ![n, k]⟩ .f32) (B : FVec Ideal ⟨2, ![k, m]⟩ .f32)
    (hA : IsReal A) (hB : IsReal B) : IsReal (mm A B) := by
  obtain ⟨a, rfl⟩ := exists_up hA
  obtain ⟨b, rfl⟩ := exists_up hB
  rw [mm_up]
  exact isReal_up _

theorem isReal_layer {n k m : Nat} (a : FVec Ideal ⟨2, ![n, k]⟩ .f32) (ic : FVec Ideal ⟨2, ![n, 1]⟩ .f32)
    (x : FVec Ideal ⟨2, ![n, k]⟩ .f32) (wl : FVec Ideal ⟨2, ![k, m]⟩ .f32) (b : FVec Ideal ⟨2, ![1, m]⟩ .f32)
    (wr : FVec Ideal ⟨2, ![k, m]⟩ .f32) (ha : IsReal a) (hic : IsReal ic) (hx : IsReal x) (hwl : IsReal wl)
    (hb : IsReal b) (hwr : IsReal wr) : IsReal (layer a ic x wl b wr) := by
  obtain ⟨a', rfl⟩ := exists_up ha
  obtain ⟨ic', rfl⟩ := exists_up hic
  obtain ⟨x', rfl⟩ := exists_up hx
  obtain ⟨wl', rfl⟩ := exists_up hwl
  obtain ⟨b', rfl⟩ := exists_up hb
  obtain ⟨wr', rfl⟩ := exists_up hwr
  intro i
  refine ⟨max (((∑ q : Fin k, (a' (ix2 ⟨(i 0).val, idx2_lt0 i⟩ q) * ic' (ix2 ⟨(i 0).val, idx2_lt0 i⟩ 0))
      * wl' (ix2 q ⟨(i 1).val, idx2_lt1 i⟩))
    + (∑ q : Fin k, x' (ix2 ⟨(i 0).val, idx2_lt0 i⟩ q) * wr' (ix2 q ⟨(i 1).val, idx2_lt1 i⟩)))
    + b' (ix2 0 ⟨(i 1).val, idx2_lt1 i⟩)) 0, ?_⟩
  rw [coe_max, EReal.coe_add, EReal.coe_add, ← coe_sum, ← coe_sum, EReal.coe_zero]
  simp only [EReal.coe_mul]
  rfl

/-- Over real arrays the aggregate of a matrix product is the product of the aggregate. -/
theorem agg_mm {n k m e : Nat} (hn : 0 < n) (h : FVec Ideal ⟨2, ![n, k]⟩ .f32) (W : FVec Ideal ⟨2, ![k, m]⟩ .f32)
    (ei : IVec ⟨2, ![2, e]⟩ 32) (hh : IsReal h) (hW : IsReal W) :
    agg hn (mm h W) ei = mm (agg hn h ei) W := by
  obtain ⟨a, rfl⟩ := exists_up hh
  obtain ⟨b, rfl⟩ := exists_up hW
  rw [mm_up, agg_up, agg_up, mm_up]
  congr 1
  funext i
  obtain ⟨p, q, rfl⟩ : ∃ p q, i = ix2 p q := ⟨i 0, i 1, eq_ix2 i⟩
  simp only [ofCoordsR_ix2, Finset.sum_mul, ite_mul, zero_mul]
  rw [Finset.sum_comm]
  refine Finset.sum_congr rfl fun j _ => ?_
  split
  · rfl
  · exact Finset.sum_const_zero.symm

end Cert.Sage

end
-- ==== Proof.Stretch0.lean ====
/-
  The host operations before the first pallas_call, read at the buffers that call and the later stretches take: the edge list's two rows, the per-node counts and their reciprocals, the first aggregate, the first bias as a row.
-/
import proofs.«412509_j41248865911345_3_alg».proof.Proof.Gen.KernelIdeal.Frame
import proofs.«412509_j41248865911345_3_alg».proof.Proof.KSpec
import proofs.«412509_j41248865911345_3_alg».proof.Proof.AggLib
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The edge list's first row (the source nodes) as a vector. -/
def srcRowK (x1 : IVec S2x1600000 32) : IVec S1600000 32 :=
  shapeCast S1600000 (extractStridedSlice S1x1600000 ![0, 0] x1 slices_S2x1600000_S1x1600000_0_0) shapeCasts_S1x1600000_S1600000

/-- The edge list's second row (the destination nodes) as a vector. -/
def dstRowK (x1 : IVec S2x1600000 32) : IVec S1600000 32 :=
  shapeCast S1600000 (extractStridedSlice S1x1600000 ![1, 0] x1 slices_S2x1600000_S1x1600000_1_0) shapeCasts_S1x1600000_S1600000

/-- The number of edges arriving at each node: ones scattered to the destinations. -/
def cntK (x1 : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dstRowK x1))
    (broadcastInDim S1600000 ![] bcast_S_S1600000 (constant S_ .f32 0x3F800000#32))

/-! ## Words and constants -/

/-- A word that is not negative is not below zero in the signed order. -/
private theorem cmpi_slt_zero (x : BitVec 32) (h : 0 ≤ x.toInt) : IntOp.cmpi .slt x 0#32 = 0#1 := by
  have e : x.slt 0#32 = false := by
    rw [BitVec.slt, BitVec.toInt_zero]; exact decide_eq_false (by omega)
  show BitVec.ofBool (x.slt 0#32) = 0#1
  rw [e]; rfl

/-- A word that is not negative is at least zero in the signed order. -/
private theorem cmpi_sge_zero (x : BitVec 32) (h : 0 ≤ x.toInt) : IntOp.cmpi .sge x 0#32 = 1#1 := by
  have e : (0#32).sle x = true := by
    rw [BitVec.sle, BitVec.toInt_zero]; exact decide_eq_true h
  show BitVec.ofBool ((0#32).sle x) = 1#1
  rw [e]; rfl

/-- A word whose signed value is at most 99999 is at most the word 99999 in the signed order. -/
private theorem cmpi_sle_top (x : BitVec 32) (h : x.toInt ≤ 99999) : IntOp.cmpi .sle x 99999#32 = 1#1 := by
  have e : x.sle 99999#32 = true := by
    rw [BitVec.sle, show (99999#32).toInt = 99999 from by decide]; exact decide_eq_true h
  show BitVec.ofBool (x.sle 99999#32) = 1#1
  rw [e]; rfl

/-- A left fold by `and` from 1 over 1s is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-- A reduction by `and` from 1 of an array of 1s is 1 everywhere. -/
private theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- A broadcast of an array that holds one value everywhere holds that value everywhere. -/
private theorem bcast_const {s t : Shape} {α : Type} (dims : Fin s.rank → Fin t.rank) (h : s.BroadcastsInDim t dims)
    (x : s.Idx → α) (a : α) (hx : ∀ k, x k = a) (j : t.Idx) : broadcastInDim t dims h x j = a := by
  unfold broadcastInDim; exact hx _

/-- A vector of edges as a one-column matrix reads, at a row, the vector at that row. -/
private theorem col_apply {α : Type} (v : S1600000.Idx → α) (i : S1600000x1.Idx) :
    broadcastInDim S1600000x1 ![0] bcast_S1600000_S1600000x1_0 v i = v (ix1 ⟨(i 0).val, idx2_lt0 i⟩) :=
  broadcastInDim_apply _ bcast_S1600000_S1600000x1_0 v i (ix1 ⟨(i 0).val, idx2_lt0 i⟩) (fun a => match a with
    | ⟨0, _⟩ => by show (i 0).val = if (1600000 : Nat) = 1 then 0 else (i 0).val; rw [if_neg (by decide)])

/-- The source row read at an edge. -/
theorem srcRowK_apply (x1 : IVec S2x1600000 32) (j : Fin 1600000) : srcRowK x1 (ix1 j) = x1 (ix2 0 j) := by
  unfold srcRowK
  refine (shapeCast_apply _ shapeCasts_S1x1600000_S1600000 (ix1 j) (ix2 0 j) ?_).trans ?_
  · rewrite [Shape.rowMajor_val_two, Shape.rowMajor_val_one]; show 0 * 1600000 + j.val = j.val; omega
  · exact extractStridedSlice_apply ![0, 0] x1 slices_S2x1600000_S1x1600000_0_0 (ix2 0 j) (ix2 0 j) (fun a => match a with
      | ⟨0, _⟩ => by show (0 : Nat) = 0 + 0; rfl
      | ⟨1, _⟩ => by show j.val = 0 + j.val; omega)

/-- The destination row read at an edge. -/
theorem dstRowK_apply (x1 : IVec S2x1600000 32) (j : Fin 1600000) : dstRowK x1 (ix1 j) = x1 (ix2 1 j) := by
  unfold dstRowK
  refine (shapeCast_apply _ shapeCasts_S1x1600000_S1600000 (ix1 j) (ix2 0 j) ?_).trans ?_
  · rewrite [Shape.rowMajor_val_two, Shape.rowMajor_val_one]; show 0 * 1600000 + j.val = j.val; omega
  · exact extractStridedSlice_apply ![1, 0] x1 slices_S2x1600000_S1x1600000_1_0 (ix2 0 j) (ix2 1 j) (fun a => match a with
      | ⟨0, _⟩ => by show (1 : Nat) = 1 + 0; rfl
      | ⟨1, _⟩ => by show j.val = 0 + j.val; omega)

/-- The host's quotient at an index is the quotient of the elements. -/
private theorem hostDivf_apply {s : Shape} {φ : FTy} (a b : FVec Ideal s φ) (i : s.Idx) :
    Host.divf a b i = Ideal.div (a i) (b i) := rfl

/-- The reciprocal count column at a row. -/
private theorem icOf_apply {n : Nat} (cnt : FVec Ideal ⟨1, ![n]⟩ .f32) (i : (⟨2, ![n, 1]⟩ : Shape).Idx) :
    Cert.Sage.icOf cnt i = Ideal.div 1 (max (cnt (ix1 ⟨(i 0).val, idx2_lt0 i⟩)) 1) := rfl

/-! ## The gather of the source rows as the host computes it -/

/-- The source index as the gather takes it: an index below zero is moved up by the node count. -/
def wrapK (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped source indices as a one-column matrix. -/
def idxColK (src : IVec S1600000 32) : IVec S1600000x1 32 :=
  broadcastInDim S1600000x1 ![0] bcast_S1600000_S1600000x1_0 (wrapK src)

/-- Per edge: is the wrapped source index a node (between 0 and 99999)? -/
def maskK (src : IVec S1600000 32) : IVec S1600000 1 :=
  Host.reduce IntOp.andi
    (andi (cmpi .sge (idxColK src) (broadcastInDim S1600000x1 ![] bcast_S_S1600000x1 (constantI S_ 32 0#32)))
      (cmpi .sle (idxColK src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of `h` at the sources, with a marker row where the wrapped source is not a node. -/
def takeK (h : FVec Ideal S100000x40 .f32) (src : IVec S1600000 32) : FVec Ideal S1600000x40 .f32 :=
  select (broadcastInDim S1600000x40 ![0] bcast_S1600000_S1600000x40_0 (maskK src))
    (Host.gather gather_S100000x40_S1600000x1_S1600000x40_1_0_n_n_0_1_140 h (idxColK src))
    (broadcastInDim S1600000x40 ![] bcast_S_S1600000x40 (constant S_ .f32 0x7FC00000#32))

/-- A source that is not negative is not wrapped. -/
theorem wrapK_eq (src : IVec S1600000 32) (hs : ∀ j, 0 ≤ (src j).toInt) : wrapK src = src := by
  funext j
  show Scalar.select (IntOp.cmpi .slt (src j) (broadcastInDim S1600000 ![] bcast_S_S1600000 (constantI S_ 32 0#32) j)) _ _ = _
  rw [bcast_const _ bcast_S_S1600000 (constantI S_ 32 0#32) 0#32 (fun _ => rfl) j, cmpi_slt_zero _ (hs j)]
  exact select_zero _ _

/-- When every source is a node the test passes on every edge. -/
theorem maskK_eq (src : IVec S1600000 32) (hs : ∀ j, 0 ≤ (src j).toInt ∧ (src j).toInt < 100000) (j : S1600000.Idx) :
    maskK src j = 1#1 := by
  unfold maskK
  refine reduce_andi_one _ _ _ _ (fun _ => rfl) (fun i => ?_) j
  have hw : idxColK src i = src (ix1 ⟨(i 0).val, idx2_lt0 i⟩) := by
    unfold idxColK; rw [col_apply, wrapK_eq src fun j => (hs j).1]
  show IntOp.andi (IntOp.cmpi .sge (idxColK src i) (broadcastInDim S1600000x1 ![] bcast_S_S1600000x1 (constantI S_ 32 0#32) i))
      (IntOp.cmpi .sle (idxColK src i) (broadcastInDim S1600000x1 ![0, 1] bcast_S1x1_S1600000x1_0_1
        (broadcastInDim S1x1 ![1] bcast_S1_S1x1_1 (constantI S1 32 99999#32)) i)) = 1#1
  rw [bcast_const _ bcast_S_S1600000x1 (constantI S_ 32 0#32) 0#32 (fun _ => rfl) i,
    bcast_const _ bcast_S1x1_S1600000x1_0_1 (broadcastInDim S1x1 ![1] bcast_S1_S1x1_1 (constantI S1 32 99999#32)) 99999#32
      (fun k => bcast_const _ bcast_S1_S1x1_1 (constantI S1 32 99999#32) 99999#32 (fun _ => rfl) k) i,
    hw, cmpi_sge_zero _ (hs _).1,
    cmpi_sle_top _ (by have := (hs (ix1 ⟨(i 0).val, idx2_lt0 i⟩)).2; omega)]
  decide

/-- When every source is a node the host's gather is the plain gather of the source rows. -/
theorem takeK_eq (h : FVec Ideal S100000x40 .f32) (src : IVec S1600000 32)
    (hs : ∀ j, 0 ≤ (src j).toInt ∧ (src j).toInt < 100000) :
    takeK h src = Host.gather gather_S100000x40_S1600000x1_S1600000x40_1_0_n_n_0_1_140 h
      (broadcastInDim S1600000x1 ![0] bcast_S1600000_S1600000x1_0 src) := by
  have hw : wrapK src = src := wrapK_eq src fun j => (hs j).1
  funext i
  unfold takeK
  rw [select_apply, bcast_const _ bcast_S1600000_S1600000x40_0 (maskK src) 1#1 (maskK_eq src hs) i, select_one]
  unfold idxColK; rw [hw]

/-! ## Each stretch's results, from any contents at its entry -/

section Stretches
variable (V : Valuation τ sig (Elt Ideal))

theorem s0_v1 : StableHlo.after (hostOps0 (F := Ideal)) V (Proc.devRef .tc main_v1) = srcRowK (V (Proc.devRef .tc main_arg1)) := by
  after_results
  rfl

theorem s0_v3 : StableHlo.after (hostOps0 (F := Ideal)) V (Proc.devRef .tc main_v3) = dstRowK (V (Proc.devRef .tc main_arg1)) := by
  after_results
  rfl

theorem s0_v12 : StableHlo.after (hostOps0 (F := Ideal)) V (Proc.devRef .tc main_v12)
    = broadcastInDim S100000x1 ![0] bcast_S100000_S100000x1_0
        (Host.divf (broadcastInDim S100000 ![] bcast_S_S100000 (constant S_ .f32 0x3F800000#32))
          (maximumf (cntK (V (Proc.devRef .tc main_arg1)))
            (broadcastInDim S100000 ![] bcast_S_S100000 (constant S_ .f32 0x3F800000#32)))) := by
  after_results
  rfl

/-- Contents moved to a buffer's own type and back are unchanged. -/
private theorem ofBuf_toBuf {T : BufTy} (x : StableHlo.TRef sig T) (v : T.Contents (Elt Ideal)) :
    x.ofBuf (x.toBuf v) = v := by
  obtain ⟨r, h, h2, h3⟩ := x
  subst h
  rfl

/-- At a literal buffer the move between the value's type and the buffer's own is the identity. -/
private theorem ofBuf_v1 (h1 h2 h3) (v : (main_v1 : Ref sig .tc).ty.Contents (Elt Ideal)) :
    (StableHlo.TRef.of main_v1 h1 h2 h3 : StableHlo.TRef sig ⟨S1600000, .i32⟩).ofBuf v = v := rfl
private theorem ofBuf_arg0 (h1 h2 h3) (v : (main_arg0 : Ref sig .tc).ty.Contents (Elt Ideal)) :
    (StableHlo.TRef.of main_arg0 h1 h2 h3 : StableHlo.TRef sig ⟨S100000x40, .f32⟩).ofBuf v = v := rfl
private theorem toBuf_v13 (h1 h2 h3) (v : (⟨S1600000x40, .f32⟩ : BufTy).Contents (Elt Ideal)) :
    (StableHlo.TRef.of main_v13 h1 h2 h3 : StableHlo.TRef sig ⟨S1600000x40, .f32⟩).toBuf v = v := rfl

theorem s1_v13 : StableHlo.after (hostOps0_1 (F := Ideal)) V (Proc.devRef .tc main_v13)
    = takeK (V (Proc.devRef .tc main_arg0)) (V (Proc.devRef .tc main_v1)) := by
  after_results_simp
  simp only [ofBuf_toBuf, ofBuf_v1, ofBuf_arg0, toBuf_v13]
  rfl

theorem s2_v18 : StableHlo.after (hostOps0_2 (F := Ideal)) V (Proc.devRef .tc main_v18)
    = (Host.scatterAdd scatter_S100000x40_S1600000x1_S1600000x40_1_0_0_1
        (broadcastInDim S100000x40 ![] bcast_S_S100000x40 (constant S_ .f32 0x00000000#32))
        (broadcastInDim S1600000x1 ![0] bcast_S1600000_S1600000x1_0 (V (Proc.devRef .tc main_v3)))
        (V (Proc.devRef .tc main_v13)) : FVec Ideal S100000x40 .f32) := by
  after_results
  rfl

theorem s2_v19 : StableHlo.after (hostOps0_2 (F := Ideal)) V (Proc.devRef .tc main_v19)
    = shapeCast S1x64 (V (Proc.devRef .tc main_arg3)) shapeCasts_S64_S1x64 := by
  after_results
  rfl

end Stretches

/-- A buffer none of a stretch's operations writes is carried across it. -/
local macro "carry_stretch" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer written by none of the three stretches holds its launch contents at the first region's entry. -/
theorem W3_carry (c : Dev nD) (b : Ref sig .tc)
    (h2 : StableHlo.after hostOps0_2 (W2 (F := Ideal) m ρ c) (Proc.devRef .tc b) = W2 (F := Ideal) m ρ c (Proc.devRef .tc b))
    (h1 : StableHlo.after hostOps0_1 (W1 (F := Ideal) m ρ c) (Proc.devRef .tc b) = W1 (F := Ideal) m ρ c (Proc.devRef .tc b))
    (h0 : StableHlo.after hostOps0 (W0 (F := Ideal) m ρ c) (Proc.devRef .tc b) = W0 (F := Ideal) m ρ c (Proc.devRef .tc b)) :
    W3 (F := Ideal) m ρ c (Proc.devRef .tc b) = W0 (F := Ideal) m ρ c (Proc.devRef .tc b) :=
  h2.trans (h1.trans h0)

theorem W3_src (c : Dev nD) : W3 (F := Ideal) m ρ c (Proc.devRef .tc main_v1) = srcRowK (m ((c : Thread nD τ).loc main_arg1)) := by
  have h2 : StableHlo.after hostOps0_2 (W2 (F := Ideal) m ρ c) (Proc.devRef .tc main_v1)
      = W2 (F := Ideal) m ρ c (Proc.devRef .tc main_v1) := by carry_stretch hostOps0_2
  have h1 : StableHlo.after hostOps0_1 (W1 (F := Ideal) m ρ c) (Proc.devRef .tc main_v1)
      = W1 (F := Ideal) m ρ c (Proc.devRef .tc main_v1) := by carry_stretch hostOps0_1
  refine h2.trans (h1.trans ?_)
  show StableHlo.after hostOps0 (W0 (F := Ideal) m ρ c) (Proc.devRef .tc main_v1) = _
  after_results
  rfl

theorem W3_dst (c : Dev nD) : W3 (F := Ideal) m ρ c (Proc.devRef .tc main_v3) = dstRowK (m ((c : Thread nD τ).loc main_arg1)) := by
  have h2 : StableHlo.after hostOps0_2 (W2 (F := Ideal) m ρ c) (Proc.devRef .tc main_v3)
      = W2 (F := Ideal) m ρ c (Proc.devRef .tc main_v3) := by carry_stretch hostOps0_2
  have h1 : StableHlo.after hostOps0_1 (W1 (F := Ideal) m ρ c) (Proc.devRef .tc main_v3)
      = W1 (F := Ideal) m ρ c (Proc.devRef .tc main_v3) := by carry_stretch hostOps0_1
  refine h2.trans (h1.trans ?_)
  show StableHlo.after hostOps0 (W0 (F := Ideal) m ρ c) (Proc.devRef .tc main_v3) = _
  after_results
  rfl

/-- The first aggregate, when every source is a node (the kernel's gather fills rows of other sources with a marker). -/
theorem V3_agg (c : Dev nD) (hsrc : Cert.Sage.SrcOK 100000 (m ((c : Thread nD τ).loc main_arg1))) :
    V3 (F := Ideal) m ρ c main_v18
      = Cert.Sage.agg Cert.Sage.nodes_pos (m ((c : Thread nD τ).loc main_arg0)) (m ((c : Thread nD τ).loc main_arg1)) := by
  -- the contents the later stretches read, back to the launch memory
  have e1 : W1 (F := Ideal) m ρ c (Proc.devRef .tc main_v1) = srcRowK (m ((c : Thread nD τ).loc main_arg1)) :=
    s0_v1 (W0 (F := Ideal) m ρ c)
  have e3 : W1 (F := Ideal) m ρ c (Proc.devRef .tc main_v3) = dstRowK (m ((c : Thread nD τ).loc main_arg1)) :=
    s0_v3 (W0 (F := Ideal) m ρ c)
  have e0 : W1 (F := Ideal) m ρ c (Proc.devRef .tc main_arg0) = m ((c : Thread nD τ).loc main_arg0) := by
    refine (?_ : StableHlo.after hostOps0 (W0 (F := Ideal) m ρ c) (Proc.devRef .tc main_arg0)
      = W0 (F := Ideal) m ρ c (Proc.devRef .tc main_arg0)).trans rfl
    carry_stretch hostOps0
  have e13 : W2 (F := Ideal) m ρ c (Proc.devRef .tc main_v13)
      = takeK (m ((c : Thread nD τ).loc main_arg0)) (srcRowK (m ((c : Thread nD τ).loc main_arg1))) := by
    refine (s1_v13 (W1 (F := Ideal) m ρ c)).trans ?_
    rw [e0, e1]
  have e3' : W2 (F := Ideal) m ρ c (Proc.devRef .tc main_v3) = dstRowK (m ((c : Thread nD τ).loc main_arg1)) := by
    refine (?_ : StableHlo.after hostOps0_1 (W1 (F := Ideal) m ρ c) (Proc.devRef .tc main_v3)
      = W1 (F := Ideal) m ρ c (Proc.devRef .tc main_v3)).trans e3
    carry_stretch hostOps0_1
  -- every source is a node
  have hs : ∀ j : S1600000.Idx, 0 ≤ (srcRowK (m ((c : Thread nD τ).loc main_arg1)) j).toInt
      ∧ (srcRowK (m ((c : Thread nD τ).loc main_arg1)) j).toInt < 100000 := fun j => by
    have key : ∀ a : Fin 1600000, 0 ≤ (srcRowK (m ((c : Thread nD τ).loc main_arg1)) (ix1 a)).toInt
        ∧ (srcRowK (m ((c : Thread nD τ).loc main_arg1)) (ix1 a)).toInt < 100000 := fun a => by
      rw [srcRowK_apply]
      have := hsrc a
      omega
    rw [eq_ix1 j]
    exact key (j 0)
  show StableHlo.after hostOps0_2 (W2 (F := Ideal) m ρ c) (Proc.devRef .tc main_v18) = _
  rw [s2_v18, e13, e3', takeK_eq _ _ hs]
  refine Cert.Sage.scatter_gather_eq_agg Cert.Sage.nodes_pos _ ⟨rfl, rfl, rfl, rfl⟩ _ ⟨rfl, rfl, rfl, rfl, rfl, rfl, rfl⟩
    _ (fun i => bcast_const _ bcast_S_S100000x40 (constant (F := Ideal) S_ .f32 0x00000000#32) 0 (fun _ => Ideal.ofBits_zero_f32) i)
    _ _ _ _ (fun j => ?_) (fun j => ?_)
  · rw [col_apply]; exact srcRowK_apply _ j
  · rw [col_apply]; exact dstRowK_apply _ j

theorem V3_ic (c : Dev nD) : V3 (F := Ideal) m ρ c main_v12 = Cert.Sage.icOf (cntK (m ((c : Thread nD τ).loc main_arg1))) := by
  have h2 : StableHlo.after hostOps0_2 (W2 (F := Ideal) m ρ c) (Proc.devRef .tc main_v12)
      = W2 (F := Ideal) m ρ c (Proc.devRef .tc main_v12) := by carry_stretch hostOps0_2
  have h1 : StableHlo.after hostOps0_1 (W1 (F := Ideal) m ρ c) (Proc.devRef .tc main_v12)
      = W1 (F := Ideal) m ρ c (Proc.devRef .tc main_v12) := by carry_stretch hostOps0_1
  refine (h2.trans (h1.trans (s0_v12 (W0 (F := Ideal) m ρ c)))).trans ?_
  funext i
  refine (broadcastInDim_apply _ bcast_S100000_S100000x1_0 _ i (ix1 ⟨(i 0).val, idx2_lt0 i⟩) (fun a => match a with
    | ⟨0, _⟩ => by show (i 0).val = if (100000 : Nat) = 1 then 0 else (i 0).val; rw [if_neg (by decide)])).trans ?_
  have hone : ∀ k : S100000.Idx,
      broadcastInDim S100000 ![] bcast_S_S100000 (constant (F := Ideal) S_ .f32 0x3F800000#32) k = 1 :=
    fun k => bcast_const _ bcast_S_S100000 (constant (F := Ideal) S_ .f32 0x3F800000#32) 1 (fun _ => Cert.Sage.ofBits_one) k
  rw [hostDivf_apply, maximumf_apply, hone, icOf_apply]

theorem V3_b (c : Dev nD) : V3 (F := Ideal) m ρ c main_v19 = Cert.Sage.asRow (m ((c : Thread nD τ).loc main_arg3)) := by
  have harg : W2 (F := Ideal) m ρ c (Proc.devRef .tc main_arg3) = m ((c : Thread nD τ).loc main_arg3) := by
    have h1 : StableHlo.after hostOps0_1 (W1 (F := Ideal) m ρ c) (Proc.devRef .tc main_arg3)
        = W1 (F := Ideal) m ρ c (Proc.devRef .tc main_arg3) := by carry_stretch hostOps0_1
    have h0 : StableHlo.after hostOps0 (W0 (F := Ideal) m ρ c) (Proc.devRef .tc main_arg3)
        = W0 (F := Ideal) m ρ c (Proc.devRef .tc main_arg3) := by carry_stretch hostOps0
    exact (h1.trans h0).trans rfl
  show StableHlo.after hostOps0_2 (W2 (F := Ideal) m ρ c) (Proc.devRef .tc main_v19) = _
  rw [s2_v19, harg]
  funext i
  refine (shapeCast_apply _ shapeCasts_S64_S1x64 i (ix1 ⟨(i 1).val, idx2_lt1 i⟩) ?_).trans rfl
  rewrite [Shape.rowMajor_val_two, Shape.rowMajor_val_one]
  have h0 : (i 0).val < 1 := idx2_lt0 i
  show (i 1).val = (i 0).val * 64 + (i 1).val
  omega

theorem V3_arg0 (c : Dev nD) : V3 (F := Ideal) m ρ c main_arg0 = m ((c : Thread nD τ).loc main_arg0) := by
  show W3 (F := Ideal) m ρ c (Proc.devRef .tc main_arg0) = _
  refine (W3_carry m ρ c main_arg0 ?_ ?_ ?_).trans rfl
  · carry_stretch hostOps0_2
  · carry_stretch hostOps0_1
  · carry_stretch hostOps0

theorem V3_arg2 (c : Dev nD) : V3 (F := Ideal) m ρ c main_arg2 = m ((c : Thread nD τ).loc main_arg2) := by
  show W3 (F := Ideal) m ρ c (Proc.devRef .tc main_arg2) = _
  refine (W3_carry m ρ c main_arg2 ?_ ?_ ?_).trans rfl
  · carry_stretch hostOps0_2
  · carry_stretch hostOps0_1
  · carry_stretch hostOps0

theorem V3_arg4 (c : Dev nD) : V3 (F := Ideal) m ρ c main_arg4 = m ((c : Thread nD τ).loc main_arg4) := by
  show W3 (F := Ideal) m ρ c (Proc.devRef .tc main_arg4) = _
  refine (W3_carry m ρ c main_arg4 ?_ ?_ ?_).trans rfl
  · carry_stretch hostOps0_2
  · carry_stretch hostOps0_1
  · carry_stretch hostOps0

end Cert.KernelIdeal.HostValue

end
-- ==== Proof.Stretch1.lean ====
/-
  The host operations between the first and the second pallas_call, read at the buffers the second call takes, over the first call's output array.
-/
import proofs.«412509_j41248865911345_3_alg».proof.Proof.Gen.KernelIdeal.Frame
import proofs.«412509_j41248865911345_3_alg».proof.Proof.KSpec
import proofs.«412509_j41248865911345_3_alg».proof.Proof.AggLib
import proofs.«412509_j41248865911345_3_alg».proof.Proof.Stretch0
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## A buffer a stretch of host operations does not write keeps its contents -/

/-- Proves that no operation of the named stretch writes the goal's buffer: the stretch's operations are listed, each
    writes one buffer, and that buffer is another one than the goal's. -/
local macro "not_written " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Across the two stretches between the first and the second call a buffer neither writes is as the first call left it. -/
theorem W6_eq_W4 (c : Dev nD) (b : DevRef τ sig)
    (h1 : ∀ op ∈ (hostOps1 : List (HloOp τ sig (Elt Ideal))), b ∉ op.writes)
    (h2 : ∀ op ∈ (hostOps1_1 : List (HloOp τ sig (Elt Ideal))), b ∉ op.writes) :
    W6 (F := Ideal) m ρ c b = W4 (F := Ideal) m ρ c b :=
  (StableHlo.after_of_forall_not_mem _ _ h2).trans (StableHlo.after_of_forall_not_mem _ _ h1)

/-- A buffer none of the three stretches before the first call writes holds, at that call's entry, its launch contents. -/
theorem W3_eq_launch (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 (F := Ideal) m ρ c (Proc.devRef .tc b) = m ((c : Thread nD τ).loc b) :=
  (StableHlo.after_of_forall_not_mem _ _ h2).trans ((StableHlo.after_of_forall_not_mem _ _ h1).trans
    ((StableHlo.after_of_forall_not_mem _ _ h0).trans rfl))

/-! ## The masked row gather -/

/-- A source index moved by the node count when it is negative. -/
def t64Wrap (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The moved source indices as a column. -/
def t64Col (src : IVec S1600000 32) : IVec S1600000x1 32 :=
  broadcastInDim S1600000x1 ![0] bcast_S1600000_S1600000x1_0 (t64Wrap src)

/-- Per edge: is the moved source index a node? -/
def t64Mask (src : IVec S1600000 32) : IVec S1600000 1 :=
  Host.reduce IntOp.andi
    (andi (cmpi .sge (t64Col src) (broadcastInDim S1600000x1 ![] bcast_S_S1600000x1 (constantI S_ 32 0#32)))
      (cmpi .sle (t64Col src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The masked gather of the rows of a 64-column array at the source indices: a row whose index is no node is filled
    with a marker. -/
def t64Take (h : FVec Ideal S100000x64 .f32) (src : IVec S1600000 32) : FVec Ideal S1600000x64 .f32 :=
  select (broadcastInDim S1600000x64 ![0] bcast_S1600000_S1600000x64_0 (t64Mask src))
    (Host.gather gather_S100000x64_S1600000x1_S1600000x64_1_0_n_n_0_1_164 h (t64Col src))
    (broadcastInDim S1600000x64 ![] bcast_S_S1600000x64 (constant (F := Ideal) S_ .f32 0x7FC00000#32))

/-- A vector as a column, read at an entry. -/
private theorem col_apply {α : Type} (y : S1600000.Idx → α) (p : Fin 1600000) (q : Fin 1) :
    broadcastInDim S1600000x1 ![0] bcast_S1600000_S1600000x1_0 y (ix2 p q) = y (ix1 p) :=
  broadcastInDim_apply _ bcast_S1600000_S1600000x1_0 y (ix2 p q) (ix1 p) (fun a => match a with
    | ⟨0, _⟩ => by show p.val = if (1600000 : Nat) = 1 then 0 else p.val; rw [if_neg (by decide)])

/-- A vector repeated along 64 columns, read at an entry. -/
private theorem rows64_apply {α : Type} (y : S1600000.Idx → α) (p : Fin 1600000) (q : Fin 64) :
    broadcastInDim S1600000x64 ![0] bcast_S1600000_S1600000x64_0 y (ix2 p q) = y (ix1 p) :=
  broadcastInDim_apply _ bcast_S1600000_S1600000x64_0 y (ix2 p q) (ix1 p) (fun a => match a with
    | ⟨0, _⟩ => by show p.val = if (1600000 : Nat) = 1 then 0 else p.val; rw [if_neg (by decide)])

/-- A source index that is not negative is not moved. -/
theorem t64Wrap_eq (src : IVec S1600000 32) (h : ∀ j : Fin 1600000, 0 ≤ (src (ix1 j)).toInt) : t64Wrap src = src := by
  funext i
  obtain ⟨j, rfl⟩ : ∃ j : Fin 1600000, i = ix1 j := ⟨i 0, eq_ix1 i⟩
  show Scalar.select (IntOp.cmpi .slt (src (ix1 j)) 0#32) (IntOp.addi (src (ix1 j)) 100000#32) (src (ix1 j)) = src (ix1 j)
  have hc : IntOp.cmpi .slt (src (ix1 j)) 0#32 = 0#1 := by
    apply eq_zero_of_ne_one
    intro h1
    have h2 := IntOp.cmpi_slt.mp h1
    have h3 := h j
    have h4 : (0#32 : BitVec 32).toInt = 0 := by decide
    omega
  rw [hc, select_zero]

/-- A reduction by `and` of ones, from one, is one. -/
private theorem reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx a]; exact ih

/-- When every source index is a node, every edge's mask bit is set. -/
theorem t64Mask_eq_one (src : IVec S1600000 32)
    (h : ∀ j : Fin 1600000, 0 ≤ (src (ix1 j)).toInt ∧ (src (ix1 j)).toInt < 100000) (i : S1600000.Idx) :
    t64Mask src i = 1#1 := by
  unfold t64Mask
  refine reduce_andi_of_all_one _ _ _ _ _ (fun k => ?_) (fun _ => rfl)
  obtain ⟨p, q, rfl⟩ : ∃ (p : Fin 1600000) (q : Fin 1), k = ix2 p q := ⟨k 0, k 1, eq_ix2 k⟩
  have hcol : t64Col src (ix2 p q) = src (ix1 p) := by
    unfold t64Col
    rw [t64Wrap_eq src fun j => (h j).1]
    exact col_apply src p q
  show IntOp.andi (IntOp.cmpi .sge (t64Col src (ix2 p q)) 0#32) (IntOp.cmpi .sle (t64Col src (ix2 p q)) 99999#32) = 1#1
  rw [hcol]
  have h0 : (0#32 : BitVec 32).toInt = 0 := by decide
  have h9 : (99999#32 : BitVec 32).toInt = 99999 := by decide
  have hp := h p
  exact IntOp.andi_eq_one.mpr ⟨IntOp.cmpi_sge.mpr (by omega), IntOp.cmpi_sle.mpr (by omega)⟩

/-- When every source index is a node the masked gather is the gather of the rows at the source indices. -/
theorem t64Take_eq_gather (hh : FVec Ideal S100000x64 .f32) (src : IVec S1600000 32)
    (h : ∀ j : Fin 1600000, 0 ≤ (src (ix1 j)).toInt ∧ (src (ix1 j)).toInt < 100000) :
    t64Take hh src = Host.gather gather_S100000x64_S1600000x1_S1600000x64_1_0_n_n_0_1_164 hh
      (broadcastInDim S1600000x1 ![0] bcast_S1600000_S1600000x1_0 src) := by
  funext i
  obtain ⟨p, q, rfl⟩ : ∃ (p : Fin 1600000) (q : Fin 64), i = ix2 p q := ⟨i 0, i 1, eq_ix2 i⟩
  unfold t64Take
  rw [select_apply, rows64_apply, t64Mask_eq_one src h, select_one]
  unfold t64Col
  rw [t64Wrap_eq src fun j => (h j).1]

/-! ## Contents at a value's type and at its buffer's own type -/

/-- Contents moved to a buffer's own type and back are unchanged. -/
private theorem ofBuf_toBuf {T : BufTy} (x : StableHlo.TRef sig T) (v : T.Contents (Elt Ideal)) :
    x.ofBuf (x.toBuf v) = v := by
  obtain ⟨r, h, h2, h3⟩ := x
  subst h
  rfl

/-- At a literal buffer the move between the value's type and the buffer's own is the identity. -/
private theorem ofBuf_v1 (h1 h2 h3) (v : (main_v1 : Ref sig .tc).ty.Contents (Elt Ideal)) :
    (StableHlo.TRef.of main_v1 h1 h2 h3 : StableHlo.TRef sig ⟨S1600000, .i32⟩).ofBuf v = v := rfl
private theorem ofBuf_v20 (h1 h2 h3) (v : (main_v20 : Ref sig .tc).ty.Contents (Elt Ideal)) :
    (StableHlo.TRef.of main_v20 h1 h2 h3 : StableHlo.TRef sig ⟨S100000x64, .f32⟩).ofBuf v = v := rfl
private theorem toBuf_v21 (h1 h2 h3) (v : (⟨S1600000x64, .f32⟩ : BufTy).Contents (Elt Ideal)) :
    (StableHlo.TRef.of main_v21 h1 h2 h3 : StableHlo.TRef sig ⟨S1600000x64, .f32⟩).toBuf v = v := rfl

/-! ## The edge list's rows and a bias row, read at an entry -/

/-- The source vector at an edge is the edge list's first row there. -/
private theorem srcRow_at (ei : IVec S2x1600000 32) (j : Fin 1600000) : srcRowK ei (ix1 j) = ei (ix2 0 j) := by
  unfold srcRowK
  refine (shapeCast_apply _ shapeCasts_S1x1600000_S1600000 (ix1 j) (ix2 (0 : Fin 1) j) ?_).trans ?_
  · rewrite [Shape.rowMajor_val_two, Shape.rowMajor_val_one]
    show 0 * 1600000 + j.val = j.val
    omega
  · exact extractStridedSlice_apply ![0, 0] ei slices_S2x1600000_S1x1600000_0_0 (ix2 (0 : Fin 1) j) (ix2 (0 : Fin 2) j)
      (fun a => match a with
        | ⟨0, _⟩ => by show (0 : Nat) = 0 + 0; rfl
        | ⟨1, _⟩ => by show j.val = 0 + j.val; omega)

/-- The destination vector at an edge is the edge list's second row there. -/
private theorem dstRow_at (ei : IVec S2x1600000 32) (j : Fin 1600000) : dstRowK ei (ix1 j) = ei (ix2 1 j) := by
  unfold dstRowK
  refine (shapeCast_apply _ shapeCasts_S1x1600000_S1600000 (ix1 j) (ix2 (0 : Fin 1) j) ?_).trans ?_
  · rewrite [Shape.rowMajor_val_two, Shape.rowMajor_val_one]
    show 0 * 1600000 + j.val = j.val
    omega
  · exact extractStridedSlice_apply ![1, 0] ei slices_S2x1600000_S1x1600000_1_0 (ix2 (0 : Fin 1) j) (ix2 (1 : Fin 2) j)
      (fun a => match a with
        | ⟨0, _⟩ => by show (1 : Nat) = 1 + 0; rfl
        | ⟨1, _⟩ => by show j.val = 0 + j.val; omega)

/-- A vector recast as a one-row matrix is that row. -/
theorem shapeCast_asRow {n : Nat} (b : FVec Ideal ⟨1, ![n]⟩ .f32) (h : (⟨1, ![n]⟩ : Shape).ShapeCasts ⟨2, ![1, n]⟩) :
    shapeCast ⟨2, ![1, n]⟩ b h = Cert.Sage.asRow b := by
  funext i
  obtain ⟨p, r, rfl⟩ : ∃ (p : Fin 1) (r : Fin n), i = ix2 p r := ⟨i 0, i 1, eq_ix2 i⟩
  refine (shapeCast_apply b h (ix2 p r) (ix1 r) ?_).trans rfl
  rewrite [Shape.rowMajor_val_one, Shape.rowMajor_val_two]
  show r.val = p.val * n + r.val
  have hp : p.val = 0 := by have := p.isLt; omega
  rw [hp]; omega

/-- The aggregate the host computes over a 64-column array: the masked gather of its rows at the sources, scattered to
    the destinations from zero. -/
theorem t64_scatter_take_eq_agg (hh : FVec Ideal S100000x64 .f32) (ei : IVec S2x1600000 32)
    (hsrc : Cert.Sage.SrcOK 100000 ei) :
    Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (dstRowK ei))
        (t64Take hh (srcRowK ei))
      = Cert.Sage.agg Cert.Sage.nodes_pos hh ei := by
  rw [t64Take_eq_gather hh (srcRowK ei) fun j => by rw [srcRow_at]; exact hsrc j]
  exact Cert.Sage.scatter_gather_eq_agg Cert.Sage.nodes_pos _ ⟨rfl, rfl, rfl, rfl⟩ _ ⟨rfl, rfl, rfl, rfl, rfl, rfl, rfl⟩ _
    (fun _ => Ideal.ofBits_zero_f32) hh ei _ _
    (fun j => (col_apply (srcRowK ei) j 0).trans (srcRow_at ei j))
    (fun j => (col_apply (dstRowK ei) j 0).trans (dstRow_at ei j))

/-! ## The two stretches read at the buffers they write, from any contents at their entry -/

section Stretches
variable (V : Valuation τ sig (Elt Ideal))

/-- The first stretch writes the masked gather of the first call's output at the sources. -/
theorem t64_after1_v21 : StableHlo.after (hostOps1 (F := Ideal)) V (Proc.devRef .tc main_v21)
    = t64Take (V (Proc.devRef .tc main_v20)) (V (Proc.devRef .tc main_v1)) := by
  after_results_simp
  simp only [ofBuf_toBuf, ofBuf_v1, ofBuf_v20, toBuf_v21]
  rfl

/-- The second stretch scatters the gathered rows (rounded and widened back: the identity on extended reals) to the
    destinations from zero. -/
theorem t64_after11_v26 : StableHlo.after (hostOps1_1 (F := Ideal)) V (Proc.devRef .tc main_v26)
    = (Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (V (Proc.devRef .tc main_v3)))
        (V (Proc.devRef .tc main_v21)) : FVec Ideal S100000x64 .f32) := by
  after_results
  rfl

/-- The second stretch recasts the second bias as a row. -/
theorem t64_after11_v27 : StableHlo.after (hostOps1_1 (F := Ideal)) V (Proc.devRef .tc main_v27)
    = shapeCast S1x128 (V (Proc.devRef .tc main_arg6)) shapeCasts_S128_S1x128 := by
  after_results
  rfl

end Stretches

/-! ## The buffers at the second call's entry -/

theorem W6_src (c : Dev nD) : W6 (F := Ideal) m ρ c (Proc.devRef .tc main_v1) = srcRowK (m ((c : Thread nD τ).loc main_arg1)) :=
  (W6_eq_W4 m ρ c _ (by not_written hostOps1) (by not_written hostOps1_1)).trans
    ((W4_of_ne m ρ c main_v1 (by decide)).trans (W3_src m ρ c))

theorem W6_dst (c : Dev nD) : W6 (F := Ideal) m ρ c (Proc.devRef .tc main_v3) = dstRowK (m ((c : Thread nD τ).loc main_arg1)) :=
  (W6_eq_W4 m ρ c _ (by not_written hostOps1) (by not_written hostOps1_1)).trans
    ((W4_of_ne m ρ c main_v3 (by decide)).trans (W3_dst m ρ c))

/-- The second aggregate: the aggregate of the first call's output array. -/
theorem V6_agg (c : Dev nD) (hsrc : Cert.Sage.SrcOK 100000 (m ((c : Thread nD τ).loc main_arg1))) :
    V6 (F := Ideal) m ρ c main_v26
      = Cert.Sage.agg Cert.Sage.nodes_pos (W4 (F := Ideal) m ρ c (Proc.devRef .tc main_v20)) (m ((c : Thread nD τ).loc main_arg1)) := by
  have e1 : W4 (F := Ideal) m ρ c (Proc.devRef .tc main_v1) = srcRowK (m ((c : Thread nD τ).loc main_arg1)) :=
    (W4_of_ne m ρ c main_v1 (by decide)).trans (W3_src m ρ c)
  have e3 : W5 (F := Ideal) m ρ c (Proc.devRef .tc main_v3) = dstRowK (m ((c : Thread nD τ).loc main_arg1)) :=
    (StableHlo.after_of_forall_not_mem _ _ (by not_written hostOps1)).trans
      ((W4_of_ne m ρ c main_v3 (by decide)).trans (W3_dst m ρ c))
  have e21 : W5 (F := Ideal) m ρ c (Proc.devRef .tc main_v21)
      = t64Take (W4 (F := Ideal) m ρ c (Proc.devRef .tc main_v20)) (srcRowK (m ((c : Thread nD τ).loc main_arg1))) := by
    refine (t64_after1_v21 (W4 (F := Ideal) m ρ c)).trans ?_
    rw [e1]
  refine (t64_after11_v26 (W5 (F := Ideal) m ρ c)).trans ?_
  rw [e3, e21]
  exact t64_scatter_take_eq_agg _ _ hsrc

theorem V6_ic (c : Dev nD) : V6 (F := Ideal) m ρ c main_v12 = Cert.Sage.icOf (cntK (m ((c : Thread nD τ).loc main_arg1))) :=
  (W6_eq_W4 m ρ c _ (by not_written hostOps1) (by not_written hostOps1_1)).trans
    (((W4_arr m ρ c 1).trans (((dat0 (V3 m ρ) c).arrAt_in 1 rfl _).trans (A_eq0 (V3 m ρ) c 1))).trans (V3_ic m ρ c))

theorem V6_h (c : Dev nD) : V6 (F := Ideal) m ρ c main_v20 = W4 (F := Ideal) m ρ c (Proc.devRef .tc main_v20) :=
  W6_eq_W4 m ρ c _ (by not_written hostOps1) (by not_written hostOps1_1)

theorem V6_b (c : Dev nD) : V6 (F := Ideal) m ρ c main_v27 = Cert.Sage.asRow (m ((c : Thread nD τ).loc main_arg6)) := by
  have e6 : W5 (F := Ideal) m ρ c (Proc.devRef .tc main_arg6) = m ((c : Thread nD τ).loc main_arg6) :=
    (StableHlo.after_of_forall_not_mem _ _ (by not_written hostOps1)).trans
      ((W4_of_ne m ρ c main_arg6 (by decide)).trans
        (W3_eq_launch m ρ c main_arg6 (by not_written hostOps0) (by not_written hostOps0_1) (by not_written hostOps0_2)))
  refine (t64_after11_v27 (W5 (F := Ideal) m ρ c)).trans ?_
  rw [e6]
  exact shapeCast_asRow _ _

theorem V6_arg5 (c : Dev nD) : V6 (F := Ideal) m ρ c main_arg5 = m ((c : Thread nD τ).loc main_arg5) :=
  (W6_eq_W4 m ρ c _ (by not_written hostOps1) (by not_written hostOps1_1)).trans
    ((W4_of_ne m ρ c main_arg5 (by decide)).trans
      (W3_eq_launch m ρ c main_arg5 (by not_written hostOps0) (by not_written hostOps0_1) (by not_written hostOps0_2)))

theorem V6_arg7 (c : Dev nD) : V6 (F := Ideal) m ρ c main_arg7 = m ((c : Thread nD τ).loc main_arg7) :=
  (W6_eq_W4 m ρ c _ (by not_written hostOps1) (by not_written hostOps1_1)).trans
    ((W4_of_ne m ρ c main_arg7 (by decide)).trans
      (W3_eq_launch m ρ c main_arg7 (by not_written hostOps0) (by not_written hostOps0_1) (by not_written hostOps0_2)))

theorem V6_arg8 (c : Dev nD) : V6 (F := Ideal) m ρ c main_arg8 = m ((c : Thread nD τ).loc main_arg8) :=
  (W6_eq_W4 m ρ c _ (by not_written hostOps1) (by not_written hostOps1_1)).trans
    ((W4_of_ne m ρ c main_arg8 (by decide)).trans
      (W3_eq_launch m ρ c main_arg8 (by not_written hostOps0) (by not_written hostOps0_1) (by not_written hostOps0_2)))

end Cert.KernelIdeal.HostValue

end
-- ==== Proof.Stretch2.lean ====
/-
  The host operations between the second and the third pallas_call, read at the buffers the third call takes, over the second call's two output arrays.
-/
import proofs.«412509_j41248865911345_3_alg».proof.Proof.Gen.KernelIdeal.Frame
import proofs.«412509_j41248865911345_3_alg».proof.Proof.KSpec
import proofs.«412509_j41248865911345_3_alg».proof.Proof.AggLib
import proofs.«412509_j41248865911345_3_alg».proof.Proof.Stretch1
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## Constants, the edge column, and moves between a value's type and its buffer's -/

/-- A broadcast of an array that holds one value everywhere holds that value everywhere. -/
private theorem bcast_const₂ {s t : Shape} {α : Type} (dims : Fin s.rank → Fin t.rank) (h : s.BroadcastsInDim t dims)
    (x : s.Idx → α) (a : α) (hx : ∀ k, x k = a) (j : t.Idx) : broadcastInDim t dims h x j = a := by
  unfold broadcastInDim; exact hx _

/-- A vector of edges as a one-column matrix reads, at a row, the vector at that row. -/
private theorem col_apply₂ {α : Type} (v : S1600000.Idx → α) (i : S1600000x1.Idx) :
    broadcastInDim S1600000x1 ![0] bcast_S1600000_S1600000x1_0 v i = v (ix1 ⟨(i 0).val, idx2_lt0 i⟩) :=
  broadcastInDim_apply _ bcast_S1600000_S1600000x1_0 v i (ix1 ⟨(i 0).val, idx2_lt0 i⟩) (fun a => match a with
    | ⟨0, _⟩ => by show (i 0).val = if (1600000 : Nat) = 1 then 0 else (i 0).val; rw [if_neg (by decide)])

/-- Contents moved to a buffer's own type and back are unchanged. -/
private theorem ofBuf_toBuf₂ {T : BufTy} (x : StableHlo.TRef sig T) (v : T.Contents (Elt Ideal)) :
    x.ofBuf (x.toBuf v) = v := by
  obtain ⟨r, h, h2, h3⟩ := x
  subst h
  rfl

/-- At a literal buffer the move between the value's type and the buffer's own is the identity. -/
private theorem ofBuf_v1₂ (h1 h2 h3) (v : (main_v1 : Ref sig .tc).ty.Contents (Elt Ideal)) :
    (StableHlo.TRef.of main_v1 h1 h2 h3 : StableHlo.TRef sig ⟨S1600000, .i32⟩).ofBuf v = v := rfl
private theorem ofBuf_v28_1 (h1 h2 h3) (v : (main_v28_1 : Ref sig .tc).ty.Contents (Elt Ideal)) :
    (StableHlo.TRef.of main_v28_1 h1 h2 h3 : StableHlo.TRef sig ⟨S100000x64, .f32⟩).ofBuf v = v := rfl
private theorem toBuf_v29 (h1 h2 h3) (v : (⟨S1600000x64, .f32⟩ : BufTy).Contents (Elt Ideal)) :
    (StableHlo.TRef.of main_v29 h1 h2 h3 : StableHlo.TRef sig ⟨S1600000x64, .f32⟩).toBuf v = v := rfl

/-! ## The gather of the source rows of a 64-column array as the host computes it -/

/-- The rows of `h` at the sources, with a marker row where the wrapped source is not a node. -/
private def takeRows₂ (h : FVec Ideal S100000x64 .f32) (src : IVec S1600000 32) : FVec Ideal S1600000x64 .f32 :=
  select (broadcastInDim S1600000x64 ![0] bcast_S1600000_S1600000x64_0 (maskK src))
    (Host.gather gather_S100000x64_S1600000x1_S1600000x64_1_0_n_n_0_1_164 h (idxColK src))
    (broadcastInDim S1600000x64 ![] bcast_S_S1600000x64 (constant S_ .f32 0x7FC00000#32))

/-- When every source is a node the host's gather is the plain gather of the source rows. -/
private theorem takeRows₂_eq (h : FVec Ideal S100000x64 .f32) (src : IVec S1600000 32)
    (hs : ∀ j, 0 ≤ (src j).toInt ∧ (src j).toInt < 100000) :
    takeRows₂ h src = Host.gather gather_S100000x64_S1600000x1_S1600000x64_1_0_n_n_0_1_164 h
      (broadcastInDim S1600000x1 ![0] bcast_S1600000_S1600000x1_0 src) := by
  have hw : wrapK src = src := wrapK_eq src fun j => (hs j).1
  funext i
  unfold takeRows₂
  rw [select_apply, bcast_const₂ _ bcast_S1600000_S1600000x64_0 (maskK src) 1#1 (maskK_eq src hs) i, select_one]
  unfold idxColK; rw [hw]

/-! ## Each stretch's results, from any contents at its entry -/

section Stretches
variable (V : Valuation τ sig (Elt Ideal))

private theorem s2a_v29 : StableHlo.after (hostOps2 (F := Ideal)) V (Proc.devRef .tc main_v29)
    = takeRows₂ (V (Proc.devRef .tc main_v28_1)) (V (Proc.devRef .tc main_v1)) := by
  after_results_simp
  simp only [ofBuf_toBuf₂, ofBuf_v1₂, ofBuf_v28_1, toBuf_v29]
  rfl

private theorem s2b_v34 : StableHlo.after (hostOps2_1 (F := Ideal)) V (Proc.devRef .tc main_v34)
    = (Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (V (Proc.devRef .tc main_v3)))
        (V (Proc.devRef .tc main_v29)) : FVec Ideal S100000x64 .f32) := by
  after_results
  rfl

private theorem s2b_v35 : StableHlo.after (hostOps2_1 (F := Ideal)) V (Proc.devRef .tc main_v35)
    = shapeCast S1x64 (V (Proc.devRef .tc main_arg9)) shapeCasts_S64_S1x64 := by
  after_results
  rfl

private theorem s2b_v36 : StableHlo.after (hostOps2_1 (F := Ideal)) V (Proc.devRef .tc main_v36)
    = shapeCast S1x3 (V (Proc.devRef .tc main_arg12)) shapeCasts_S3_S1x3 := by
  after_results
  rfl

end Stretches

/-- A buffer none of a stretch's operations writes is carried across it. -/
local macro "carry_stretch₂" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A vector laid out as a one-row matrix, as the reshape computes it. -/
private theorem shapeCast_row {k : Nat} (hc : (⟨1, ![k]⟩ : Shape).ShapeCasts ⟨2, ![1, k]⟩) (b : FVec Ideal ⟨1, ![k]⟩ .f32) :
    shapeCast ⟨2, ![1, k]⟩ b hc = Cert.Sage.asRow b := by
  funext i
  refine (shapeCast_apply b hc i (ix1 ⟨(i 1).val, idx2_lt1 i⟩) ?_).trans rfl
  rewrite [Shape.rowMajor_val_two, Shape.rowMajor_val_one]
  have h0 : (i 0).val < 1 := idx2_lt0 i
  show (i 1).val = (i 0).val * k + (i 1).val
  have : (i 0).val = 0 := by omega
  rw [this]; omega

/-- The third aggregate: the aggregate of the second call's second output array. -/
theorem V9_agg (c : Dev nD) (hsrc : Cert.Sage.SrcOK 100000 (m ((c : Thread nD τ).loc main_arg1))) :
    V9 (F := Ideal) m ρ c main_v34
      = Cert.Sage.agg Cert.Sage.nodes_pos (W7 (F := Ideal) m ρ c (Proc.devRef .tc main_v28_1)) (m ((c : Thread nD τ).loc main_arg1)) := by
  -- the two rows of the edge list, carried across the second call
  have e1 : W7 (F := Ideal) m ρ c (Proc.devRef .tc main_v1) = srcRowK (m ((c : Thread nD τ).loc main_arg1)) :=
    (W7_of_ne m ρ c main_v1 (by decide)).trans (W6_src m ρ c)
  have e3 : W7 (F := Ideal) m ρ c (Proc.devRef .tc main_v3) = dstRowK (m ((c : Thread nD τ).loc main_arg1)) :=
    (W7_of_ne m ρ c main_v3 (by decide)).trans (W6_dst m ρ c)
  have e29 : W8 (F := Ideal) m ρ c (Proc.devRef .tc main_v29)
      = takeRows₂ (W7 (F := Ideal) m ρ c (Proc.devRef .tc main_v28_1)) (srcRowK (m ((c : Thread nD τ).loc main_arg1))) := by
    refine (s2a_v29 (W7 (F := Ideal) m ρ c)).trans ?_
    rw [e1]
  have e3' : W8 (F := Ideal) m ρ c (Proc.devRef .tc main_v3) = dstRowK (m ((c : Thread nD τ).loc main_arg1)) := by
    refine (?_ : StableHlo.after hostOps2 (W7 (F := Ideal) m ρ c) (Proc.devRef .tc main_v3)
      = W7 (F := Ideal) m ρ c (Proc.devRef .tc main_v3)).trans e3
    carry_stretch₂ hostOps2
  -- every source is a node
  have hs : ∀ j : S1600000.Idx, 0 ≤ (srcRowK (m ((c : Thread nD τ).loc main_arg1)) j).toInt
      ∧ (srcRowK (m ((c : Thread nD τ).loc main_arg1)) j).toInt < 100000 := fun j => by
    have key : ∀ a : Fin 1600000, 0 ≤ (srcRowK (m ((c : Thread nD τ).loc main_arg1)) (ix1 a)).toInt
        ∧ (srcRowK (m ((c : Thread nD τ).loc main_arg1)) (ix1 a)).toInt < 100000 := fun a => by
      rw [srcRowK_apply]
      have := hsrc a
      omega
    rw [eq_ix1 j]
    exact key (j 0)
  show StableHlo.after hostOps2_1 (W8 (F := Ideal) m ρ c) (Proc.devRef .tc main_v34) = _
  rw [s2b_v34, e29, e3', takeRows₂_eq _ _ hs]
  refine Cert.Sage.scatter_gather_eq_agg Cert.Sage.nodes_pos _ ⟨rfl, rfl, rfl, rfl⟩ _ ⟨rfl, rfl, rfl, rfl, rfl, rfl, rfl⟩
    _ (fun i => bcast_const₂ _ bcast_S_S100000x64 (constant (F := Ideal) S_ .f32 0x00000000#32) 0 (fun _ => Ideal.ofBits_zero_f32) i)
    _ _ _ _ (fun j => ?_) (fun j => ?_)
  · rw [col_apply₂]; exact srcRowK_apply _ j
  · rw [col_apply₂]; exact dstRowK_apply _ j

theorem V9_ic (c : Dev nD) : V9 (F := Ideal) m ρ c main_v12 = Cert.Sage.icOf (cntK (m ((c : Thread nD τ).loc main_arg1))) := by
  have h9 : StableHlo.after hostOps2_1 (W8 (F := Ideal) m ρ c) (Proc.devRef .tc main_v12)
      = W8 (F := Ideal) m ρ c (Proc.devRef .tc main_v12) := by carry_stretch₂ hostOps2_1
  have h8 : StableHlo.after hostOps2 (W7 (F := Ideal) m ρ c) (Proc.devRef .tc main_v12)
      = W7 (F := Ideal) m ρ c (Proc.devRef .tc main_v12) := by carry_stretch₂ hostOps2
  -- the second call reads this array and writes it back as it found it
  have h7 : W7 (F := Ideal) m ρ c (Proc.devRef .tc main_v12) = W6 (F := Ideal) m ρ c (Proc.devRef .tc main_v12) :=
    (W7_arr m ρ c 1).trans (((dat1 (V6 m ρ) c).arrAt_in 1 rfl _).trans (A_eq1 (V6 m ρ) c 1))
  exact (h9.trans (h8.trans h7)).trans (V6_ic m ρ c)

theorem V9_h (c : Dev nD) : V9 (F := Ideal) m ρ c main_v28_0 = W7 (F := Ideal) m ρ c (Proc.devRef .tc main_v28_0) := by
  have h9 : StableHlo.after hostOps2_1 (W8 (F := Ideal) m ρ c) (Proc.devRef .tc main_v28_0)
      = W8 (F := Ideal) m ρ c (Proc.devRef .tc main_v28_0) := by carry_stretch₂ hostOps2_1
  have h8 : StableHlo.after hostOps2 (W7 (F := Ideal) m ρ c) (Proc.devRef .tc main_v28_0)
      = W7 (F := Ideal) m ρ c (Proc.devRef .tc main_v28_0) := by carry_stretch₂ hostOps2
  exact h9.trans h8

theorem V9_b3 (c : Dev nD) : V9 (F := Ideal) m ρ c main_v35 = Cert.Sage.asRow (m ((c : Thread nD τ).loc main_arg9)) := by
  -- the argument is written nowhere: at the last call's exit, and so before the last stretch, it is as launched
  have h9 : StableHlo.after hostOps2_1 (W8 (F := Ideal) m ρ c) (Proc.devRef .tc main_arg9)
      = W8 (F := Ideal) m ρ c (Proc.devRef .tc main_arg9) := by carry_stretch₂ hostOps2_1
  have harg : W8 (F := Ideal) m ρ c (Proc.devRef .tc main_arg9) = m ((c : Thread nD τ).loc main_arg9) :=
    h9.symm.trans ((W10_of_ne m ρ c main_arg9 (by decide)).symm.trans (W10_main_arg9 m ρ c))
  show StableHlo.after hostOps2_1 (W8 (F := Ideal) m ρ c) (Proc.devRef .tc main_v35) = _
  rw [s2b_v35, harg]
  exact shapeCast_row shapeCasts_S64_S1x64 _

theorem V9_b4 (c : Dev nD) : V9 (F := Ideal) m ρ c main_v36 = Cert.Sage.asRow (m ((c : Thread nD τ).loc main_arg12)) := by
  have h9 : StableHlo.after hostOps2_1 (W8 (F := Ideal) m ρ c) (Proc.devRef .tc main_arg12)
      = W8 (F := Ideal) m ρ c (Proc.devRef .tc main_arg12) := by carry_stretch₂ hostOps2_1
  have harg : W8 (F := Ideal) m ρ c (Proc.devRef .tc main_arg12) = m ((c : Thread nD τ).loc main_arg12) :=
    h9.symm.trans ((W10_of_ne m ρ c main_arg12 (by decide)).symm.trans (W10_main_arg12 m ρ c))
  show StableHlo.after hostOps2_1 (W8 (F := Ideal) m ρ c) (Proc.devRef .tc main_v36) = _
  rw [s2b_v36, harg]
  exact shapeCast_row shapeCasts_S3_S1x3 _

theorem V9_arg10 (c : Dev nD) : V9 (F := Ideal) m ρ c main_arg10 = m ((c : Thread nD τ).loc main_arg10) := by
  -- the last call reads this array and writes it back as it found it, and at that call's exit it is as launched
  have h10 : W10 (F := Ideal) m ρ c (Proc.devRef .tc main_arg10) = W9 (F := Ideal) m ρ c (Proc.devRef .tc main_arg10) :=
    (W10_arr m ρ c 3).trans (((dat2 (V9 m ρ) c).arrAt_in 3 rfl _).trans (A_eq2 (V9 m ρ) c 3))
  exact h10.symm.trans (W10_main_arg10 m ρ c)

theorem V9_arg11 (c : Dev nD) : V9 (F := Ideal) m ρ c main_arg11 = m ((c : Thread nD τ).loc main_arg11) := by
  have h10 : W10 (F := Ideal) m ρ c (Proc.devRef .tc main_arg11) = W9 (F := Ideal) m ρ c (Proc.devRef .tc main_arg11) :=
    (W10_arr m ρ c 5).trans (((dat2 (V9 m ρ) c).arrAt_in 5 rfl _).trans (A_eq2 (V9 m ρ) c 5))
  exact h10.symm.trans (W10_main_arg11 m ρ c)

end Cert.KernelIdeal.HostValue

end
-- ==== Proof.KernelValue.lean ====
/-
  The kernel program's result buffer after its run, as the network of its argument arrays: the three pallas_calls'
  output arrays composed through the host operations between them.
-/
import proofs.«412509_j41248865911345_3_alg».proof.Proof.Region0
import proofs.«412509_j41248865911345_3_alg».proof.Proof.Region1
import proofs.«412509_j41248865911345_3_alg».proof.Proof.Region2
import proofs.«412509_j41248865911345_3_alg».proof.Proof.Stretch2

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.KernelIdeal.RegionValue

variable (m : (ℓ : Loc nD τ sig) → Buf (Elt Ideal) ℓ) (ρ : Dev nD → PrngReg)

/-- The first call's output array is the first hidden layer of the arguments. -/
theorem h1_eq (c : Dev nD) (hsrc : Cert.Sage.SrcOK 100000 (m ((c : Thread nD τ).loc main_arg1))) :
    W4 (F := Ideal) m ρ c (Proc.devRef .tc main_v20)
      = Cert.Sage.hid1 (cntK (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) := by
  have e06 : W4 (F := Ideal) m ρ c (Proc.devRef .tc main_v20) = (dat0 (V3 m ρ) c).arrAt 6 cfg0.N := W4_arr m ρ c 6
  rw [e06, arr0_6]
  unfold Cert.Sage.hid1
  rw [V3_agg m ρ c hsrc, V3_ic, V3_arg0, V3_arg2, V3_b, V3_arg4]

/-- The second call's first output array is the second hidden layer over the first call's output array. -/
theorem h2_eq (c : Dev nD) (hsrc : Cert.Sage.SrcOK 100000 (m ((c : Thread nD τ).loc main_arg1))) :
    W7 (F := Ideal) m ρ c (Proc.devRef .tc main_v28_0)
      = Cert.Sage.hid2 (cntK (m ((c : Thread nD τ).loc main_arg1))) (W4 (F := Ideal) m ρ c (Proc.devRef .tc main_v20)) (m ((c : Thread nD τ).loc main_arg1)) (m ((c : Thread nD τ).loc main_arg5)) (m ((c : Thread nD τ).loc main_arg6)) (m ((c : Thread nD τ).loc main_arg7)) := by
  have e17 : W7 (F := Ideal) m ρ c (Proc.devRef .tc main_v28_0) = (dat1 (V6 m ρ) c).arrAt 7 cfg1.N := W7_arr m ρ c 7
  rw [e17, arr1_7]
  unfold Cert.Sage.hid2
  rw [V6_agg m ρ c hsrc, V6_ic, V6_h, V6_arg5, V6_b, V6_arg7]

/-- Its second output array is that layer times the third layer's left weight matrix. -/
theorem p_eq (c : Dev nD) (hsrc : Cert.Sage.SrcOK 100000 (m ((c : Thread nD τ).loc main_arg1))) :
    W7 (F := Ideal) m ρ c (Proc.devRef .tc main_v28_1)
      = Cert.Sage.mm (Cert.Sage.hid2 (cntK (m ((c : Thread nD τ).loc main_arg1))) (W4 (F := Ideal) m ρ c (Proc.devRef .tc main_v20)) (m ((c : Thread nD τ).loc main_arg1)) (m ((c : Thread nD τ).loc main_arg5)) (m ((c : Thread nD τ).loc main_arg6)) (m ((c : Thread nD τ).loc main_arg7))) (m ((c : Thread nD τ).loc main_arg8)) := by
  have e18 : W7 (F := Ideal) m ρ c (Proc.devRef .tc main_v28_1) = (dat1 (V6 m ρ) c).arrAt 8 cfg1.N := W7_arr m ρ c 8
  rw [e18, arr1_8]
  unfold Cert.Sage.hid2
  rw [V6_agg m ρ c hsrc, V6_ic, V6_h, V6_arg5, V6_b, V6_arg7, V6_arg8]

/-- The third call's output array over the second call's two. -/
theorem out_eq (c : Dev nD) (hsrc : Cert.Sage.SrcOK 100000 (m ((c : Thread nD τ).loc main_arg1))) :
    W10 (F := Ideal) m ρ c (Proc.devRef .tc main_v37)
      = Cert.Sage.lastLayer (Cert.Sage.agg Cert.Sage.nodes_pos (W7 (F := Ideal) m ρ c (Proc.devRef .tc main_v28_1)) (m ((c : Thread nD τ).loc main_arg1)))
          (Cert.Sage.icOf (cntK (m ((c : Thread nD τ).loc main_arg1)))) (W7 (F := Ideal) m ρ c (Proc.devRef .tc main_v28_0)) (m ((c : Thread nD τ).loc main_arg10))
          (Cert.Sage.asRow (m ((c : Thread nD τ).loc main_arg9))) (m ((c : Thread nD τ).loc main_arg11)) (Cert.Sage.asRow (m ((c : Thread nD τ).loc main_arg12))) := by
  have e27 : W10 (F := Ideal) m ρ c (Proc.devRef .tc main_v37) = (dat2 (V9 m ρ) c).arrAt 7 cfg2.N := W10_arr m ρ c 7
  rw [e27, arr2_7]
  rw [V9_agg m ρ c hsrc, V9_ic, V9_h, V9_arg10, V9_b3, V9_arg11, V9_b4]

/-- When every source is a node, the result buffer ends at the network of the arguments, over the counts the program
    itself computes. -/
theorem result_eq (c : Dev nD) (hsrc : Cert.Sage.SrcOK 100000 (m ((c : Thread nD τ).loc main_arg1))) :
    W10 (F := Ideal) m ρ c (Proc.devRef .tc main_v37)
      = Cert.Sage.net (cntK (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [out_eq m ρ c hsrc, p_eq m ρ c hsrc, h2_eq m ρ c hsrc, h1_eq m ρ c hsrc]
  rfl

end Cert.KernelIdeal.HostValue

end
-- ==== Proof.RefAgg.lean ====
/-
  The reference's three aggregates and its three count arrays, read as the network reads them: each aggregate is a
  gather of rows at the (wrapped) source column followed by an accumulating scatter at the destination column, which is
  the aggregate along the edges when every source is a node; each divisor array holds, along a row, the larger of the
  node's edge count and one.
-/
import proofs.«412509_j41248865911345_3_alg».proof.Proof.Gen.ReferenceIdeal.Read
import proofs.«412509_j41248865911345_3_alg».proof.Proof.KSpec
import proofs.«412509_j41248865911345_3_alg».proof.Proof.AggLib

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Sage

/-- A word that is not negative when read signed is not below zero, so the wrap of a negative index into the node range
    leaves it as it is. -/
private theorem wrap_of_nonneg (a : BitVec 32) (h : 0 ≤ a.toInt) :
    Scalar.select (IntOp.cmpi .slt a 0#32) (IntOp.addi a 100000#32) a = a := by
  have hc : IntOp.cmpi .slt a 0#32 = 0#1 := by
    have h0 : (0#32 : BitVec 32).toInt = 0 := by decide
    have hlt : a.slt 0#32 = false := by
      rw [BitVec.slt, h0]
      exact decide_eq_false (by omega)
    show BitVec.ofBool (a.slt 0#32) = 0#1
    rw [hlt]; rfl
  rw [hc, select_zero]

/-- The source row of the edge list, flattened: entry `j` is the source of edge `j`. -/
private theorem v1_at (x1 : IVec S2x1600000 32) (j : Fin 1600000) :
    val_main_v1 (F := Ideal) x1 (ix1 j) = x1 (ix2 0 j) := by
  rw [val_main_v1_apply, val_main_v0_apply]
  congr 1
  funext a
  match a with
  | ⟨0, _⟩ => rfl
  | ⟨1, _⟩ => exact Fin.ext (Nat.mod_eq_of_lt j.isLt)

/-- The destination row of the edge list, flattened: entry `j` is the destination of edge `j`. -/
private theorem v3_at (x1 : IVec S2x1600000 32) (j : Fin 1600000) :
    val_main_v3 (F := Ideal) x1 (ix1 j) = x1 (ix2 1 j) := by
  rw [val_main_v3_apply, val_main_v2_apply]
  congr 1
  funext a
  match a with
  | ⟨0, _⟩ => rfl
  | ⟨1, _⟩ => exact Fin.ext (Nat.mod_eq_of_lt j.isLt)

/-- The wrapped source column of the first aggregate: under the range hypothesis it is the source row. -/
private theorem v9_at (x1 : IVec S2x1600000 32) (hsrc : SrcOK 100000 x1) (j : Fin 1600000) :
    val_main_v9 (F := Ideal) x1 (ix2 j 0) = x1 (ix2 0 j) := by
  have ei : idx_main_v9 (ix2 j (0 : Fin 1)) = ix1 j := by
    funext a
    match a with
    | ⟨0, _⟩ => rfl
  rw [val_main_v9_apply, ei, val_main_v8_apply, val_main_v5_apply, val_main_v7_apply, val_main_v4_apply,
    val_main_c_apply, val_main_v6_apply, val_main_c_0_apply, v1_at]
  exact wrap_of_nonneg _ (hsrc j).1

private theorem v35_at (x1 : IVec S2x1600000 32) (hsrc : SrcOK 100000 x1) (j : Fin 1600000) :
    val_main_v35 (F := Ideal) x1 (ix2 j 0) = x1 (ix2 0 j) := by
  have ei : idx_main_v35 (ix2 j (0 : Fin 1)) = ix1 j := by
    funext a
    match a with
    | ⟨0, _⟩ => rfl
  rw [val_main_v35_apply, ei, val_main_v34_apply, val_main_v31_apply, val_main_v33_apply, val_main_v30_apply,
    val_main_c_4_apply, val_main_v32_apply, val_main_c_5_apply, v1_at]
  exact wrap_of_nonneg _ (hsrc j).1

private theorem v61_at (x1 : IVec S2x1600000 32) (hsrc : SrcOK 100000 x1) (j : Fin 1600000) :
    val_main_v61 (F := Ideal) x1 (ix2 j 0) = x1 (ix2 0 j) := by
  have ei : idx_main_v61 (ix2 j (0 : Fin 1)) = ix1 j := by
    funext a
    match a with
    | ⟨0, _⟩ => rfl
  rw [val_main_v61_apply, ei, val_main_v60_apply, val_main_v57_apply, val_main_v59_apply, val_main_v56_apply,
    val_main_c_10_apply, val_main_v58_apply, val_main_c_11_apply, v1_at]
  exact wrap_of_nonneg _ (hsrc j).1

/-- The destination columns: entry `(j, 0)` is the destination of edge `j`. -/
private theorem v12_at (x1 : IVec S2x1600000 32) (j : Fin 1600000) :
    val_main_v12 (F := Ideal) x1 (ix2 j 0) = x1 (ix2 1 j) := by
  have ei : idx_main_v12 (ix2 j (0 : Fin 1)) = ix1 j := by
    funext a
    match a with
    | ⟨0, _⟩ => rfl
  rw [val_main_v12_apply, ei, v3_at]

private theorem v38_at (x1 : IVec S2x1600000 32) (j : Fin 1600000) :
    val_main_v38 (F := Ideal) x1 (ix2 j 0) = x1 (ix2 1 j) := by
  have ei : idx_main_v38 (ix2 j (0 : Fin 1)) = ix1 j := by
    funext a
    match a with
    | ⟨0, _⟩ => rfl
  rw [val_main_v38_apply, ei, v3_at]

private theorem v64_at (x1 : IVec S2x1600000 32) (j : Fin 1600000) :
    val_main_v64 (F := Ideal) x1 (ix2 j 0) = x1 (ix2 1 j) := by
  have ei : idx_main_v64 (ix2 j (0 : Fin 1)) = ix1 j := by
    funext a
    match a with
    | ⟨0, _⟩ => rfl
  rw [val_main_v64_apply, ei, v3_at]

theorem ref_agg1 (x0 : FVec Ideal S100000x40 .f32) (x1 : IVec S2x1600000 32) (hsrc : SrcOK 100000 x1) :
    val_main_v13 (F := Ideal) x0 x1 = agg nodes_pos x0 x1 := by
  unfold val_main_v13 val_main_v10
  have hz : ∀ i, val_main_v11 (F := Ideal) i = 0 := fun i => by
    rw [val_main_v11_apply, val_main_cst_apply, Ideal.ofBits_def, Ideal.ofBits_zero_f32]
  exact Cert.Sage.scatter_gather_eq_agg nodes_pos _ ⟨rfl, rfl, rfl, rfl⟩ _ ⟨rfl, rfl, rfl, rfl, rfl, rfl, rfl⟩ _ hz x0 x1 _ _
    (v9_at x1 hsrc) (v12_at x1)

theorem ref_agg2 (x0 : FVec Ideal S100000x40 .f32) (x1 : IVec S2x1600000 32) (x2 : FVec Ideal S40x64 .f32)
    (x3 : FVec Ideal S64 .f32) (x4 : FVec Ideal S40x64 .f32)
    (hsrc : SrcOK 100000 x1) :
    val_main_v39 (F := Ideal) x0 x1 x2 x3 x4 = agg nodes_pos (val_main_v29 (F := Ideal) x0 x1 x2 x3 x4) x1 := by
  unfold val_main_v39 val_main_v36
  generalize val_main_v29 (F := Ideal) x0 x1 x2 x3 x4 = h
  have hz : ∀ i, val_main_v37 (F := Ideal) i = 0 := fun i => by
    rw [val_main_v37_apply, val_main_cst_6_apply, Ideal.ofBits_def, Ideal.ofBits_zero_f32]
  exact Cert.Sage.scatter_gather_eq_agg nodes_pos _ ⟨rfl, rfl, rfl, rfl⟩ _ ⟨rfl, rfl, rfl, rfl, rfl, rfl, rfl⟩ _ hz h x1 _ _
    (v35_at x1 hsrc) (v38_at x1)

theorem ref_agg3 (x0 : FVec Ideal S100000x40 .f32) (x1 : IVec S2x1600000 32) (x2 : FVec Ideal S40x64 .f32)
    (x3 : FVec Ideal S64 .f32) (x4 : FVec Ideal S40x64 .f32) (x5 : FVec Ideal S64x128 .f32) (x6 : FVec Ideal S128 .f32)
    (x7 : FVec Ideal S64x128 .f32)
    (hsrc : SrcOK 100000 x1) :
    val_main_v65 (F := Ideal) x0 x1 x2 x3 x4 x5 x6 x7
      = agg nodes_pos (val_main_v55 (F := Ideal) x0 x1 x2 x3 x4 x5 x6 x7) x1 := by
  unfold val_main_v65 val_main_v62
  generalize val_main_v55 (F := Ideal) x0 x1 x2 x3 x4 x5 x6 x7 = h
  have hz : ∀ i, val_main_v63 (F := Ideal) i = 0 := fun i => by
    rw [val_main_v63_apply, val_main_cst_12_apply, Ideal.ofBits_def, Ideal.ofBits_zero_f32]
  exact Cert.Sage.scatter_gather_eq_agg nodes_pos _ ⟨rfl, rfl, rfl, rfl⟩ _ ⟨rfl, rfl, rfl, rfl, rfl, rfl, rfl⟩ _ hz h x1 _ _
    (v61_at x1 hsrc) (v64_at x1)

theorem ref_c1 (x1 : IVec S2x1600000 32) (p : Fin 100000) (q : Fin 40) :
    val_main_v21 (F := Ideal) x1 (ix2 p q) = max (val_main_v17 (F := Ideal) x1 (ix1 p)) 1 := by
  rw [val_main_v21_apply, val_main_v20_apply, val_main_v19_apply, val_main_v18_apply, val_main_cst_3_apply,
    Ideal.maximumf_def, Ideal.ofBits_def, Cert.Sage.ofBits_one]
  congr 2
  funext a
  match a with
  | ⟨0, _⟩ => rfl

theorem ref_c2 (x1 : IVec S2x1600000 32) (p : Fin 100000) (q : Fin 64) :
    val_main_v47 (F := Ideal) x1 (ix2 p q) = max (val_main_v17 (F := Ideal) x1 (ix1 p)) 1 := by
  have e : val_main_v43 (F := Ideal) x1 = val_main_v17 (F := Ideal) x1 := rfl
  rw [val_main_v47_apply, val_main_v46_apply, val_main_v45_apply, val_main_v44_apply, val_main_cst_9_apply,
    Ideal.maximumf_def, Ideal.ofBits_def, Cert.Sage.ofBits_one, e]
  congr 2
  funext a
  match a with
  | ⟨0, _⟩ => rfl

theorem ref_c3 (x1 : IVec S2x1600000 32) (p : Fin 100000) (q : Fin 128) :
    val_main_v73 (F := Ideal) x1 (ix2 p q) = max (val_main_v17 (F := Ideal) x1 (ix1 p)) 1 := by
  have e : val_main_v69 (F := Ideal) x1 = val_main_v17 (F := Ideal) x1 := rfl
  rw [val_main_v73_apply, val_main_v72_apply, val_main_v71_apply, val_main_v70_apply, val_main_cst_15_apply,
    Ideal.maximumf_def, Ideal.ofBits_def, Cert.Sage.ofBits_one, e]
  congr 2
  funext a
  match a with
  | ⟨0, _⟩ => rfl

end Cert.ReferenceIdeal.RefValue

end
-- ==== Proof.RefLayers.lean ====
/-
  The reference's first two hidden layers are the network's: dividing the aggregate by the count is multiplying it by the count's reciprocal (the count is at least one), and the order in which the bias and the two products are added does not matter.
-/
import proofs.«412509_j41248865911345_3_alg».proof.Proof.Gen.ReferenceIdeal.Read
import proofs.«412509_j41248865911345_3_alg».proof.Proof.KSpec
import proofs.«412509_j41248865911345_3_alg».proof.Proof.AggLib
import proofs.«412509_j41248865911345_3_alg».proof.Proof.RefAgg

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Sage

/-- The reference's first hidden layer, when every source is a node. -/
theorem ref_hid1 (x0 : FVec Ideal S100000x40 .f32) (x1 : IVec S2x1600000 32) (x2 : FVec Ideal S40x64 .f32)
    (x3 : FVec Ideal S64 .f32) (x4 : FVec Ideal S40x64 .f32)
    (hsrc : SrcOK 100000 x1) :
    val_main_v29 (F := Ideal) x0 x1 x2 x3 x4 = hid1 (val_main_v17 (F := Ideal) x1) x0 x1 x2 x3 x4 := by
  funext i
  obtain ⟨p, r, rfl⟩ : ∃ p r, i = ix2 p r := ⟨i 0, i 1, eq_ix2 i⟩
  unfold hid1 layer
  rw [ofCoords_ix2]
  -- the entry, operation by operation: the cut at zero, the two sums, the two products as sums over the inner axis
  rw [val_main_v29_apply, val_main_call0_v0_apply, val_main_call0_cst_apply, Ideal.ofBits_def, Ideal.ofBits_zero_f32,
    Ideal.maximumf_def, val_main_v28_apply, Ideal.addf_def, val_main_v26_apply, Ideal.addf_def, val_main_v23_apply,
    val_main_v27_apply, val_main_v25_apply, val_main_v24_apply]
  -- the indices the products and the bias broadcast read at
  have e1 : ∀ k : Fin 40, lidx_main_v23 (ix2 p r) k = ix2 p k := fun k =>
    funext fun a => Fin.ext (by match a with | ⟨0, _⟩ => rfl | ⟨1, _⟩ => rfl)
  have e2 : ∀ k : Fin 40, ridx_main_v23 (ix2 p r) k = ix2 k r := fun k =>
    funext fun a => Fin.ext (by match a with | ⟨0, _⟩ => rfl | ⟨1, _⟩ => rfl)
  have e3 : ∀ k : Fin 40, lidx_main_v27 (ix2 p r) k = ix2 p k := fun k =>
    funext fun a => Fin.ext (by match a with | ⟨0, _⟩ => rfl | ⟨1, _⟩ => rfl)
  have e4 : ∀ k : Fin 40, ridx_main_v27 (ix2 p r) k = ix2 k r := fun k =>
    funext fun a => Fin.ext (by match a with | ⟨0, _⟩ => rfl | ⟨1, _⟩ => rfl)
  have e5 : idx_main_v24 (idx_main_v25 (ix2 p r)) = ix1 r :=
    funext fun a => Fin.ext (by match a with | ⟨0, _⟩ => rfl)
  -- a term of the left product: the aggregate over the count is the aggregate times the reciprocal count
  have hA : ∀ k : Fin 40, val_main_v22 (F := Ideal) x0 x1 (lidx_main_v23 (ix2 p r) k) * x2 (ridx_main_v23 (ix2 p r) k)
      = agg nodes_pos x0 x1 (ix2 p k) * icOf (val_main_v17 (F := Ideal) x1) (ix2 p 0) * x2 (ix2 k r) := by
    intro k
    rw [e1, e2, val_main_v22_apply, Ideal.hostDivf_def, ref_agg1 x0 x1 hsrc, ref_c1, div_max_one]
    rfl
  have hB : ∀ k : Fin 40, x0 (lidx_main_v27 (ix2 p r) k) * x4 (ridx_main_v27 (ix2 p r) k)
      = x0 (ix2 p k) * x4 (ix2 k r) := by
    intro k
    rw [e3, e4]
  -- what is left: (A + b) + X = (A + X) + b
  rw [Finset.sum_congr rfl (fun k _ => hA k), Finset.sum_congr rfl (fun k _ => hB k), e5, add_right_comm]
  rfl

/-- The reference's second hidden layer over its first, when every source is a node. -/
theorem ref_hid2 (x0 : FVec Ideal S100000x40 .f32) (x1 : IVec S2x1600000 32) (x2 : FVec Ideal S40x64 .f32)
    (x3 : FVec Ideal S64 .f32) (x4 : FVec Ideal S40x64 .f32) (x5 : FVec Ideal S64x128 .f32) (x6 : FVec Ideal S128 .f32)
    (x7 : FVec Ideal S64x128 .f32)
    (hsrc : SrcOK 100000 x1) :
    val_main_v55 (F := Ideal) x0 x1 x2 x3 x4 x5 x6 x7
      = hid2 (val_main_v17 (F := Ideal) x1) (val_main_v29 (F := Ideal) x0 x1 x2 x3 x4) x1 x5 x6 x7 := by
  funext i
  obtain ⟨p, r, rfl⟩ : ∃ p r, i = ix2 p r := ⟨i 0, i 1, eq_ix2 i⟩
  unfold hid2 layer
  rw [ofCoords_ix2]
  -- the entry, operation by operation; the first hidden layer stays a single array throughout
  rw [val_main_v55_apply, val_main_call1_v0_apply, val_main_call1_cst_apply, Ideal.ofBits_def, Ideal.ofBits_zero_f32,
    Ideal.maximumf_def, val_main_v54_apply, Ideal.addf_def, val_main_v52_apply, Ideal.addf_def, val_main_v49_apply,
    val_main_v53_apply, val_main_v51_apply, val_main_v50_apply]
  have e1 : ∀ k : Fin 64, lidx_main_v49 (ix2 p r) k = ix2 p k := fun k =>
    funext fun a => Fin.ext (by match a with | ⟨0, _⟩ => rfl | ⟨1, _⟩ => rfl)
  have e2 : ∀ k : Fin 64, ridx_main_v49 (ix2 p r) k = ix2 k r := fun k =>
    funext fun a => Fin.ext (by match a with | ⟨0, _⟩ => rfl | ⟨1, _⟩ => rfl)
  have e3 : ∀ k : Fin 64, lidx_main_v53 (ix2 p r) k = ix2 p k := fun k =>
    funext fun a => Fin.ext (by match a with | ⟨0, _⟩ => rfl | ⟨1, _⟩ => rfl)
  have e4 : ∀ k : Fin 64, ridx_main_v53 (ix2 p r) k = ix2 k r := fun k =>
    funext fun a => Fin.ext (by match a with | ⟨0, _⟩ => rfl | ⟨1, _⟩ => rfl)
  have e5 : idx_main_v50 (idx_main_v51 (ix2 p r)) = ix1 r :=
    funext fun a => Fin.ext (by match a with | ⟨0, _⟩ => rfl)
  have hA : ∀ k : Fin 64,
      val_main_v48 (F := Ideal) x0 x1 x2 x3 x4 (lidx_main_v49 (ix2 p r) k) * x5 (ridx_main_v49 (ix2 p r) k)
      = agg nodes_pos (val_main_v29 (F := Ideal) x0 x1 x2 x3 x4) x1 (ix2 p k)
          * icOf (val_main_v17 (F := Ideal) x1) (ix2 p 0) * x5 (ix2 k r) := by
    intro k
    rw [e1, e2, val_main_v48_apply, Ideal.hostDivf_def, ref_agg2 x0 x1 x2 x3 x4 hsrc, ref_c2, div_max_one]
    rfl
  have hB : ∀ k : Fin 64,
      val_main_v29 (F := Ideal) x0 x1 x2 x3 x4 (lidx_main_v53 (ix2 p r) k) * x7 (ridx_main_v53 (ix2 p r) k)
      = val_main_v29 (F := Ideal) x0 x1 x2 x3 x4 (ix2 p k) * x7 (ix2 k r) := by
    intro k
    rw [e3, e4]
  rw [Finset.sum_congr rfl (fun k _ => hA k), Finset.sum_congr rfl (fun k _ => hB k), e5, add_right_comm]
  rfl

end Cert.ReferenceIdeal.RefValue

end
-- ==== Proof.RefOut.lean ====
/-
  The reference's result over its second hidden layer is the network's last stage: the left weight matrix of the third layer moves inside the aggregation, which is linear over real entries.
-/
import proofs.«412509_j41248865911345_3_alg».proof.Proof.Gen.ReferenceIdeal.Read
import proofs.«412509_j41248865911345_3_alg».proof.Proof.KSpec
import proofs.«412509_j41248865911345_3_alg».proof.Proof.AggLib
import proofs.«412509_j41248865911345_3_alg».proof.Proof.RefAgg

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Sage

/-- A finite sum of real numbers, read in the extended reals, is the sum of the summands read there. -/
private theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over real entries a sum of products scaled by a real factor is the sum of the products with the factor moved onto
    the left entries. -/
private theorem sum_mul_scale {ι : Type*} [Fintype ι] (a w : ι → EReal) (c : EReal)
    (ha : ∀ t, ∃ r : ℝ, a t = (r : EReal)) (hw : ∀ t, ∃ r : ℝ, w t = (r : EReal)) (hc : ∃ r : ℝ, c = (r : EReal)) :
    (∑ t, a t * w t) * c = ∑ t, (a t * c) * w t := by
  choose ra hra using ha
  choose rb hrb using hw
  obtain ⟨rc, rfl⟩ := hc
  have e1 : (∑ t, a t * w t) = ((∑ t, ra t * rb t : ℝ) : EReal) := by
    rw [coe_sum_real]
    exact Finset.sum_congr rfl fun t _ => by rw [hra, hrb, EReal.coe_mul]
  have e2 : (∑ t, (a t * (rc : EReal)) * w t) = ((∑ t, (ra t * rc) * rb t : ℝ) : EReal) := by
    rw [coe_sum_real]
    exact Finset.sum_congr rfl fun t _ => by rw [hra, hrb, EReal.coe_mul, EReal.coe_mul]
  rw [e1, e2, ← EReal.coe_mul, Finset.sum_mul]
  exact congrArg _ (Finset.sum_congr rfl fun t _ => by ring)

/-- The algebraic core, over any real second hidden layer `H2`: the reference's arrangement (the aggregate divided by
    the count, then multiplied by the left weight matrix; the bias added before the right product) is the network's last
    stage (the rows multiplied by the left weight matrix first, then aggregated and scaled by the reciprocal count). -/
private theorem out_core (cnt : FVec Ideal ⟨1, ![100000]⟩ .f32) (H2 : FVec Ideal ⟨2, ![100000, 128]⟩ .f32)
    (x1 : IVec ⟨2, ![2, 1600000]⟩ 32) (x8 : FVec Ideal ⟨2, ![128, 64]⟩ .f32) (x9 : FVec Ideal ⟨1, ![64]⟩ .f32)
    (x10 : FVec Ideal ⟨2, ![128, 64]⟩ .f32) (x11 : FVec Ideal ⟨2, ![64, 3]⟩ .f32) (x12 : FVec Ideal ⟨1, ![3]⟩ .f32)
    (hH : IsReal H2) (r8 : IsReal x8) (p : Fin 100000) (r : Fin 3) :
    (∑ q : Fin 64,
        max (((∑ t : Fin 128, Ideal.div (agg nodes_pos H2 x1 (ix2 p t)) (max (cnt (ix1 p)) 1) * x8 (ix2 t q))
          + x9 (ix1 q)) + ∑ t : Fin 128, H2 (ix2 p t) * x10 (ix2 t q)) 0 * x11 (ix2 q r)) + x12 (ix1 r)
      = outOf cnt H2 x1 x8 x9 x10 x11 x12 (ix2 p r) := by
  have key : ∀ q : Fin 64, agg nodes_pos (mm H2 x8) x1 (ix2 p q) * icOf cnt (ix2 p 0)
      = ∑ t : Fin 128, Ideal.div (agg nodes_pos H2 x1 (ix2 p t)) (max (cnt (ix1 p)) 1) * x8 (ix2 t q) := by
    intro q
    rw [agg_mm nodes_pos H2 x8 x1 hH r8]
    show (∑ t : Fin 128, agg nodes_pos H2 x1 (ix2 p t) * x8 (ix2 t q)) * icOf cnt (ix2 p 0) = _
    rw [sum_mul_scale _ _ _ (fun t => isReal_agg nodes_pos H2 x1 hH _) (fun t => r8 _) (isReal_icOf cnt _)]
    refine Finset.sum_congr rfl fun t _ => ?_
    rw [div_max_one]
    rfl
  show _ = (∑ q : Fin 64,
      max (((∑ t : Fin 128, H2 (ix2 p t) * x10 (ix2 t q)) + agg nodes_pos (mm H2 x8) x1 (ix2 p q) * icOf cnt (ix2 p 0))
        + x9 (ix1 q)) 0 * x11 (ix2 q r)) + x12 (ix1 r)
  congr 1
  refine Finset.sum_congr rfl fun q _ => ?_
  rw [key q]
  congr 2
  rw [add_right_comm, add_comm (∑ t : Fin 128, H2 (ix2 p t) * x10 (ix2 t q))]

/-- One entry of the reference's last hidden row: the aggregate of the second hidden layer divided by the count and
    multiplied by the left weight matrix, plus the bias, plus the layer's rows times the right weight matrix, cut at zero. -/
private theorem hid_entry (x0 : FVec Ideal S100000x40 .f32) (x1 : IVec S2x1600000 32) (x2 : FVec Ideal S40x64 .f32)
    (x3 : FVec Ideal S64 .f32) (x4 : FVec Ideal S40x64 .f32) (x5 : FVec Ideal S64x128 .f32) (x6 : FVec Ideal S128 .f32)
    (x7 : FVec Ideal S64x128 .f32) (x8 : FVec Ideal S128x64 .f32) (x9 : FVec Ideal S64 .f32) (x10 : FVec Ideal S128x64 .f32)
    (hsrc : SrcOK 100000 x1) (p : Fin 100000) (q : Fin 64) :
    val_main_v81 (F := Ideal) x0 x1 x2 x3 x4 x5 x6 x7 x8 x9 x10 (ix2 p q)
      = max (((∑ t : Fin 128, Ideal.div (agg nodes_pos (val_main_v55 (F := Ideal) x0 x1 x2 x3 x4 x5 x6 x7) x1 (ix2 p t))
            (max (val_main_v17 (F := Ideal) x1 (ix1 p)) 1) * x8 (ix2 t q)) + x9 (ix1 q))
          + ∑ t : Fin 128, val_main_v55 (F := Ideal) x0 x1 x2 x3 x4 x5 x6 x7 (ix2 p t) * x10 (ix2 t q)) 0 := by
  rw [val_main_v81_apply, val_main_call2_v0_apply, val_main_call2_cst_apply, val_main_v80_apply, val_main_v78_apply,
    val_main_v79_apply, val_main_v77_apply, val_main_v76_apply, val_main_v75_apply, Ideal.maximumf_def, Ideal.addf_def,
    Ideal.addf_def, Ideal.ofBits_def, Ideal.ofBits_zero_f32]
  refine congrArg (fun z : EReal => max z 0) (congrArg₂ (· + ·) (congrArg₂ (· + ·) ?_ ?_) ?_)
  · refine Finset.sum_congr rfl fun t _ => ?_
    rw [show lidx_main_v75 (ix2 p q) t = ix2 p t from
        funext fun a => Fin.ext (by match a with | ⟨0, _⟩ => rfl | ⟨1, _⟩ => rfl),
      show ridx_main_v75 (ix2 p q) t = ix2 t q from
        funext fun a => Fin.ext (by match a with | ⟨0, _⟩ => rfl | ⟨1, _⟩ => rfl),
      val_main_v74_apply, Ideal.hostDivf_def, ref_agg3 x0 x1 x2 x3 x4 x5 x6 x7 hsrc, ref_c3]
  · exact congrArg x9 (funext fun a => Fin.ext (by match a with | ⟨0, _⟩ => rfl))
  · refine Finset.sum_congr rfl fun t _ => ?_
    rw [show lidx_main_v79 (ix2 p q) t = ix2 p t from
        funext fun a => Fin.ext (by match a with | ⟨0, _⟩ => rfl | ⟨1, _⟩ => rfl),
      show ridx_main_v79 (ix2 p q) t = ix2 t q from
        funext fun a => Fin.ext (by match a with | ⟨0, _⟩ => rfl | ⟨1, _⟩ => rfl)]

/-- The reference's result over its second hidden layer, when every source is a node, that layer is real and so is
    the third layer's left weight matrix. -/
theorem ref_out (x0 : FVec Ideal S100000x40 .f32) (x1 : IVec S2x1600000 32) (x2 : FVec Ideal S40x64 .f32)
    (x3 : FVec Ideal S64 .f32) (x4 : FVec Ideal S40x64 .f32) (x5 : FVec Ideal S64x128 .f32) (x6 : FVec Ideal S128 .f32)
    (x7 : FVec Ideal S64x128 .f32) (x8 : FVec Ideal S128x64 .f32) (x9 : FVec Ideal S64 .f32) (x10 : FVec Ideal S128x64 .f32)
    (x11 : FVec Ideal S64x3 .f32) (x12 : FVec Ideal S3 .f32)
    (hsrc : SrcOK 100000 x1) (hH : IsReal (val_main_v55 (F := Ideal) x0 x1 x2 x3 x4 x5 x6 x7)) (r8 : IsReal x8) :
    val_main_v85 (F := Ideal) x0 x1 x2 x3 x4 x5 x6 x7 x8 x9 x10 x11 x12
      = outOf (val_main_v17 (F := Ideal) x1) (val_main_v55 (F := Ideal) x0 x1 x2 x3 x4 x5 x6 x7) x1 x8 x9 x10 x11 x12 := by
  funext i
  obtain ⟨p, r, rfl⟩ : ∃ (p : Fin 100000) (r : Fin 3), i = ix2 p r := ⟨i 0, i 1, eq_ix2 i⟩
  rw [← out_core (val_main_v17 (F := Ideal) x1) (val_main_v55 (F := Ideal) x0 x1 x2 x3 x4 x5 x6 x7) x1 x8 x9 x10 x11 x12
    hH r8 p r]
  rw [val_main_v85_apply, val_main_v84_apply, val_main_v83_apply, val_main_v82_apply, Ideal.addf_def]
  refine congrArg₂ (· + ·) ?_ ?_
  · refine Finset.sum_congr rfl fun q _ => ?_
    rw [show lidx_main_v82 (ix2 p r) q = ix2 p q from
        funext fun a => Fin.ext (by match a with | ⟨0, _⟩ => rfl | ⟨1, _⟩ => rfl),
      show ridx_main_v82 (ix2 p r) q = ix2 q r from
        funext fun a => Fin.ext (by match a with | ⟨0, _⟩ => rfl | ⟨1, _⟩ => rfl),
      hid_entry x0 x1 x2 x3 x4 x5 x6 x7 x8 x9 x10 hsrc p q]
  · exact congrArg x12 (funext fun a => Fin.ext (by match a with | ⟨0, _⟩ => rfl))

end Cert.ReferenceIdeal.RefValue

end
-- ==== Proof.Bridge.lean ====
/-
  The reference's result is the network: its three quotient-then-multiply layers are the kernel's
  scale-then-multiply layers, and in the third layer the left weight matrix moves inside the aggregation, which
  takes every entry to be a real number.
-/
import proofs.«412509_j41248865911345_3_alg».proof.Proof.Gen.ReferenceIdeal.Read
import proofs.«412509_j41248865911345_3_alg».proof.Proof.KSpec
import proofs.«412509_j41248865911345_3_alg».proof.Proof.AggLib
import proofs.«412509_j41248865911345_3_alg».proof.Proof.RefLayers
import proofs.«412509_j41248865911345_3_alg».proof.Proof.RefOut

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Sage

/-- With every source a node and every float input real, the network over the reference's own edge counts is the
    reference's result. -/
theorem net_eq_reference (x0 : FVec Ideal S100000x40 .f32) (x1 : IVec S2x1600000 32) (x2 : FVec Ideal S40x64 .f32)
    (x3 : FVec Ideal S64 .f32) (x4 : FVec Ideal S40x64 .f32) (x5 : FVec Ideal S64x128 .f32) (x6 : FVec Ideal S128 .f32)
    (x7 : FVec Ideal S64x128 .f32) (x8 : FVec Ideal S128x64 .f32) (x9 : FVec Ideal S64 .f32) (x10 : FVec Ideal S128x64 .f32)
    (x11 : FVec Ideal S64x3 .f32) (x12 : FVec Ideal S3 .f32)
    (hsrc : SrcOK 100000 x1) (r0 : IsReal x0) (r2 : IsReal x2) (r3 : IsReal x3) (r4 : IsReal x4) (r5 : IsReal x5)
    (r6 : IsReal x6) (r7 : IsReal x7) (r8 : IsReal x8) (r9 : IsReal x9) (r10 : IsReal x10) (r11 : IsReal x11)
    (r12 : IsReal x12) :
    net (val_main_v17 (F := Ideal) x1) x0 x1 x2 x3 x4 x5 x6 x7 x8 x9 x10 x11 x12
      = val_main_v85 (F := Ideal) x0 x1 x2 x3 x4 x5 x6 x7 x8 x9 x10 x11 x12 := by
  have e1 := ref_hid1 x0 x1 x2 x3 x4 hsrc
  have e2 := ref_hid2 x0 x1 x2 x3 x4 x5 x6 x7 hsrc
  have hic : IsReal (icOf (val_main_v17 (F := Ideal) x1)) := isReal_icOf _
  have h1 : IsReal (val_main_v29 (F := Ideal) x0 x1 x2 x3 x4) := by
    rw [e1]
    exact isReal_layer _ _ _ _ _ _ (isReal_agg _ _ _ r0) hic r0 r2 (isReal_asRow _ r3) r4
  have h2 : IsReal (val_main_v55 (F := Ideal) x0 x1 x2 x3 x4 x5 x6 x7) := by
    rw [e2]
    exact isReal_layer _ _ _ _ _ _ (isReal_agg _ _ _ h1) hic h1 r5 (isReal_asRow _ r6) r7
  rw [ref_out x0 x1 x2 x3 x4 x5 x6 x7 x8 x9 x10 x11 x12 hsrc h2 r8]
  unfold net
  rw [← e1, ← e2]

end Cert.ReferenceIdeal.RefValue

end
-- ==== Proof.PreDecode.lean ====
/-
  What the precondition says of the inputs: every float input holds real numbers only, and every source node of the
  edge list is a node.
-/
import proofs.«412509_j41248865911345_3_alg».proof.Pre_finite_inputs
import proofs.«412509_j41248865911345_3_alg».proof.Proof.Gen.Pre_finite_inputs
import proofs.«412509_j41248865911345_3_alg».proof.Proof.Spec
import Idealize.ShloMosaic.Lib.ReduceAll
import Idealize.ShloMosaic.Lib.Pipeline.Value
import Idealize.ShloMosaic.Lib.StableHlo.Predicate

noncomputable section

namespace Cert.Pre_finite_inputs.Decode

open Idealize.ShloMosaic Idealize.ShloMosaic.ValueIdx
open Cert.Pre_finite_inputs Cert.Sage

/-- The scalar shape has one index. -/
instance : Subsingleton S_.Idx := ⟨fun a b => funext fun d => d.elim0⟩

/-- The pattern the precondition compares against is +∞. -/
theorem inf_bits : Ideal.ofBits .f32 0x7F800000#32 = (⊤ : EReal) := by simp [Ideal.ofBits, Ideal.ieee]

/-- An extended real whose absolute value max a (-a) lies strictly below +∞ is a real number. -/
theorem real_of_abs_lt_top (a : EReal) (h : max a (-a) < ⊤) : ∃ r : ℝ, a = (r : EReal) := by
  rw [max_lt_iff] at h
  induction a using EReal.rec with
  | bot => exact absurd h.2 (by simp)
  | coe r => exact ⟨r, rfl⟩
  | top => exact absurd h.1 (by simp)

/-- One entry: the comparison |a| < +∞ came out true, so a is a real number. -/
theorem real_of_cmp (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max (a : EReal) (-(a : EReal))) (Ideal.ofBits .f32 0x7F800000#32) = 1#1 := h
  rw [inf_bits] at h'
  unfold Ideal.cmp at h'
  rw [StableHlo.Predicate.ofBool_eq_one_iff, decide_eq_true_eq] at h'
  exact real_of_abs_lt_top a h'

/-- One float input: the conjunction over all entries of |x| < +∞ came out true, so every entry of x is real. The shape
    and the reduction's axes stay variables; the twelve float inputs are instances. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) : IsReal x := by
  intro i
  exact real_of_cmp (x i) (Host.reduce_andi_all _ _ hr hu ix0 h i)

/-- A signed comparison of 32-bit words that came out true orders their integer values. -/
theorem sge_toInt (w c : BitVec 32) (h : IntOp.cmpi .sge w c = 1#1) : c.toInt ≤ w.toInt := by
  unfold IntOp.cmpi at h
  rw [StableHlo.Predicate.ofBool_eq_one_iff] at h
  exact BitVec.sle_iff_toInt_le.mp h

theorem slt_toInt (w c : BitVec 32) (h : IntOp.cmpi .slt w c = 1#1) : w.toInt < c.toInt := by
  unfold IntOp.cmpi at h
  rw [StableHlo.Predicate.ofBool_eq_one_iff] at h
  exact BitVec.slt_iff_toInt_lt.mp h

/-- The first row of the edge list, flattened, read at edge j, is the entry (0, j) of the edge list. -/
theorem row_apply (x1 : IVec S2x1600000 32) (hs : S2x1600000.Slices ![0, 0] S1x1600000)
    (hc : S1x1600000.ShapeCasts S1600000) (j : Fin 1600000) :
    shapeCast S1600000 (extractStridedSlice S1x1600000 ![0, 0] x1 hs) hc (ix1 j) = x1 (ix2 0 j) := by
  refine (shapeCast_apply _ hc (ix1 j) (ix2 0 j) ?_).trans ?_
  · rewrite [Shape.rowMajor_val_two, Shape.rowMajor_val_one]
    show 0 * 1600000 + j.val = j.val
    omega
  · exact extractStridedSlice_apply ![0, 0] x1 hs (ix2 0 j) (ix2 0 j) (fun a => match a with
      | ⟨0, _⟩ => by show 0 = 0 + 0; omega
      | ⟨1, _⟩ => by show j.val = 0 + j.val; omega)

/-- The index conjunct: over all edges, 0 ≤ source and source < 100000 came out true, so every source is a node. -/
theorem srcOK_of_all (x1 : IVec S2x1600000 32) (hs : S2x1600000.Slices ![0, 0] S1x1600000)
    (hc : S1x1600000.ShapeCasts S1600000) (hb : S_.BroadcastsInDim S1600000 (![] : Fin 0 → Fin S1600000.rank))
    (hr : S1600000.ReducesTo [0] S_) (hu : 0 < S_.numel)
    (h : Host.reduce IntOp.andi
      (andi (cmpi .sge (shapeCast S1600000 (extractStridedSlice S1x1600000 ![0, 0] x1 hs) hc)
          (broadcastInDim S1600000 ![] hb (constantI S_ 32 0#32)))
        (cmpi .slt (shapeCast S1600000 (extractStridedSlice S1x1600000 ![0, 0] x1 hs) hc)
          (broadcastInDim S1600000 ![] hb (constantI S_ 32 100000#32))))
      (constantI S_ 1 1#1) hr hu ix0 = 1#1) : SrcOK 100000 x1 := by
  intro j
  have e := Host.reduce_andi_all _ _ hr hu ix0 h (ix1 j)
  have e' : IntOp.andi
      (IntOp.cmpi .sge (shapeCast S1600000 (extractStridedSlice S1x1600000 ![0, 0] x1 hs) hc (ix1 j)) 0#32)
      (IntOp.cmpi .slt (shapeCast S1600000 (extractStridedSlice S1x1600000 ![0, 0] x1 hs) hc (ix1 j)) 100000#32) = 1#1 := e
  rw [row_apply, IntOp.andi_eq_one] at e'
  have h0 := sge_toInt _ _ e'.1
  have h1 := slt_toInt _ _ e'.2
  have z0 : (0#32 : BitVec 32).toInt = 0 := by decide
  have z1 : (100000#32 : BitVec 32).toInt = 100000 := by decide
  rw [z0] at h0
  rw [z1] at h1
  exact ⟨h0, by exact_mod_cast h1⟩

theorem decode (x0 : FVec Ideal S100000x40 .f32) (x1 : IVec S2x1600000 32) (x2 : FVec Ideal S40x64 .f32)
    (x3 : FVec Ideal S64 .f32) (x4 : FVec Ideal S40x64 .f32) (x5 : FVec Ideal S64x128 .f32) (x6 : FVec Ideal S128 .f32)
    (x7 : FVec Ideal S64x128 .f32) (x8 : FVec Ideal S128x64 .f32) (x9 : FVec Ideal S64 .f32) (x10 : FVec Ideal S128x64 .f32)
    (x11 : FVec Ideal S64x3 .f32) (x12 : FVec Ideal S3 .f32)
    (h : Cert.Pre_finite_inputs.fn (F := Ideal) x0 x1 x2 x3 x4 x5 x6 x7 x8 x9 x10 x11 x12 = fun _ => 1#1) :
    SrcOK 100000 x1 ∧ IsReal x0 ∧ IsReal x2 ∧ IsReal x3 ∧ IsReal x4 ∧ IsReal x5 ∧ IsReal x6 ∧ IsReal x7 ∧ IsReal x8
      ∧ IsReal x9 ∧ IsReal x10 ∧ IsReal x11 ∧ IsReal x12 := by
  have e := congrFun h ix0
  unfold Cert.Pre_finite_inputs.fn fn_part1 fn_part2 fn_part3 fn_part4 at e
  simp only [andi, IntOp.andi_eq_one] at e
  obtain ⟨⟨⟨⟨⟨⟨⟨⟨⟨⟨⟨⟨h0, h2⟩, h3⟩, h4⟩, h5⟩, h6⟩, h7⟩, h8⟩, h9⟩, h10⟩, h11⟩, h12⟩, hi⟩ := e
  exact ⟨srcOK_of_all x1 _ _ _ _ _ hi, isReal_of_all x0 _ _ _ h0, isReal_of_all x2 _ _ _ h2, isReal_of_all x3 _ _ _ h3,
    isReal_of_all x4 _ _ _ h4, isReal_of_all x5 _ _ _ h5, isReal_of_all x6 _ _ _ h6, isReal_of_all x7 _ _ _ h7,
    isReal_of_all x8 _ _ _ h8, isReal_of_all x9 _ _ _ h9, isReal_of_all x10 _ _ _ h10, isReal_of_all x11 _ _ _ h11,
    isReal_of_all x12 _ _ _ h12⟩

end Cert.Pre_finite_inputs.Decode

end
-- ==== Proof.lean ====
/-
  The certificate of a three-layer mean-aggregating graph network computed by three pallas_calls against its plain
  reference, over the extended reals.

  Both programs aggregate, at every node, the rows of the source nodes of the edges arriving there (a gather of rows
  followed by an accumulating scatter), divide by the larger of the edge count and one, and apply
  `max (mean Wl + b + x Wr) 0`; the reference does this three times and ends with an affine map. The kernel program
  multiplies by the reciprocal of the count instead of dividing by it, adds the bias last, and in the third layer
  multiplies the second hidden layer by the left weight matrix BEFORE aggregating it. The first two differences are
  identities of the extended reals (the count is at least one, so it is not zero; addition is commutative and
  associative). The third is the linearity of the aggregation, which distributes a product over a sum and therefore
  needs every entry to be a real number: that is where the finiteness of the inputs is used, carried through the
  first two layers. The kernel's gather marks the rows of edges whose source is no node, where the reference reads the
  nearest node; the two agree when every source is a node, which the precondition states.
-/
import proofs.«412509_j41248865911345_3_alg».proof.Defs
import proofs.«412509_j41248865911345_3_alg».proof.Proof.Gen.Kernel
import proofs.«412509_j41248865911345_3_alg».proof.Proof.Gen.Kernel.Skeleton
import proofs.«412509_j41248865911345_3_alg».proof.Proof.Gen.Kernel.Launch
import proofs.«412509_j41248865911345_3_alg».proof.Proof.Gen.Kernel.Points
import proofs.«412509_j41248865911345_3_alg».proof.Proof.Gen.Kernel.Frame
import proofs.«412509_j41248865911345_3_alg».proof.Proof.Gen.KernelIdeal
import proofs.«412509_j41248865911345_3_alg».proof.Proof.Gen.KernelIdeal.Skeleton
import proofs.«412509_j41248865911345_3_alg».proof.Proof.Gen.KernelIdeal.Launch
import proofs.«412509_j41248865911345_3_alg».proof.Proof.Gen.KernelIdeal.Points
import proofs.«412509_j41248865911345_3_alg».proof.Proof.Gen.KernelIdeal.Frame
import proofs.«412509_j41248865911345_3_alg».proof.Proof.Gen.ReferenceIdeal
import proofs.«412509_j41248865911345_3_alg».proof.Proof.Gen.ReferenceIdeal.Run
import proofs.«412509_j41248865911345_3_alg».proof.Proof.Gen.ReferenceIdeal.Read
import proofs.«412509_j41248865911345_3_alg».proof.Proof.Gen.Pre_finite_inputs
import proofs.«412509_j41248865911345_3_alg».proof.Proof.KernelRun
import proofs.«412509_j41248865911345_3_alg».proof.Proof.KernelValue
import proofs.«412509_j41248865911345_3_alg».proof.Proof.Bridge
import proofs.«412509_j41248865911345_3_alg».proof.Proof.PreDecode
import Idealize.ShloMosaic.Adequacy
import Idealize.ShloMosaic.Init

noncomputable section

namespace Cert.Proof

open Idealize.ShloMosaic Idealize.ShloMosaic.TcCoe Idealize.SL.Sem

/-- The two programs count the edges arriving at a node by the same operations. -/
theorem cnt_eq (x1 : IVec Cert.KernelIdeal.S2x1600000 32) :
    Cert.KernelIdeal.HostValue.cntK x1 = Cert.ReferenceIdeal.Read.val_main_v17 (F := Ideal) x1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the network of the arguments: the kernel program's by its three calls composed through the host
    operations, the reference's because its layers are the network's. -/
theorem algebraic : Cert.algebraic_KernelIdeal_ReferenceIdeal := by
  intro m ρ m' ρ' hpre hagree
  have hd := fun c : Dev Cert.KernelIdeal.nD => Cert.Pre_finite_inputs.Decode.decode _ _ _ _ _ _ _ _ _ _ _ _ _ (hpre c)
  refine ⟨fun c => Cert.Sage.net (Cert.KernelIdeal.HostValue.cntK (m ((c.tc : Thread Cert.KernelIdeal.nD Cert.KernelIdeal.τ).loc Cert.KernelIdeal.main_arg1)))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.HostValue.result_eq m ρ c (hd c).1), (h c).2⟩)
      (Cert.KernelIdeal.GenRun.run_value (F := Ideal) m ρ)
  · refine (θ_run Cert.ReferenceIdeal.defs _ _).mono (fun r h c => ⟨(h c).1.trans ?_, (h c).2⟩) (Cert.ReferenceIdeal.Value.run (F := Ideal) m' ρ')
    obtain ⟨a0, a1, a2, a3, a4, a5, a6, a7, a8, a9, a10, a11, a12⟩ := hagree c
    obtain ⟨hsrc, r0, r2, r3, r4, r5, r6, r7, r8, r9, r10, r11, r12⟩ := hd c
    rw [Cert.ReferenceIdeal.Read.val_main_v85_eq, a0, a1, a2, a3, a4, a5, a6, a7, a8, a9, a10, a11, a12]
    dsimp only
    rw [cnt_eq]
    exact (Cert.ReferenceIdeal.RefValue.net_eq_reference _ _ _ _ _ _ _ _ _ _ _ _ _ hsrc r0 r2 r3 r4 r5 r6 r7 r8 r9 r10 r11 r12).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
